-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_arg22 : IVec S100000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_c_34 : IVec S_ 32 := constantI S_ 32 0#32
  let main_v89 : IVec S100000 32 := broadcastInDim S100000 ![] bcast_S_S100000 main_c_34
  let main_v90 : IVec S100000 1 := cmpi .sge main_arg22 main_v89
  let main_c_35 : IVec S_ 32 := constantI S_ 32 64#32
  let main_v91 : IVec S100000 32 := broadcastInDim S100000 ![] bcast_S_S100000 main_c_35
  let main_v92 : IVec S100000 1 := cmpi .slt main_arg22 main_v91
  let main_v93 : IVec S100000 1 := andi main_v90 main_v92
  let main_c_36 : IVec S_ 1 := constantI S_ 1 1#1
  let main_v94 : IVec S_ 1 := (fun x v => Host.reduce IntOp.andi x v reducesTo_S100000_S_d0 h_S_) main_v93 main_c_36
  let main_v95 : IVec S_ 1 := andi main_v88 main_v94
  main_v95

def fn_part4 {F : FTy → Type} [FloatOps F] (main_arg14 : FVec F S64 .f32) (main_arg15 : FVec F S128x64 .f32) (main_arg16 : FVec F S128x64 .f32) (main_arg17 : FVec F S64 .f32) (main_arg22 : IVec S100000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S128x64 .f32 := Host.absf main_arg16
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg22 main_v83 main_v84 main_cst_32

def fn_part3 {F : FTy → Type} [FloatOps F] (main_arg11 : FVec F S64 .f32) (main_arg12 : FVec F S128x64 .f32) (main_arg13 : FVec F S128x64 .f32) (main_arg14 : FVec F S64 .f32) (main_arg15 : FVec F S128x64 .f32) (main_arg16 : FVec F S128x64 .f32) (main_arg17 : FVec F S64 .f32) (main_arg22 : IVec S100000 32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_arg22 main_v63 main_v67

def fn_part2 {F : FTy → Type} [FloatOps F] (main_arg7 : FVec F S64x128 .f32) (main_arg8 : FVec F S128x128 .f32) (main_arg9 : FVec F S128 .f32) (main_arg10 : FVec F S128x64 .f32) (main_arg11 : FVec F S64 .f32) (main_arg12 : FVec F S128x64 .f32) (main_arg13 : FVec F S128x64 .f32) (main_arg14 : FVec F S64 .f32) (main_arg15 : FVec F S128x64 .f32) (main_arg16 : FVec F S128x64 .f32) (main_arg17 : FVec F S64 .f32) (main_arg22 : IVec S100000 32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg22 main_v48 main_v49 main_v50

def fn_part1 {F : FTy → Type} [FloatOps F] (main_arg4 : FVec F S128x128 .f32) (main_arg5 : FVec F S64x128 .f32) (main_arg6 : FVec F S128 .f32) (main_arg7 : FVec F S64x128 .f32) (main_arg8 : FVec F S128x128 .f32) (main_arg9 : FVec F S128 .f32) (main_arg10 : FVec F S128x64 .f32) (main_arg11 : FVec F S64 .f32) (main_arg12 : FVec F S128x64 .f32) (main_arg13 : FVec F S128x64 .f32) (main_arg14 : FVec F S64 .f32) (main_arg15 : FVec F S128x64 .f32) (main_arg16 : FVec F S128x64 .f32) (main_arg17 : FVec F S64 .f32) (main_arg22 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg22 main_v33

def fn {F : FTy → Type} [FloatOps F] (main_arg0 : FVec F S100000x128 .f32) (main_arg1 : FVec F S64x64 .f32) (main_arg2 : FVec F S128x128 .f32) (main_arg3 : FVec F S128 .f32) (main_arg4 : FVec F S128x128 .f32) (main_arg5 : FVec F S64x128 .f32) (main_arg6 : FVec F S128 .f32) (main_arg7 : FVec F S64x128 .f32) (main_arg8 : FVec F S128x128 .f32) (main_arg9 : FVec F S128 .f32) (main_arg10 : FVec F S128x64 .f32) (main_arg11 : FVec F S64 .f32) (main_arg12 : FVec F S128x64 .f32) (main_arg13 : FVec F S128x64 .f32) (main_arg14 : FVec F S64 .f32) (main_arg15 : FVec F S128x64 .f32) (main_arg16 : FVec F S128x64 .f32) (main_arg17 : FVec F S64 .f32) (main_arg18 : IVec S1600000 32) (main_arg19 : IVec S1600000 32) (main_arg20 : IVec S100000 32) (main_arg21 : IVec S100000 32) (main_arg22 : IVec S100000 32) (main_arg23 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg22 main_v13 main_v16
-- ==== Kernel.lean ====
abbrev S100000x128 : Shape := ⟨2, ![100000, 128]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S100000x64 : Shape := ⟨2, ![100000, 64]⟩
abbrev S4000x64 : Shape := ⟨2, ![4000, 64]⟩
abbrev S1x128 : Shape := ⟨2, ![1, 128]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 126
  | .vmem => 65
  | .smem => 0
  | _ => 0

abbrev bufTy : (tb : Table) → Fin (tcTables nBuf tb) → BufTy
  | .hbm, ⟨0, _⟩ => ⟨S100000x128, .f32⟩
  | .hbm, ⟨1, _⟩ => ⟨S64x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S128x64, .f32⟩
  | .hbm, ⟨14, _⟩ => ⟨S64, .f32⟩
  | .hbm, ⟨15, _⟩ => ⟨S128x64, .f32⟩
  | .hbm, ⟨16, _⟩ => ⟨S128x64, .f32⟩
  | .hbm, ⟨17, _⟩ => ⟨S64, .f32⟩
  | .hbm, ⟨18, _⟩ => ⟨S1600000, .i32⟩
  | .hbm, ⟨19, _⟩ => ⟨S1600000, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .i32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x1, .i32⟩
  | .hbm, ⟨56, _⟩ => ⟨S100000x64, .f32⟩
  | .hbm, ⟨57, _⟩ => ⟨S100000x1, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x128, .f32⟩
  | .hbm, ⟨70, _⟩ => ⟨S100000x1, .i32⟩
  | .hbm, ⟨71, _⟩ => ⟨S64x128, .f32⟩
  | .hbm, ⟨72, _⟩ => ⟨S64x128, .f32⟩
  | .hbm, ⟨73, _⟩ => ⟨S64x128, .f32⟩
  | .hbm, ⟨74, _⟩ => ⟨S64x128, .f32⟩
  | .hbm, ⟨75, _⟩ => ⟨S1x128, .f32⟩
  | .hbm, ⟨76, _⟩ => ⟨S64x128, .f32⟩
  | .hbm, ⟨77, _⟩ => ⟨S64x128, .f32⟩
  | .hbm, ⟨78, _⟩ => ⟨S_, .f32⟩
  | .hbm, ⟨79, _⟩ => ⟨S64x128, .f32⟩
  | .hbm, ⟨80, _⟩ => ⟨S64x128, .f32⟩
  | .hbm, ⟨81, _⟩ => ⟨S100000x1, .f32⟩
  | .hbm, ⟨82, _⟩ => ⟨S100000x64, .f32⟩
  | .hbm, ⟨83, _⟩ => ⟨S100000x64, .bf16⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .bf16⟩
  | .hbm, ⟨93, _⟩ => ⟨S1600000x64, .f32⟩
  | .hbm, ⟨94, _⟩ => ⟨S_, .f32⟩
  | .hbm, ⟨95, _⟩ => ⟨S100000x64, .f32⟩
  | .hbm, ⟨96, _⟩ => ⟨S1600000x1, .i32⟩
  | .hbm, ⟨97, _⟩ => ⟨S100000x64, .f32⟩
  | .hbm, ⟨98, _⟩ => ⟨S64x64, .f32⟩
  | .hbm, ⟨99, _⟩ => ⟨S100000x1, .i32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x1, .i32⟩
  | .hbm, ⟨104, _⟩ => ⟨S100000x64, .f32⟩
  | .hbm, ⟨105, _⟩ => ⟨S100000x1, .f32⟩
  | .hbm, ⟨106, _⟩ => ⟨S1x64, .f32⟩
  | .hbm, ⟨107, _⟩ => ⟨S1x64, .f32⟩
  | .hbm, ⟨108, _⟩ => ⟨S100000x64, .f32⟩
  | .hbm, ⟨109, _⟩ => ⟨S_, .i32⟩
  | .hbm, ⟨110, _⟩ => ⟨S100000, .i32⟩
  | .hbm, ⟨111, _⟩ => ⟨S100000, .i1⟩
  | .hbm, ⟨112, _⟩ => ⟨S_, .i32⟩
  | .hbm, ⟨113, _⟩ => ⟨S100000, .i32⟩
  | .hbm, ⟨114, _⟩ => ⟨S100000, .i32⟩
  | .hbm, ⟨115, _⟩ => ⟨S100000, .i32⟩
  | .hbm, ⟨116, _⟩ => ⟨S100000x1, .i32⟩
  | .hbm, ⟨117, _⟩ => ⟨S100000x128, .f32⟩
  | .hbm, ⟨118, _⟩ => ⟨S100000x1, .i32⟩
  | .hbm, ⟨119, _⟩ => ⟨S64x128, .f32⟩
  | .hbm, ⟨120, _⟩ => ⟨S64x64, .f32⟩
  | .hbm, ⟨121, _⟩ => ⟨S64x64, .f32⟩
  | .hbm, ⟨122, _⟩ => ⟨S64x64, .f32⟩
  | .hbm, ⟨123, _⟩ => ⟨S1x64, .f32⟩
  | .hbm, ⟨124, _⟩ => ⟨S64x64, .f32⟩
  | .hbm, ⟨125, _⟩ => ⟨S64x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x1, .i32⟩
  | .local _ .vmem, ⟨8, _⟩ => ⟨S4000x1, .i32⟩
  | .local _ .vmem, ⟨9, _⟩ => ⟨S64x64, .f32⟩
  | .local _ .vmem, ⟨10, _⟩ => ⟨S4000x64, .f32⟩
  | .local _ .vmem, ⟨11, _⟩ => ⟨S4000x64, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S1x128, .f32⟩
  | .local _ .vmem, ⟨19, _⟩ => ⟨S2000x64, .f32⟩
  | .local _ .vmem, ⟨20, _⟩ => ⟨S2000x64, .f32⟩
  | .local _ .vmem, ⟨21, _⟩ => ⟨S2000x128, .f32⟩
  | .local _ .vmem, ⟨22, _⟩ => ⟨S2000x128, .f32⟩
  | .local _ .vmem, ⟨23, _⟩ => ⟨S64x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S4000x1, .i32⟩
  | .local _ .vmem, ⟨29, _⟩ => ⟨S4000x1, .i32⟩
  | .local _ .vmem, ⟨30, _⟩ => ⟨S4000x128, .f32⟩
  | .local _ .vmem, ⟨31, _⟩ => ⟨S4000x128, .f32⟩
  | .local _ .vmem, ⟨32, _⟩ => ⟨S64x128, .f32⟩
  | .local _ .vmem, ⟨33, _⟩ => ⟨S4000x128, .f32⟩
  | .local _ .vmem, ⟨34, _⟩ => ⟨S4000x128, .f32⟩
  | .local _ .vmem, ⟨35, _⟩ => ⟨S128x64, .f32⟩
  | .local _ .vmem, ⟨36, _⟩ => ⟨S4000x1, .f32⟩
  | .local _ .vmem, ⟨37, _⟩ => ⟨S4000x1, .f32⟩
  | .local _ .vmem, ⟨38, _⟩ => ⟨S4000x64, .f32⟩
  | .local _ .vmem, ⟨39, _⟩ => ⟨S4000x64, .f32⟩
  | .local _ .vmem, ⟨40, _⟩ => ⟨S4000x1, .i32⟩
  | .local _ .vmem, ⟨41, _⟩ => ⟨S4000x1, .i32⟩
  | .local _ .vmem, ⟨42, _⟩ => ⟨S64x64, .f32⟩
  | .local _ .vmem, ⟨43, _⟩ => ⟨S4000x64, .f32⟩
  | .local _ .vmem, ⟨44, _⟩ => ⟨S4000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x1, .f32⟩
  | .local _ .vmem, ⟨50, _⟩ => ⟨S2000x1, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | .local _ .vmem, ⟨54, _⟩ => ⟨S2000x128, .f32⟩
  | .local _ .vmem, ⟨55, _⟩ => ⟨S2000x128, .f32⟩
  | .local _ .vmem, ⟨56, _⟩ => ⟨S128x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S4000x1, .i32⟩
  | .local _ .vmem, ⟨61, _⟩ => ⟨S4000x1, .i32⟩
  | .local _ .vmem, ⟨62, _⟩ => ⟨S4000x128, .f32⟩
  | .local _ .vmem, ⟨63, _⟩ => ⟨S4000x128, .f32⟩
  | .local _ .vmem, ⟨64, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call0_cst : Ref sig .tc := ⟨.hbm, 78, rfl⟩
abbrev main_call0_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_7 : Ref sig .tc := ⟨.hbm, 84, rfl⟩
abbrev main_v49 : Ref sig .tc := ⟨.hbm, 85, rfl⟩
abbrev main_v50 : Ref sig .tc := ⟨.hbm, 86, rfl⟩
abbrev main_c_8 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_10 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_11 : Ref sig .tc := ⟨.hbm, 109, rfl⟩
abbrev main_v70 : Ref sig .tc := ⟨.hbm, 110, rfl⟩
abbrev main_v71 : Ref sig .tc := ⟨.hbm, 111, rfl⟩
abbrev main_c_12 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg7_0 : Ref sig .tc := ⟨.vmem, 57, rfl⟩
abbrev cc6_stg8_0 : Ref sig .tc := ⟨.vmem, 58, rfl⟩
abbrev cc6_stg8_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem4_1 : DmaSem sig := 53
abbrev cc6_sem5_0 : DmaSem sig := 54
abbrev cc6_sem5_1 : DmaSem sig := 55
abbrev cc6_sem6_0 : DmaSem sig := 56
abbrev cc6_sem7_0 : DmaSem sig := 57
abbrev cc6_sem8_0 : DmaSem sig := 58
abbrev cc6_sem8_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4000x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  iota_S4000x64_d1_w32 : S4000x64.Iotas .tc 32 [1]
  broadcasts_S4000x1_S4000x64 : S4000x1.Broadcasts S4000x64
  natLt_1_32 : 1 < 32
  inb_S64x64_S64x64_0_0 : ∀ a, (![0, 0] : Fin 2 → Nat) a + S64x64.size a ≤ S64x64.size a
  h_S64x64 : 0 < S64x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  shapeCasts_S4000x128_S4000x128 : S4000x128.ShapeCasts S4000x128
  shapeCasts_S64x128_S64x128 : S64x128.ShapeCasts S64x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  inb_S128x64_S128x64_0_0 : ∀ a, (![0, 0] : Fin 2 → Nat) a + S128x64.size a ≤ S128x64.size a
  h_S128x64 : 0 < S128x64.numel
  shapeCasts_S64x64_S64x64 : S64x64.ShapeCasts S64x64
  shapeCasts_S64_S1x64 : S64.ShapeCasts S1x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x64_S64x64_S4000x64_1_0_0_1_n_n_wf : DotDims.WF S4000x64 S64x64 S4000x64 [1] [0] [0] [1] [] []
  scatter_S100000x64_S100000x1_S100000x64_1_0_0_1_wf : ScatterDims.WF S100000x64 S100000x1 S100000x64 [1] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  gather_S100000x128_S100000x1_S100000x128_1_0_n_n_0_1_1128_wf : GatherDims.WF S100000x128 S100000x1 S100000x128 [1] [0] [] [0] [] 1 ![1, 128]
  dot_S4000x64_S4000x128_S64x128_0_0_1_1_n_n_wf : DotDims.WF S4000x64 S4000x128 S64x128 [0] [0] [1] [1] [] []
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S64x128_S128x64_S64x64_1_0_0_1_n_n_wf : DotDims.WF S64x128 S128x64 S64x64 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S100000x1.size a
  hwx1_0 : ∀ i : grid1.Coords, EltTy.bits .i32 = 32 ∨ (Rect.block (s := S100000x1) S4000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S100000x1.size a
  hwx3_0 : ∀ i : grid3.Coords, EltTy.bits .i32 = 32 ∨ (Rect.block (s := S100000x1) S4000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x1.size a ≤ S100000x1.size a
  hwx5_0 : ∀ i : grid5.Coords, EltTy.bits .i32 = 32 ∨ (Rect.block (s := S100000x1) S4000x1.size (cc5_transform_0 i) (hinb5_0 i)).WholeWords (EltTy.packing .i32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S100000x64.size a
  hwx6_4 : ∀ i : grid6.Coords, EltTy.bits .f32 = 32 ∨ (Rect.block (s := S100000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S100000x128.size a
  hwx6_5 : ∀ i : grid6.Coords, EltTy.bits .f32 = 32 ∨ (Rect.block (s := S100000x128) S2000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x64.size a ≤ S128x64.size a
  hwx6_6 : ∀ i : grid6.Coords, EltTy.bits .f32 = 32 ∨ (Rect.block (s := S128x64) S128x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x64.size a ≤ S100000x64.size a
  hwx6_8 : ∀ i : grid6.Coords, EltTy.bits .f32 = 32 ∨ (Rect.block (s := S100000x64) S2000x64.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x1.size a ≤ S100000x1.size a
  hwx7_0 : ∀ i : grid7.Coords, EltTy.bits .i32 = 32 ∨ (Rect.block (s := S100000x1) S4000x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S100000x128.size a
  hwx7_1 : ∀ i : grid7.Coords, EltTy.bits .f32 = 32 ∨ (Rect.block (s := S100000x128) S4000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x128.size a ≤ S64x128.size a
  hwx7_2 : ∀ i : grid7.Coords, EltTy.bits .f32 = 32 ∨ (Rect.block (s := S64x128) S64x128.size (cc7_transform_2 i) (hinb7_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v29) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v37) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v47) S4000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S4000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v59) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v47) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v66) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v67) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v29) S2000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg16) S128x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v68) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v69) S2000x64.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v77) S4000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v76) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v78) S64x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S64x64 : Shape := ⟨2, ![64, 64]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S64x64, .f32⟩
  | 2 => ⟨S128x128, .f32⟩
  | 3 => ⟨S128, .f32⟩
  | 4 => ⟨S128x128, .f32⟩
  | 5 => ⟨S64x128, .f32⟩
  | 6 => ⟨S128, .f32⟩
  | 7 => ⟨S64x128, .f32⟩
  | 8 => ⟨S128x128, .f32⟩
  | 9 => ⟨S128, .f32⟩
  | 10 => ⟨S128x64, .f32⟩
  | 11 => ⟨S64, .f32⟩
  | 12 => ⟨S128x64, .f32⟩
  | 13 => ⟨S128x64, .f32⟩
  | 14 => ⟨S64, .f32⟩
  | 15 => ⟨S128x64, .f32⟩
  | 16 => ⟨S128x64, .f32⟩
  | 17 => ⟨S64, .f32⟩
  | 18 => ⟨S1600000, .i32⟩
  | 19 => ⟨S1600000, .i32⟩
  | 20 => ⟨S100000, .i32⟩
  | 21 => ⟨S100000, .i32⟩
  | 22 => ⟨S100000, .i32⟩
  | 23 => ⟨S100000, .i32⟩
  | 24 => ⟨S100000x128, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x64, .f32⟩
  | 80 => ⟨S_, .f32⟩
  | 81 => ⟨S100000x64, .f32⟩
  | 82 => ⟨S100000x1, .i32⟩
  | 83 => ⟨S100000x64, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x128, .f32⟩
  | 99 => ⟨S_, .f32⟩
  | 100 => ⟨S64x128, .f32⟩
  | 101 => ⟨S100000x1, .i32⟩
  | 102 => ⟨S64x128, .f32⟩
  | 103 => ⟨S64x128, .f32⟩
  | 104 => ⟨S64x128, .f32⟩
  | 105 => ⟨S64x128, .f32⟩
  | 106 => ⟨S1x128, .f32⟩
  | 107 => ⟨S64x128, .f32⟩
  | 108 => ⟨S64x128, .f32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S64x128, .f32⟩
  | 118 => ⟨S64x128, .f32⟩
  | 119 => ⟨S100000x64, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000x1, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S100000x64, .f32⟩
  | 30 => ⟨S100000, .f32⟩
  | 31 => ⟨S100000x1, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x128, .f32⟩
  | 47 => ⟨S_, .f32⟩
  | 48 => ⟨S100000x128, .f32⟩
  | 49 => ⟨S100000x1, .i32⟩
  | 50 => ⟨S100000x128, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S_, .f32⟩
  | 67 => ⟨S64x128, .f32⟩
  | 68 => ⟨S100000x1, .i32⟩
  | 69 => ⟨S64x128, .f32⟩
  | 70 => ⟨S64x64, .f32⟩
  | 71 => ⟨S64x64, .f32⟩
  | 72 => ⟨S64x64, .f32⟩
  | 73 => ⟨S1x64, .f32⟩
  | 74 => ⟨S64x64, .f32⟩
  | 75 => ⟨S64x64, .f32⟩
  | 76 => ⟨S100000x64, .f32⟩
  | 77 => ⟨S_, .f32⟩
  | 78 => ⟨S100000x64, .f32⟩
  | 79 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_6 : Ref sig .tc := ⟨.hbm, 71, rfl⟩
abbrev main_v39 : Ref sig .tc := ⟨.hbm, 72, rfl⟩
abbrev main_v40 : Ref sig .tc := ⟨.hbm, 73, rfl⟩
abbrev main_c_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_8 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_c_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_v73 : Ref sig .tc := ⟨.hbm, 112, rfl⟩
abbrev main_call0_cst : Ref sig .tc := ⟨.hbm, 113, rfl⟩
abbrev main_call0_v0 : Ref sig .tc := ⟨.hbm, 114, rfl⟩
abbrev main_v74 : Ref sig .tc := ⟨.hbm, 115, rfl⟩
abbrev main_call1_cst : Ref sig .tc := ⟨.hbm, 116, rfl⟩
abbrev main_call1_v0 : Ref sig .tc := ⟨.hbm, 117, rfl⟩
abbrev main_v75 : Ref sig .tc := ⟨.hbm, 118, rfl⟩
abbrev main_v76 : Ref sig .tc := ⟨.hbm, 119, rfl⟩
abbrev main_cst_13 : Ref sig .tc := ⟨.hbm, 120, rfl⟩
abbrev main_v77 : Ref sig .tc := ⟨.hbm, 121, rfl⟩
abbrev main_cst_14 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_16 : Ref sig .tc := ⟨.hbm, 131, rfl⟩
abbrev main_v85 : Ref sig .tc := ⟨.hbm, 132, rfl⟩
abbrev main_v86 : Ref sig .tc := ⟨.hbm, 133, rfl⟩
abbrev main_c_17 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_18 : Ref sig .tc := ⟨.hbm, 140, rfl⟩
abbrev main_v92 : Ref sig .tc := ⟨.hbm, 141, rfl⟩
abbrev main_v93 : Ref sig .tc := ⟨.hbm, 142, rfl⟩
abbrev main_c_19 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_20 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_21 : Ref sig .tc := ⟨.hbm, 166, rfl⟩
abbrev main_v115 : Ref sig .tc := ⟨.hbm, 167, rfl⟩
abbrev main_v116 : Ref sig .tc := ⟨.hbm, 168, rfl⟩
abbrev main_c_22 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_23 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_24 : Ref sig .tc := ⟨.hbm, 185, rfl⟩
abbrev main_v131 : Ref sig .tc := ⟨.hbm, 186, rfl⟩
abbrev main_v132 : Ref sig .tc := ⟨.hbm, 187, rfl⟩
abbrev main_c_25 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_26 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_27 : Ref sig .tc := ⟨.hbm, 205, rfl⟩
abbrev main_v148 : Ref sig .tc := ⟨.hbm, 206, rfl⟩
abbrev main_v149 : Ref sig .tc := ⟨.hbm, 207, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S_S64x128 : S_.BroadcastsInDim S64x128 (![] : Fin 0 → Fin S64x128.rank)
  bcast_S1x128_S64x128_0_1 : S1x128.BroadcastsInDim S64x128 (![0, 1] : Fin 2 → Fin S64x128.rank)
  bcast_S1600000x1_S1600000x64_0_1 : S1600000x1.BroadcastsInDim S1600000x64 (![0, 1] : Fin 2 → Fin S1600000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S64x64_0_1 : S1x64.BroadcastsInDim S64x64 (![0, 1] : Fin 2 → Fin S64x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  gather_S64x64_S100000x1_S100000x64_1_0_n_n_0_1_164_wf : GatherDims.WF S64x64 S100000x1 S100000x64 [1] [0] [] [0] [] 1 ![1, 64]
  scatter_S100000x64_S100000x1_S100000x64_1_0_0_1_wf : ScatterDims.WF S100000x64 S100000x1 S100000x64 [1] [0] [0] 1
  dot_S100000x64_S64x128_S100000x128_1_0_0_1_n_n_wf : DotDims.WF S100000x64 S64x128 S100000x128 [1] [0] [0] [1] [] []
  gather_S100000x128_S100000x1_S100000x128_1_0_n_n_0_1_1128_wf : GatherDims.WF S100000x128 S100000x1 S100000x128 [1] [0] [] [0] [] 1 ![1, 128]
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x64_S64x128_S64x128_1_0_0_1_n_n_wf : DotDims.WF S64x64 S64x128 S64x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S64x128_S100000x1_S100000x128_1_0_n_n_0_1_1128_wf : GatherDims.WF S64x128 S100000x1 S100000x128 [1] [0] [] [0] [] 1 ![1, 128]
  scatter_S100000x128_S100000x1_S100000x128_1_0_0_1_wf : ScatterDims.WF S100000x128 S100000x1 S100000x128 [1] [0] [0] 1
  dot_S64x128_S128x64_S64x64_1_0_0_1_n_n_wf : DotDims.WF S64x128 S128x64 S64x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KTail.lean ====
/-
  A buffer that none of @main's later segments writes holds, at the last boundary, what it held at an earlier one.

  @main is nineteen segments, host stretches and kernel regions in turn, and `Gen.W0 … Gen.W19` are the contents of the
  core's buffers at the twenty boundaries. Every value of @main is written by exactly one segment, and an argument
  by none. `pass_k`: segment `k` leaves every buffer it does not write as it found it (a host stretch writes the
  results of its operations; a region writes its output array only and hands each input array back as entered).
  `tail_k`: hence a buffer that no segment from `k` on writes is, at boundary 19, what it was at boundary `k`.
-/
import proofs.«428892_j6622839570445_2_alg».proof.Proof.Gen.KernelIdeal.Frame
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## What each segment writes -/

/-- Segment 0 (host stretch hostOps0) writes these. -/
abbrev wr0 : List (Ref sig .tc) := [main_cst, main_v0, main_cst_0, main_v1, main_v2, main_v3, main_cst_1, main_v4, main_v5, main_v6, main_v7]
/-- Segment 1 (kernel region 0) writes these. -/
abbrev wr1 : List (Ref sig .tc) := [main_v8]
/-- Segment 2 (host stretch hostOps1) writes these. -/
abbrev wr2 : List (Ref sig .tc) := [main_v9, main_c, main_v10, main_v11, main_c_2, main_v12, main_v13, main_v14, main_v15, main_v16, main_v17, main_cst_3, main_v18, main_v19, main_v20, main_v21]
/-- Segment 3 (kernel region 1) writes these. -/
abbrev wr3 : List (Ref sig .tc) := [main_v22]
/-- Segment 4 (host stretch hostOps2) writes these. -/
abbrev wr4 : List (Ref sig .tc) := [main_cst_4, main_v23, main_v24, main_v25, main_v26, main_v27, main_v28]
/-- Segment 5 (kernel region 2) writes these. -/
abbrev wr5 : List (Ref sig .tc) := [main_v29]
/-- Segment 6 (host stretch hostOps3) writes these. -/
abbrev wr6 : List (Ref sig .tc) := [main_c_5, main_v30, main_v31, main_c_6, main_v32, main_v33, main_v34, main_v35, main_v36, main_v37]
/-- Segment 7 (kernel region 3) writes these. -/
abbrev wr7 : List (Ref sig .tc) := [main_v38]
/-- Segment 8 (host stretch hostOps4) writes these. -/
abbrev wr8 : List (Ref sig .tc) := [main_v39, main_v40, main_v41, main_v42, main_v43, main_v44]
/-- Segment 9 (host stretch hostOps4_1) writes these. -/
abbrev wr9 : List (Ref sig .tc) := [main_call0_cst, main_call0_v0, main_v45]
/-- Segment 10 (host stretch hostOps4_2) writes these. -/
abbrev wr10 : List (Ref sig .tc) := [main_v46]
/-- Segment 11 (kernel region 4) writes these. -/
abbrev wr11 : List (Ref sig .tc) := [main_v47]
/-- Segment 12 (host stretch hostOps5) writes these. -/
abbrev wr12 : List (Ref sig .tc) := [main_v48, main_c_7, main_v49, main_v50, main_c_8, main_v51, main_v52, main_v53, main_v54, main_v55, main_v56, main_cst_9, main_v57, main_v58, main_v59, main_v60, main_v61]
/-- Segment 13 (kernel region 5) writes these. -/
abbrev wr13 : List (Ref sig .tc) := [main_v62]
/-- Segment 14 (host stretch hostOps6) writes these. -/
abbrev wr14 : List (Ref sig .tc) := [main_cst_10, main_v63, main_v64, main_v65, main_v66, main_v67, main_v68]
/-- Segment 15 (kernel region 6) writes these. -/
abbrev wr15 : List (Ref sig .tc) := [main_v69]
/-- Segment 16 (host stretch hostOps7) writes these. -/
abbrev wr16 : List (Ref sig .tc) := [main_c_11, main_v70, main_v71, main_c_12, main_v72, main_v73, main_v74, main_v75, main_v76, main_v77]
/-- Segment 17 (kernel region 7) writes these. -/
abbrev wr17 : List (Ref sig .tc) := [main_v78]
/-- Segment 18 (host stretch hostOps8) writes these. -/
abbrev wr18 : List (Ref sig .tc) := [main_v79, main_v80, main_v81, main_v82, main_v83, main_v84]

/-! ## What the segments from `k` on write -/

abbrev wrFrom18 : List (Ref sig .tc) := wr18
abbrev wrFrom17 : List (Ref sig .tc) := wr17 ++ wrFrom18
abbrev wrFrom16 : List (Ref sig .tc) := wr16 ++ wrFrom17
abbrev wrFrom15 : List (Ref sig .tc) := wr15 ++ wrFrom16
abbrev wrFrom14 : List (Ref sig .tc) := wr14 ++ wrFrom15
abbrev wrFrom13 : List (Ref sig .tc) := wr13 ++ wrFrom14
abbrev wrFrom12 : List (Ref sig .tc) := wr12 ++ wrFrom13
abbrev wrFrom11 : List (Ref sig .tc) := wr11 ++ wrFrom12
abbrev wrFrom10 : List (Ref sig .tc) := wr10 ++ wrFrom11
abbrev wrFrom9 : List (Ref sig .tc) := wr9 ++ wrFrom10
abbrev wrFrom8 : List (Ref sig .tc) := wr8 ++ wrFrom9
abbrev wrFrom7 : List (Ref sig .tc) := wr7 ++ wrFrom8
abbrev wrFrom6 : List (Ref sig .tc) := wr6 ++ wrFrom7
abbrev wrFrom5 : List (Ref sig .tc) := wr5 ++ wrFrom6
abbrev wrFrom4 : List (Ref sig .tc) := wr4 ++ wrFrom5
abbrev wrFrom3 : List (Ref sig .tc) := wr3 ++ wrFrom4
abbrev wrFrom2 : List (Ref sig .tc) := wr2 ++ wrFrom3
abbrev wrFrom1 : List (Ref sig .tc) := wr1 ++ wrFrom2
abbrev wrFrom0 : List (Ref sig .tc) := wr0 ++ wrFrom1

/-! ## One segment -/

/-- A host stretch leaves a buffer that is not the result of one of its operations as it found it: every operation
    writes its own result only. -/
local macro "host_pass" ops:ident hb:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne ($hb:ident _ (by simp)))))

theorem pass0 (c : Dev nD) (b : Ref sig .tc) (hb : ∀ r ∈ wr0, b ≠ r) :
    W1 m ρ c (Proc.devRef .tc b) = W0 m ρ c (Proc.devRef .tc b) := by
  host_pass hostOps0 hb

/- A kernel region: a buffer that is none of the region's arrays is left as entered; a buffer that is one of its
   arrays and is not the region's output is an input array, which the pipeline hands back as entered. That every
   array other than the output is an input is a finite check over the region's windows. -/
theorem pass1 (c : Dev nD) (b : Ref sig .tc) (hb : ∀ r ∈ wr1, b ≠ r) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    have hin : (cfg0.win w).isOut = false := by
      revert hb; revert w; decide
    exact (W2_arr m ρ c w).trans (((dat0 (V1 m ρ) c).arrAt_in w hin _).trans (A_eq0 (V1 m ρ) c w))

theorem pass2 (c : Dev nD) (b : Ref sig .tc) (hb : ∀ r ∈ wr2, b ≠ r) :
    W3 m ρ c (Proc.devRef .tc b) = W2 m ρ c (Proc.devRef .tc b) := by
  host_pass hostOps1 hb

theorem pass3 (c : Dev nD) (b : Ref sig .tc) (hb : ∀ r ∈ wr3, b ≠ r) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    have hin : (cfg1.win w).isOut = false := by
      revert hb; revert w; decide
    exact (W4_arr m ρ c w).trans (((dat1 (V3 m ρ) c).arrAt_in w hin _).trans (A_eq1 (V3 m ρ) c w))

theorem pass4 (c : Dev nD) (b : Ref sig .tc) (hb : ∀ r ∈ wr4, b ≠ r) :
    W5 m ρ c (Proc.devRef .tc b) = W4 m ρ c (Proc.devRef .tc b) := by
  host_pass hostOps2 hb

theorem pass5 (c : Dev nD) (b : Ref sig .tc) (hb : ∀ r ∈ wr5, b ≠ r) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    have hin : (cfg2.win w).isOut = false := by
      revert hb; revert w; decide
    exact (W6_arr m ρ c w).trans (((dat2 (V5 m ρ) c).arrAt_in w hin _).trans (A_eq2 (V5 m ρ) c w))

theorem pass6 (c : Dev nD) (b : Ref sig .tc) (hb : ∀ r ∈ wr6, b ≠ r) :
    W7 m ρ c (Proc.devRef .tc b) = W6 m ρ c (Proc.devRef .tc b) := by
  host_pass hostOps3 hb

theorem pass7 (c : Dev nD) (b : Ref sig .tc) (hb : ∀ r ∈ wr7, b ≠ r) :
    W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    have hin : (cfg3.win w).isOut = false := by
      revert hb; revert w; decide
    exact (W8_arr m ρ c w).trans (((dat3 (V7 m ρ) c).arrAt_in w hin _).trans (A_eq3 (V7 m ρ) c w))

theorem pass8 (c : Dev nD) (b : Ref sig .tc) (hb : ∀ r ∈ wr8, b ≠ r) :
    W9 m ρ c (Proc.devRef .tc b) = W8 m ρ c (Proc.devRef .tc b) := by
  host_pass hostOps4 hb

theorem pass9 (c : Dev nD) (b : Ref sig .tc) (hb : ∀ r ∈ wr9, b ≠ r) :
    W10 m ρ c (Proc.devRef .tc b) = W9 m ρ c (Proc.devRef .tc b) := by
  host_pass hostOps4_1 hb

theorem pass10 (c : Dev nD) (b : Ref sig .tc) (hb : ∀ r ∈ wr10, b ≠ r) :
    W11 m ρ c (Proc.devRef .tc b) = W10 m ρ c (Proc.devRef .tc b) := by
  host_pass hostOps4_2 hb

theorem pass11 (c : Dev nD) (b : Ref sig .tc) (hb : ∀ r ∈ wr11, b ≠ r) :
    W12 m ρ c (Proc.devRef .tc b) = W11 m ρ c (Proc.devRef .tc b) := by
  by_cases h : ∀ w, Pipeline.arrRef spec4 w ≠ b
  · exact W12_of_ne m ρ c b h
  · push Not at h
    obtain ⟨w, rfl⟩ := h
    have hin : (cfg4.win w).isOut = false := by
      revert hb; revert w; decide
    exact (W12_arr m ρ c w).trans (((dat4 (V11 m ρ) c).arrAt_in w hin _).trans (A_eq4 (V11 m ρ) c w))

theorem pass12 (c : Dev nD) (b : Ref sig .tc) (hb : ∀ r ∈ wr12, b ≠ r) :
    W13 m ρ c (Proc.devRef .tc b) = W12 m ρ c (Proc.devRef .tc b) := by
  host_pass hostOps5 hb

theorem pass13 (c : Dev nD) (b : Ref sig .tc) (hb : ∀ r ∈ wr13, b ≠ r) :
    W14 m ρ c (Proc.devRef .tc b) = W13 m ρ c (Proc.devRef .tc b) := by
  by_cases h : ∀ w, Pipeline.arrRef spec5 w ≠ b
  · exact W14_of_ne m ρ c b h
  · push Not at h
    obtain ⟨w, rfl⟩ := h
    have hin : (cfg5.win w).isOut = false := by
      revert hb; revert w; decide
    exact (W14_arr m ρ c w).trans (((dat5 (V13 m ρ) c).arrAt_in w hin _).trans (A_eq5 (V13 m ρ) c w))

theorem pass14 (c : Dev nD) (b : Ref sig .tc) (hb : ∀ r ∈ wr14, b ≠ r) :
    W15 m ρ c (Proc.devRef .tc b) = W14 m ρ c (Proc.devRef .tc b) := by
  host_pass hostOps6 hb

theorem pass15 (c : Dev nD) (b : Ref sig .tc) (hb : ∀ r ∈ wr15, b ≠ r) :
    W16 m ρ c (Proc.devRef .tc b) = W15 m ρ c (Proc.devRef .tc b) := by
  by_cases h : ∀ w, Pipeline.arrRef spec6 w ≠ b
  · exact W16_of_ne m ρ c b h
  · push Not at h
    obtain ⟨w, rfl⟩ := h
    have hin : (cfg6.win w).isOut = false := by
      revert hb; revert w; decide
    exact (W16_arr m ρ c w).trans (((dat6 (V15 m ρ) c).arrAt_in w hin _).trans (A_eq6 (V15 m ρ) c w))

theorem pass16 (c : Dev nD) (b : Ref sig .tc) (hb : ∀ r ∈ wr16, b ≠ r) :
    W17 m ρ c (Proc.devRef .tc b) = W16 m ρ c (Proc.devRef .tc b) := by
  host_pass hostOps7 hb

theorem pass17 (c : Dev nD) (b : Ref sig .tc) (hb : ∀ r ∈ wr17, b ≠ r) :
    W18 m ρ c (Proc.devRef .tc b) = W17 m ρ c (Proc.devRef .tc b) := by
  by_cases h : ∀ w, Pipeline.arrRef spec7 w ≠ b
  · exact W18_of_ne m ρ c b h
  · push Not at h
    obtain ⟨w, rfl⟩ := h
    have hin : (cfg7.win w).isOut = false := by
      revert hb; revert w; decide
    exact (W18_arr m ρ c w).trans (((dat7 (V17 m ρ) c).arrAt_in w hin _).trans (A_eq7 (V17 m ρ) c w))

theorem pass18 (c : Dev nD) (b : Ref sig .tc) (hb : ∀ r ∈ wr18, b ≠ r) :
    W19 m ρ c (Proc.devRef .tc b) = W18 m ρ c (Proc.devRef .tc b) := by
  host_pass hostOps8 hb

/-! ## From boundary `k` to the end -/

theorem tail18 (c : Dev nD) (b : Ref sig .tc) (hb : ∀ r ∈ wrFrom18, b ≠ r) :
    W19 m ρ c (Proc.devRef .tc b) = W18 m ρ c (Proc.devRef .tc b) := pass18 m ρ c b hb
theorem tail17 (c : Dev nD) (b : Ref sig .tc) (hb : ∀ r ∈ wrFrom17, b ≠ r) :
    W19 m ρ c (Proc.devRef .tc b) = W17 m ρ c (Proc.devRef .tc b) :=
  (tail18 m ρ c b (fun r hr => hb r (List.mem_append_right _ hr))).trans (pass17 m ρ c b (fun r hr => hb r (List.mem_append_left _ hr)))
theorem tail16 (c : Dev nD) (b : Ref sig .tc) (hb : ∀ r ∈ wrFrom16, b ≠ r) :
    W19 m ρ c (Proc.devRef .tc b) = W16 m ρ c (Proc.devRef .tc b) :=
  (tail17 m ρ c b (fun r hr => hb r (List.mem_append_right _ hr))).trans (pass16 m ρ c b (fun r hr => hb r (List.mem_append_left _ hr)))
theorem tail15 (c : Dev nD) (b : Ref sig .tc) (hb : ∀ r ∈ wrFrom15, b ≠ r) :
    W19 m ρ c (Proc.devRef .tc b) = W15 m ρ c (Proc.devRef .tc b) :=
  (tail16 m ρ c b (fun r hr => hb r (List.mem_append_right _ hr))).trans (pass15 m ρ c b (fun r hr => hb r (List.mem_append_left _ hr)))
theorem tail14 (c : Dev nD) (b : Ref sig .tc) (hb : ∀ r ∈ wrFrom14, b ≠ r) :
    W19 m ρ c (Proc.devRef .tc b) = W14 m ρ c (Proc.devRef .tc b) :=
  (tail15 m ρ c b (fun r hr => hb r (List.mem_append_right _ hr))).trans (pass14 m ρ c b (fun r hr => hb r (List.mem_append_left _ hr)))
theorem tail13 (c : Dev nD) (b : Ref sig .tc) (hb : ∀ r ∈ wrFrom13, b ≠ r) :
    W19 m ρ c (Proc.devRef .tc b) = W13 m ρ c (Proc.devRef .tc b) :=
  (tail14 m ρ c b (fun r hr => hb r (List.mem_append_right _ hr))).trans (pass13 m ρ c b (fun r hr => hb r (List.mem_append_left _ hr)))
theorem tail12 (c : Dev nD) (b : Ref sig .tc) (hb : ∀ r ∈ wrFrom12, b ≠ r) :
    W19 m ρ c (Proc.devRef .tc b) = W12 m ρ c (Proc.devRef .tc b) :=
  (tail13 m ρ c b (fun r hr => hb r (List.mem_append_right _ hr))).trans (pass12 m ρ c b (fun r hr => hb r (List.mem_append_left _ hr)))
theorem tail11 (c : Dev nD) (b : Ref sig .tc) (hb : ∀ r ∈ wrFrom11, b ≠ r) :
    W19 m ρ c (Proc.devRef .tc b) = W11 m ρ c (Proc.devRef .tc b) :=
  (tail12 m ρ c b (fun r hr => hb r (List.mem_append_right _ hr))).trans (pass11 m ρ c b (fun r hr => hb r (List.mem_append_left _ hr)))
theorem tail10 (c : Dev nD) (b : Ref sig .tc) (hb : ∀ r ∈ wrFrom10, b ≠ r) :
    W19 m ρ c (Proc.devRef .tc b) = W10 m ρ c (Proc.devRef .tc b) :=
  (tail11 m ρ c b (fun r hr => hb r (List.mem_append_right _ hr))).trans (pass10 m ρ c b (fun r hr => hb r (List.mem_append_left _ hr)))
theorem tail9 (c : Dev nD) (b : Ref sig .tc) (hb : ∀ r ∈ wrFrom9, b ≠ r) :
    W19 m ρ c (Proc.devRef .tc b) = W9 m ρ c (Proc.devRef .tc b) :=
  (tail10 m ρ c b (fun r hr => hb r (List.mem_append_right _ hr))).trans (pass9 m ρ c b (fun r hr => hb r (List.mem_append_left _ hr)))
theorem tail8 (c : Dev nD) (b : Ref sig .tc) (hb : ∀ r ∈ wrFrom8, b ≠ r) :
    W19 m ρ c (Proc.devRef .tc b) = W8 m ρ c (Proc.devRef .tc b) :=
  (tail9 m ρ c b (fun r hr => hb r (List.mem_append_right _ hr))).trans (pass8 m ρ c b (fun r hr => hb r (List.mem_append_left _ hr)))
theorem tail7 (c : Dev nD) (b : Ref sig .tc) (hb : ∀ r ∈ wrFrom7, b ≠ r) :
    W19 m ρ c (Proc.devRef .tc b) = W7 m ρ c (Proc.devRef .tc b) :=
  (tail8 m ρ c b (fun r hr => hb r (List.mem_append_right _ hr))).trans (pass7 m ρ c b (fun r hr => hb r (List.mem_append_left _ hr)))
theorem tail6 (c : Dev nD) (b : Ref sig .tc) (hb : ∀ r ∈ wrFrom6, b ≠ r) :
    W19 m ρ c (Proc.devRef .tc b) = W6 m ρ c (Proc.devRef .tc b) :=
  (tail7 m ρ c b (fun r hr => hb r (List.mem_append_right _ hr))).trans (pass6 m ρ c b (fun r hr => hb r (List.mem_append_left _ hr)))
theorem tail5 (c : Dev nD) (b : Ref sig .tc) (hb : ∀ r ∈ wrFrom5, b ≠ r) :
    W19 m ρ c (Proc.devRef .tc b) = W5 m ρ c (Proc.devRef .tc b) :=
  (tail6 m ρ c b (fun r hr => hb r (List.mem_append_right _ hr))).trans (pass5 m ρ c b (fun r hr => hb r (List.mem_append_left _ hr)))
theorem tail4 (c : Dev nD) (b : Ref sig .tc) (hb : ∀ r ∈ wrFrom4, b ≠ r) :
    W19 m ρ c (Proc.devRef .tc b) = W4 m ρ c (Proc.devRef .tc b) :=
  (tail5 m ρ c b (fun r hr => hb r (List.mem_append_right _ hr))).trans (pass4 m ρ c b (fun r hr => hb r (List.mem_append_left _ hr)))
theorem tail3 (c : Dev nD) (b : Ref sig .tc) (hb : ∀ r ∈ wrFrom3, b ≠ r) :
    W19 m ρ c (Proc.devRef .tc b) = W3 m ρ c (Proc.devRef .tc b) :=
  (tail4 m ρ c b (fun r hr => hb r (List.mem_append_right _ hr))).trans (pass3 m ρ c b (fun r hr => hb r (List.mem_append_left _ hr)))
theorem tail2 (c : Dev nD) (b : Ref sig .tc) (hb : ∀ r ∈ wrFrom2, b ≠ r) :
    W19 m ρ c (Proc.devRef .tc b) = W2 m ρ c (Proc.devRef .tc b) :=
  (tail3 m ρ c b (fun r hr => hb r (List.mem_append_right _ hr))).trans (pass2 m ρ c b (fun r hr => hb r (List.mem_append_left _ hr)))
theorem tail1 (c : Dev nD) (b : Ref sig .tc) (hb : ∀ r ∈ wrFrom1, b ≠ r) :
    W19 m ρ c (Proc.devRef .tc b) = W1 m ρ c (Proc.devRef .tc b) :=
  (tail2 m ρ c b (fun r hr => hb r (List.mem_append_right _ hr))).trans (pass1 m ρ c b (fun r hr => hb r (List.mem_append_left _ hr)))
theorem tail0 (c : Dev nD) (b : Ref sig .tc) (hb : ∀ r ∈ wrFrom0, b ≠ r) :
    W19 m ρ c (Proc.devRef .tc b) = W0 m ρ c (Proc.devRef .tc b) :=
  (tail1 m ρ c b (fun r hr => hb r (List.mem_append_right _ hr))).trans (pass0 m ρ c b (fun r hr => hb r (List.mem_append_left _ hr)))

/-- The contents of the core's buffers at the last boundary, at the ideal values, read at the TensorCore's references. -/
abbrev Wf (m : (ℓ : Loc nD τ sig) → Buf (Elt Ideal) ℓ) (ρ : Dev nD → PrngReg) :
    (c : Dev nD) → (b : Ref sig .tc) → Buf (Elt Ideal) ((c : Thread nD τ).loc b) := fun c b => W19 (F := Ideal) m ρ c b

end Cert.KernelIdeal.Val

end
-- ==== Proof.GnnSpec.lean ====
/-
  The arithmetic of the graph layers, index by index, on extended reals: the region functions and the words that
  name rows. Everything here is about sizes as variables; no program is imported.

  A table of `n` rows is addressed by 32-bit words. A one-hot weight is one when the word is the number of the
  column and zero otherwise; a product of a feature block with a weight matrix, scaled row by row; the two forms of
  the combining step; the selection of a row by a one-hot product; the accumulation of rows by a one-hot product.
-/
import Idealize.ShloMosaic.PureOps.Ideal
import Idealize.ShloMosaic.Lib.ValueIdx

noncomputable section

namespace Cert.Gnn

open Idealize.ShloMosaic Idealize.ShloMosaic.ValueIdx
open scoped BigOperators

/-- A two-axis array of extended reals. -/
abbrev Mat (a b : Nat) : Type := (⟨2, ![a, b]⟩ : Shape).Idx → EReal
/-- A one-axis array of extended reals. -/
abbrev Vec1 (a : Nat) : Type := (⟨1, ![a]⟩ : Shape).Idx → EReal
/-- A column of 32-bit words. -/
abbrev WCol (a : Nat) : Type := (⟨2, ![a, 1]⟩ : Shape).Idx → BitVec 32

/-- The float zero, one and one half, as the patterns the programs print. -/
abbrev Z : EReal := Ideal.ofBits .f32 0x00000000#32
abbrev ONE : EReal := Ideal.ofBits .f32 0x3F800000#32
abbrev HALF : EReal := Ideal.ofBits .f32 0x3F000000#32

/-- The one-hot weight of word `w` at column `c`: one when the word is `c`, else zero. -/
def onehot (w : BitVec 32) (c : Nat) : EReal := if w = BitVec.ofNat 32 c then ((1 : ℝ) : EReal) else ((0 : ℝ) : EReal)

/-- The first and second coordinate of a two-axis index, at their literal types. -/
abbrev c0 {a b : Nat} (i : (⟨2, ![a, b]⟩ : Shape).Idx) : Fin a := ⟨(i 0).val, (i 0).isLt⟩
abbrev c1 {a b : Nat} (i : (⟨2, ![a, b]⟩ : Shape).Idx) : Fin b := ⟨(i 1).val, (i 1).isLt⟩

/-- Rows of `x` times `w`, each row scaled by its entry of the column `s`. -/
def gLin {n k h : Nat} (x : Mat n k) (w : Mat k h) (s : Mat n 1) : Mat n h :=
  fun i => (∑ q : Fin k, x (ix2 (c0 i) q) * w (ix2 q (c1 i))) * s (ix2 (c0 i) (0 : Fin 1))
theorem gLin_apply {n k h : Nat} (x : Mat n k) (w : Mat k h) (s : Mat n 1) (p : Fin n) (q : Fin h) :
    gLin x w s (ix2 p q) = (∑ k' : Fin k, x (ix2 p k') * w (ix2 k' q)) * s (ix2 p (0 : Fin 1)) := rfl

/-- Row `e` of the result is the one-hot combination of the table's rows by the word of `e`. -/
def gPick {n t f : Nat} (idx : WCol n) (tab : Mat t f) : Mat n f :=
  fun i => ∑ c : Fin t, onehot (idx (ix2 (c0 i) (0 : Fin 1))) c.val * tab (ix2 c (c1 i))
theorem gPick_apply {n t f : Nat} (idx : WCol n) (tab : Mat t f) (e : Fin n) (j : Fin f) :
    gPick idx tab (ix2 e j) = ∑ c : Fin t, onehot (idx (ix2 e (0 : Fin 1))) c.val * tab (ix2 c j) := rfl

/-- Row `c` of the result is the sum of the data rows weighted by their one-hot weight at `c`. -/
def gPile {n t f : Nat} (idx : WCol n) (data : Mat n f) : Mat t f :=
  fun i => ∑ e : Fin n, onehot (idx (ix2 e (0 : Fin 1))) (c0 i).val * data (ix2 e (c1 i))
theorem gPile_apply {n t f : Nat} (idx : WCol n) (data : Mat n f) (c : Fin t) (j : Fin f) :
    gPile (t := t) idx data (ix2 c j) = ∑ e : Fin n, onehot (idx (ix2 e (0 : Fin 1))) c.val * data (ix2 e j) := rfl

/-- The combining step with the relation product inside and the rectifier:
    max(((s·(a + y) + b) + ((r·wr + x·wo) + b')) · ½, 0). -/
def gMixFull {n h fl fp : Nat} (a y : Mat n h) (s : Mat n 1) (b : Mat 1 h) (r : Mat n fl) (x : Mat n fp)
    (wr : Mat fl h) (wo : Mat fp h) (b' : Mat 1 h) : Mat n h :=
  fun i => max ((((s (ix2 (c0 i) (0 : Fin 1)) * (a (ix2 (c0 i) (c1 i)) + y (ix2 (c0 i) (c1 i))) + b (ix2 (0 : Fin 1) (c1 i)))
      + (((∑ q : Fin fl, r (ix2 (c0 i) q) * wr (ix2 q (c1 i))) + ∑ q : Fin fp, x (ix2 (c0 i) q) * wo (ix2 q (c1 i)))
          + b' (ix2 (0 : Fin 1) (c1 i)))) * HALF)) Z
theorem gMixFull_apply {n h fl fp : Nat} (a y : Mat n h) (s : Mat n 1) (b : Mat 1 h) (r : Mat n fl) (x : Mat n fp)
    (wr : Mat fl h) (wo : Mat fp h) (b' : Mat 1 h) (p : Fin n) (q : Fin h) :
    gMixFull a y s b r x wr wo b' (ix2 p q)
      = max ((((s (ix2 p (0 : Fin 1)) * (a (ix2 p q) + y (ix2 p q)) + b (ix2 (0 : Fin 1) q))
          + (((∑ k : Fin fl, r (ix2 p k) * wr (ix2 k q)) + ∑ k : Fin fp, x (ix2 p k) * wo (ix2 k q))
              + b' (ix2 (0 : Fin 1) q))) * HALF)) Z := rfl

/-- The combining step with the relation term already transformed, no rectifier:
    ((s·(a + y) + b) + ((r + x·wo) + b')) · ½. -/
def gMixPre {n h fp : Nat} (a y : Mat n h) (s : Mat n 1) (b : Mat 1 h) (r : Mat n h) (x : Mat n fp)
    (wo : Mat fp h) (b' : Mat 1 h) : Mat n h :=
  fun i => ((s (ix2 (c0 i) (0 : Fin 1)) * (a (ix2 (c0 i) (c1 i)) + y (ix2 (c0 i) (c1 i))) + b (ix2 (0 : Fin 1) (c1 i)))
      + ((r (ix2 (c0 i) (c1 i)) + ∑ q : Fin fp, x (ix2 (c0 i) q) * wo (ix2 q (c1 i))) + b' (ix2 (0 : Fin 1) (c1 i)))) * HALF
theorem gMixPre_apply {n h fp : Nat} (a y : Mat n h) (s : Mat n 1) (b : Mat 1 h) (r : Mat n h) (x : Mat n fp)
    (wo : Mat fp h) (b' : Mat 1 h) (p : Fin n) (q : Fin h) :
    gMixPre a y s b r x wo b' (ix2 p q)
      = ((s (ix2 p (0 : Fin 1)) * (a (ix2 p q) + y (ix2 p q)) + b (ix2 (0 : Fin 1) q))
          + ((r (ix2 p q) + ∑ k : Fin fp, x (ix2 p k) * wo (ix2 k q)) + b' (ix2 (0 : Fin 1) q))) * HALF := rfl

/-- The negative-index wrap the host applies to a word before a gather from `n` rows. -/
def wrapW (n : Nat) (w : BitVec 32) : BitVec 32 :=
  Scalar.select (IntOp.cmpi .slt w 0#32) (IntOp.addi w (BitVec.ofNat 32 n)) w

/-- The row of an `n`-row table that a word names in a gather: read signed, clamped into the table. -/
def rowOf (n : Nat) (hn : 0 < n) (w : BitVec 32) : Fin n := ⟨min w.toInt.toNat (n - 1), by omega⟩

end Cert.Gnn

end
-- ==== Proof.KFun.lean ====
/-
  The kernel program's host stretches as pure functions of the arrays they read, at the ideal values: the degree
  normalisation, the index columns, the neighbour sums over the citation edges, the sums by destination, the
  reshapes of bias rows, the label transform and its rectifier. Each is the composed term of the host operations
  of one stretch, so that the run's contents can be named stretch by stretch.
-/
import proofs.«428892_j6622839570445_2_alg».proof.KernelIdeal
import proofs.«428892_j6622839570445_2_alg».proof.Proof.Gen.KernelIdeal
import Idealize.ShloMosaic.PureOps.Ideal
import proofs.«428892_j6622839570445_2_alg».proof.Proof.GnnSpec

noncomputable section

namespace Cert.KernelIdeal.Val

open Cert.KernelIdeal Cert.KernelIdeal.Facts₀ Cert.KernelIdeal.Facts Cert.Gnn Idealize.ShloMosaic Idealize.ShloMosaic.ValueIdx

/-- rsqrt(in-degree + 1) over the citation destinations. -/
def kDis (a19 : IVec S1600000 32) : FVec Ideal S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 a19)
      (broadcastInDim S1600000 ![] bcast_S_S1600000 (constant S_ .f32 0x3F800000#32)))
    (broadcastInDim S100000 ![] bcast_S_S100000 (constant S_ .f32 0x3F800000#32)))

/-- A 100000-vector as a column. -/
def kCol (x : FVec Ideal S100000 .f32) : FVec Ideal S100000x1 .f32 := shapeCast S100000x1 x shapeCasts_S100000_S100000x1
/-- A 100000-vector of words as a column. -/
def kICol (x : IVec S100000 32) : IVec S100000x1 32 := shapeCast S100000x1 x shapeCasts_S100000_S100000x1
/-- A bias as a row. -/
def kRow128 (b : FVec Ideal S128 .f32) : FVec Ideal S1x128 .f32 := shapeCast S1x128 b shapeCasts_S128_S1x128
def kRow64 (b : FVec Ideal S64 .f32) : FVec Ideal S1x64 .f32 := shapeCast S1x64 b shapeCasts_S64_S1x64

/-- The citation sources as a column of wrapped index words. -/
def kIdxC (a18 : IVec S1600000 32) : IVec S1600000x1 32 :=
  broadcastInDim S1600000x1 ![0] bcast_S1600000_S1600000x1_0
    (select (cmpi .slt a18 (broadcastInDim S1600000 ![] bcast_S_S1600000 (constantI S_ 32 0#32)))
      (addi a18 (broadcastInDim S1600000 ![] bcast_S_S1600000 (constantI S_ 32 100000#32))) a18)

/-- The paper-indexed sources (100000 edges) as a column of wrapped index words. -/
def kIdxP (a20 : IVec S100000 32) : IVec S100000x1 32 :=
  broadcastInDim S100000x1 ![0] bcast_S100000_S100000x1_0
    (select (cmpi .slt a20 (broadcastInDim S100000 ![] bcast_S_S100000 (constantI S_ 32 0#32)))
      (addi a20 (broadcastInDim S100000 ![] bcast_S_S100000 (constantI S_ 32 100000#32))) a20)

/-- Neighbour sum over the citation edges of the scaled features, width 128. -/
def kAgg128 (ys : FVec Ideal S100000x128 .f32) (a18 a19 : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a19)
    (extf .f32 (Host.gather gather_S100000x128_S1600000x1_S1600000x128_1_0_n_n_0_1_1128 (truncf .bf16 ys bitsLt_bf16_f32) (kIdxC a18)) bitsLt_bf16_f32)

/-- The same, width 64. -/
def kAgg64 (ys : FVec Ideal S100000x64 .f32) (a18 a19 : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a19)
    (extf .f32 (Host.gather gather_S100000x64_S1600000x1_S1600000x64_1_0_n_n_0_1_164 (truncf .bf16 ys bitsLt_bf16_f32) (kIdxC a18)) bitsLt_bf16_f32)

/-- Sum by paper destination (100000 edges) of 64-wide messages. -/
def kSeg64 (a23 : IVec S100000 32) (u : FVec Ideal S100000x64 .f32) : FVec Ideal S100000x64 .f32 :=
  Host.scatterAdd scatter_S100000x64_S100000x1_S100000x64_1_0_0_1
    (broadcastInDim S100000x64 ![] bcast_S_S100000x64 (constant S_ .f32 0x00000000#32))
    (broadcastInDim S100000x1 ![0] bcast_S100000_S100000x1_0 a23) u

/-- Rows of a paper table picked by the wrapped words of a 100000-edge source array. -/
def kGathP (x : FVec Ideal S100000x128 .f32) (a20 : IVec S100000 32) : FVec Ideal S100000x128 .f32 :=
  Host.gather gather_S100000x128_S100000x1_S100000x128_1_0_n_n_0_1_1128 x (kIdxP a20)

/-- The label transform of layer 1: agg·W + xl·W' + b, then the rectifier. -/
def kLab1 (agg : FVec Ideal S64x128 .f32) (w4 : FVec Ideal S128x128 .f32) (xl : FVec Ideal S64x64 .f32)
    (w5 : FVec Ideal S64x128 .f32) (b6 : FVec Ideal S128 .f32) : FVec Ideal S64x128 .f32 :=
  maximumf (addf (addf (Host.dotGeneral dot_S64x128_S128x128_S64x128_1_0_0_1_n_n none agg w4)
        (Host.dotGeneral dot_S64x64_S64x128_S64x128_1_0_0_1_n_n none xl w5))
      (broadcastInDim S64x128 ![0, 1] bcast_S1x128_S64x128_0_1 (broadcastInDim S1x128 ![1] bcast_S128_S1x128_1 b6)))
    (broadcastInDim S64x128 ![] bcast_S_S64x128 (constant S_ .f32 0x00000000#32))

/-- A 64×128 table times a 128×64 weight. -/
def kDot2 (x : FVec Ideal S64x128 .f32) (w : FVec Ideal S128x64 .f32) : FVec Ideal S64x64 .f32 :=
  Host.dotGeneral dot_S64x128_S128x64_S64x64_1_0_0_1_n_n none x w

/-- The label transform of layer 2: agg·W + xl·W' + b. -/
def kLab2 (agg : FVec Ideal S64x128 .f32) (w12 : FVec Ideal S128x64 .f32) (xl : FVec Ideal S64x128 .f32)
    (w13 : FVec Ideal S128x64 .f32) (b14 : FVec Ideal S64 .f32) : FVec Ideal S64x64 .f32 :=
  addf (addf (Host.dotGeneral dot_S64x128_S128x64_S64x64_1_0_0_1_n_n none agg w12)
        (Host.dotGeneral dot_S64x128_S128x64_S64x64_1_0_0_1_n_n none xl w13))
      (broadcastInDim S64x64 ![0, 1] bcast_S1x64_S64x64_0_1 (broadcastInDim S1x64 ![1] bcast_S64_S1x64_1 b14))

end Cert.KernelIdeal.Val

end
-- ==== Proof.KSsaH.lean ====
/-
  The contents of the last boundary satisfy the equations of @main's host stretches: each value a stretch computes
  is, at the end of the run, the stretch's function of what the values and arguments it reads hold at the end of the
  run (every value is written once, so what a stretch read is what the buffer still holds).

  Each proof has the same three steps. The value is written by one stretch only, so at the last boundary it is what
  that stretch left (`tail_k`). What the stretch left is the fold of its operations over the contents it entered with,
  which computes to the operations' composed term over the buffers the stretch reads. No later segment writes those
  buffers either, so their contents at the stretch's entry are their contents at the last boundary (`tail_k` again,
  right to left), and the composed term is the stretch's function by unfolding its definition.
-/
import proofs.«428892_j6622839570445_2_alg».proof.Proof.KTail
import proofs.«428892_j6622839570445_2_alg».proof.Proof.KFun
import Idealize.ShloMosaic.Lib.StableHlo.Run
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem

/-! ## The written references by index

  The references are numbered in program order: the arguments first, then each segment's values in turn. So every
  reference the segments from `k` on write has an index at least that of segment `k`'s first value, and a reference
  with a smaller index (an argument, or a value of an earlier segment) is none of them. -/

/-- A reference whose index is below every index of a list is none of the list's references. -/
private theorem ne_of_lt {b : Ref sig .tc} {n : Nat} {L : List (Ref sig .tc)} (hb : b.idx.val < n)
    (h : ∀ r ∈ L, n ≤ r.idx.val) : ∀ r ∈ L, b ≠ r := by
  intro r hr e
  subst e
  exact absurd hb (Nat.not_lt.mpr (h b hr))

/-- A bound on a segment's values and a larger bound on the later segments' values bound them all. -/
private theorem low_append {n n' : Nat} {L L' : List (Ref sig .tc)} (hn : n ≤ n') (h : ∀ r ∈ L, n ≤ r.idx.val)
    (h' : ∀ r ∈ L', n' ≤ r.idx.val) : ∀ r ∈ L ++ L', n ≤ r.idx.val := by
  intro r hr
  rcases List.mem_append.mp hr with hr | hr
  · exact h r hr
  · exact Nat.le_trans hn (h' r hr)

private theorem wrLow18 : ∀ r ∈ wrFrom18, 120 ≤ r.idx.val := by decide
private theorem wrLow17 : ∀ r ∈ wrFrom17, 119 ≤ r.idx.val :=
  low_append (L := wr17) (L' := wrFrom18) (by decide) (by decide) wrLow18
private theorem wrLow16 : ∀ r ∈ wrFrom16, 109 ≤ r.idx.val :=
  low_append (L := wr16) (L' := wrFrom17) (by decide) (by decide) wrLow17
private theorem wrLow15 : ∀ r ∈ wrFrom15, 108 ≤ r.idx.val :=
  low_append (L := wr15) (L' := wrFrom16) (by decide) (by decide) wrLow16
private theorem wrLow14 : ∀ r ∈ wrFrom14, 101 ≤ r.idx.val :=
  low_append (L := wr14) (L' := wrFrom15) (by decide) (by decide) wrLow15
private theorem wrLow13 : ∀ r ∈ wrFrom13, 100 ≤ r.idx.val :=
  low_append (L := wr13) (L' := wrFrom14) (by decide) (by decide) wrLow14
private theorem wrLow12 : ∀ r ∈ wrFrom12, 83 ≤ r.idx.val :=
  low_append (L := wr12) (L' := wrFrom13) (by decide) (by decide) wrLow13
private theorem wrLow11 : ∀ r ∈ wrFrom11, 82 ≤ r.idx.val :=
  low_append (L := wr11) (L' := wrFrom12) (by decide) (by decide) wrLow12
private theorem wrLow10 : ∀ r ∈ wrFrom10, 81 ≤ r.idx.val :=
  low_append (L := wr10) (L' := wrFrom11) (by decide) (by decide) wrLow11
private theorem wrLow9 : ∀ r ∈ wrFrom9, 78 ≤ r.idx.val :=
  low_append (L := wr9) (L' := wrFrom10) (by decide) (by decide) wrLow10
private theorem wrLow8 : ∀ r ∈ wrFrom8, 72 ≤ r.idx.val :=
  low_append (L := wr8) (L' := wrFrom9) (by decide) (by decide) wrLow9
private theorem wrLow7 : ∀ r ∈ wrFrom7, 71 ≤ r.idx.val :=
  low_append (L := wr7) (L' := wrFrom8) (by decide) (by decide) wrLow8
private theorem wrLow6 : ∀ r ∈ wrFrom6, 61 ≤ r.idx.val :=
  low_append (L := wr6) (L' := wrFrom7) (by decide) (by decide) wrLow7
private theorem wrLow5 : ∀ r ∈ wrFrom5, 60 ≤ r.idx.val :=
  low_append (L := wr5) (L' := wrFrom6) (by decide) (by decide) wrLow6
private theorem wrLow4 : ∀ r ∈ wrFrom4, 53 ≤ r.idx.val :=
  low_append (L := wr4) (L' := wrFrom5) (by decide) (by decide) wrLow5
private theorem wrLow3 : ∀ r ∈ wrFrom3, 52 ≤ r.idx.val :=
  low_append (L := wr3) (L' := wrFrom4) (by decide) (by decide) wrLow4
private theorem wrLow2 : ∀ r ∈ wrFrom2, 36 ≤ r.idx.val :=
  low_append (L := wr2) (L' := wrFrom3) (by decide) (by decide) wrLow3
private theorem wrLow1 : ∀ r ∈ wrFrom1, 35 ≤ r.idx.val :=
  low_append (L := wr1) (L' := wrFrom2) (by decide) (by decide) wrLow2
private theorem wrLow0 : ∀ r ∈ wrFrom0, 24 ≤ r.idx.val :=
  low_append (L := wr0) (L' := wrFrom1) (by decide) (by decide) wrLow1

variable (m : (ℓ : Loc nD τ sig) → Buf (Elt Ideal) ℓ) (ρ : Dev nD → PrngReg) (c : Dev nD)

local notation "W" => Wf m ρ c

/-! ## The equations, stretch by stretch -/

/-- The in-degree normalisation is the first stretch's value; the destinations are an argument. -/
theorem ssa_v6 : W main_v6 = kDis (W main_arg19) := by
  show W19 (F := Ideal) m ρ c (Proc.devRef .tc main_v6) = _
  rw [tail1 m ρ c main_v6 (ne_of_lt (by decide) wrLow1)]
  show StableHlo.after hostOps0 (W0 (F := Ideal) m ρ c) (Proc.devRef .tc main_v6) = _
  after_results_simp
  rw [← tail0 m ρ c main_arg19 (ne_of_lt (by decide) wrLow0)]
  rfl

/-- The column form of the normalisation: both sides are the first stretch's terms over the launch contents. -/
theorem ssa_v7 : W main_v7 = kCol (W main_v6) := by
  show W19 (F := Ideal) m ρ c (Proc.devRef .tc main_v7) = kCol (W19 (F := Ideal) m ρ c (Proc.devRef .tc main_v6))
  rw [tail1 m ρ c main_v7 (ne_of_lt (by decide) wrLow1), tail1 m ρ c main_v6 (ne_of_lt (by decide) wrLow1)]
  show StableHlo.after hostOps0 (W0 (F := Ideal) m ρ c) (Proc.devRef .tc main_v7)
    = kCol (StableHlo.after hostOps0 (W0 (F := Ideal) m ρ c) (Proc.devRef .tc main_v6))
  after_results
  rfl

/-- The neighbour sum of width 128: the second stretch's scatter of the gathered, rounded rows. -/
theorem ssa_v20 : W main_v20 = kAgg128 (W main_v8) (W main_arg18) (W main_arg19) := by
  show W19 (F := Ideal) m ρ c (Proc.devRef .tc main_v20) = _
  rw [tail3 m ρ c main_v20 (ne_of_lt (by decide) wrLow3)]
  show StableHlo.after hostOps1 (W2 (F := Ideal) m ρ c) (Proc.devRef .tc main_v20) = _
  after_results_simp
  rw [← tail2 m ρ c main_v8 (ne_of_lt (by decide) wrLow2), ← tail2 m ρ c main_arg18 (ne_of_lt (by decide) wrLow2), ← tail2 m ρ c main_arg19 (ne_of_lt (by decide) wrLow2)]
  rfl

theorem ssa_v21 : W main_v21 = kICol (W main_arg22) := by
  show W19 (F := Ideal) m ρ c (Proc.devRef .tc main_v21) = _
  rw [tail3 m ρ c main_v21 (ne_of_lt (by decide) wrLow3)]
  show StableHlo.after hostOps1 (W2 (F := Ideal) m ρ c) (Proc.devRef .tc main_v21) = _
  after_results_simp
  rw [← tail2 m ρ c main_arg22 (ne_of_lt (by decide) wrLow2)]
  rfl

/-- The sum by destination of the first layer's messages. -/
theorem ssa_v25 : W main_v25 = kSeg64 (W main_arg23) (W main_v22) := by
  show W19 (F := Ideal) m ρ c (Proc.devRef .tc main_v25) = _
  rw [tail5 m ρ c main_v25 (ne_of_lt (by decide) wrLow5)]
  show StableHlo.after hostOps2 (W4 (F := Ideal) m ρ c) (Proc.devRef .tc main_v25) = _
  after_results_simp
  rw [← tail4 m ρ c main_arg23 (ne_of_lt (by decide) wrLow4), ← tail4 m ρ c main_v22 (ne_of_lt (by decide) wrLow4)]
  rfl

theorem ssa_v26 : W main_v26 = kCol (W main_v6) := by
  show W19 (F := Ideal) m ρ c (Proc.devRef .tc main_v26) = _
  rw [tail5 m ρ c main_v26 (ne_of_lt (by decide) wrLow5)]
  show StableHlo.after hostOps2 (W4 (F := Ideal) m ρ c) (Proc.devRef .tc main_v26) = _
  after_results_simp
  rw [← tail4 m ρ c main_v6 (ne_of_lt (by decide) wrLow4)]
  rfl

theorem ssa_v27 : W main_v27 = kRow128 (W main_arg3) := by
  show W19 (F := Ideal) m ρ c (Proc.devRef .tc main_v27) = _
  rw [tail5 m ρ c main_v27 (ne_of_lt (by decide) wrLow5)]
  show StableHlo.after hostOps2 (W4 (F := Ideal) m ρ c) (Proc.devRef .tc main_v27) = _
  after_results_simp
  rw [← tail4 m ρ c main_arg3 (ne_of_lt (by decide) wrLow4)]
  rfl

theorem ssa_v28 : W main_v28 = kRow128 (W main_arg9) := by
  show W19 (F := Ideal) m ρ c (Proc.devRef .tc main_v28) = _
  rw [tail5 m ρ c main_v28 (ne_of_lt (by decide) wrLow5)]
  show StableHlo.after hostOps2 (W4 (F := Ideal) m ρ c) (Proc.devRef .tc main_v28) = _
  after_results_simp
  rw [← tail4 m ρ c main_arg9 (ne_of_lt (by decide) wrLow4)]
  rfl

/-- The rows of the paper features picked by the wrapped source words. -/
theorem ssa_v36 : W main_v36 = kGathP (W main_arg0) (W main_arg20) := by
  show W19 (F := Ideal) m ρ c (Proc.devRef .tc main_v36) = _
  rw [tail7 m ρ c main_v36 (ne_of_lt (by decide) wrLow7)]
  show StableHlo.after hostOps3 (W6 (F := Ideal) m ρ c) (Proc.devRef .tc main_v36) = _
  after_results_simp
  rw [← tail6 m ρ c main_arg0 (ne_of_lt (by decide) wrLow6), ← tail6 m ρ c main_arg20 (ne_of_lt (by decide) wrLow6)]
  rfl

theorem ssa_v37 : W main_v37 = kICol (W main_arg21) := by
  show W19 (F := Ideal) m ρ c (Proc.devRef .tc main_v37) = _
  rw [tail7 m ρ c main_v37 (ne_of_lt (by decide) wrLow7)]
  show StableHlo.after hostOps3 (W6 (F := Ideal) m ρ c) (Proc.devRef .tc main_v37) = _
  after_results_simp
  rw [← tail6 m ρ c main_arg21 (ne_of_lt (by decide) wrLow6)]
  rfl

/-- The label transform of layer 1: the rectifier's stretch reads the sum the stretch before it wrote. -/
theorem ssa_v45 : W main_v45 = kLab1 (W main_v38) (W main_arg4) (W main_arg1) (W main_arg5) (W main_arg6) := by
  show W19 (F := Ideal) m ρ c (Proc.devRef .tc main_v45) = _
  rw [tail10 m ρ c main_v45 (ne_of_lt (by decide) wrLow10)]
  show StableHlo.after hostOps4_1 (StableHlo.after hostOps4 (W8 (F := Ideal) m ρ c)) (Proc.devRef .tc main_v45) = _
  after_results_simp
  rw [← tail8 m ρ c main_v38 (ne_of_lt (by decide) wrLow8), ← tail8 m ρ c main_arg4 (ne_of_lt (by decide) wrLow8), ← tail8 m ρ c main_arg1 (ne_of_lt (by decide) wrLow8),
    ← tail8 m ρ c main_arg5 (ne_of_lt (by decide) wrLow8), ← tail8 m ρ c main_arg6 (ne_of_lt (by decide) wrLow8)]
  rfl

/-- The column of the normalisation once more; the two stretches before this one do not write it. -/
theorem ssa_v46 : W main_v46 = kCol (W main_v6) := by
  show W19 (F := Ideal) m ρ c (Proc.devRef .tc main_v46) = _
  rw [tail11 m ρ c main_v46 (ne_of_lt (by decide) wrLow11)]
  show StableHlo.after hostOps4_2 (StableHlo.after hostOps4_1 (StableHlo.after hostOps4 (W8 (F := Ideal) m ρ c))) (Proc.devRef .tc main_v46) = _
  after_results_simp
  rw [← tail8 m ρ c main_v6 (ne_of_lt (by decide) wrLow8)]
  rfl

/-- The neighbour sum of width 64. -/
theorem ssa_v59 : W main_v59 = kAgg64 (W main_v47) (W main_arg18) (W main_arg19) := by
  show W19 (F := Ideal) m ρ c (Proc.devRef .tc main_v59) = _
  rw [tail13 m ρ c main_v59 (ne_of_lt (by decide) wrLow13)]
  show StableHlo.after hostOps5 (W12 (F := Ideal) m ρ c) (Proc.devRef .tc main_v59) = _
  after_results_simp
  rw [← tail12 m ρ c main_v47 (ne_of_lt (by decide) wrLow12), ← tail12 m ρ c main_arg18 (ne_of_lt (by decide) wrLow12), ← tail12 m ρ c main_arg19 (ne_of_lt (by decide) wrLow12)]
  rfl

theorem ssa_v60 : W main_v60 = kDot2 (W main_v45) (W main_arg15) := by
  show W19 (F := Ideal) m ρ c (Proc.devRef .tc main_v60) = _
  rw [tail13 m ρ c main_v60 (ne_of_lt (by decide) wrLow13)]
  show StableHlo.after hostOps5 (W12 (F := Ideal) m ρ c) (Proc.devRef .tc main_v60) = _
  after_results_simp
  rw [← tail12 m ρ c main_v45 (ne_of_lt (by decide) wrLow12), ← tail12 m ρ c main_arg15 (ne_of_lt (by decide) wrLow12)]
  rfl

theorem ssa_v61 : W main_v61 = kICol (W main_arg22) := by
  show W19 (F := Ideal) m ρ c (Proc.devRef .tc main_v61) = _
  rw [tail13 m ρ c main_v61 (ne_of_lt (by decide) wrLow13)]
  show StableHlo.after hostOps5 (W12 (F := Ideal) m ρ c) (Proc.devRef .tc main_v61) = _
  after_results_simp
  rw [← tail12 m ρ c main_arg22 (ne_of_lt (by decide) wrLow12)]
  rfl

/-- The sum by destination of the second layer's messages. -/
theorem ssa_v65 : W main_v65 = kSeg64 (W main_arg23) (W main_v62) := by
  show W19 (F := Ideal) m ρ c (Proc.devRef .tc main_v65) = _
  rw [tail15 m ρ c main_v65 (ne_of_lt (by decide) wrLow15)]
  show StableHlo.after hostOps6 (W14 (F := Ideal) m ρ c) (Proc.devRef .tc main_v65) = _
  after_results_simp
  rw [← tail14 m ρ c main_arg23 (ne_of_lt (by decide) wrLow14), ← tail14 m ρ c main_v62 (ne_of_lt (by decide) wrLow14)]
  rfl

theorem ssa_v66 : W main_v66 = kCol (W main_v6) := by
  show W19 (F := Ideal) m ρ c (Proc.devRef .tc main_v66) = _
  rw [tail15 m ρ c main_v66 (ne_of_lt (by decide) wrLow15)]
  show StableHlo.after hostOps6 (W14 (F := Ideal) m ρ c) (Proc.devRef .tc main_v66) = _
  after_results_simp
  rw [← tail14 m ρ c main_v6 (ne_of_lt (by decide) wrLow14)]
  rfl

theorem ssa_v67 : W main_v67 = kRow64 (W main_arg11) := by
  show W19 (F := Ideal) m ρ c (Proc.devRef .tc main_v67) = _
  rw [tail15 m ρ c main_v67 (ne_of_lt (by decide) wrLow15)]
  show StableHlo.after hostOps6 (W14 (F := Ideal) m ρ c) (Proc.devRef .tc main_v67) = _
  after_results_simp
  rw [← tail14 m ρ c main_arg11 (ne_of_lt (by decide) wrLow14)]
  rfl

theorem ssa_v68 : W main_v68 = kRow64 (W main_arg17) := by
  show W19 (F := Ideal) m ρ c (Proc.devRef .tc main_v68) = _
  rw [tail15 m ρ c main_v68 (ne_of_lt (by decide) wrLow15)]
  show StableHlo.after hostOps6 (W14 (F := Ideal) m ρ c) (Proc.devRef .tc main_v68) = _
  after_results_simp
  rw [← tail14 m ρ c main_arg17 (ne_of_lt (by decide) wrLow14)]
  rfl

theorem ssa_v76 : W main_v76 = kGathP (W main_v29) (W main_arg20) := by
  show W19 (F := Ideal) m ρ c (Proc.devRef .tc main_v76) = _
  rw [tail17 m ρ c main_v76 (ne_of_lt (by decide) wrLow17)]
  show StableHlo.after hostOps7 (W16 (F := Ideal) m ρ c) (Proc.devRef .tc main_v76) = _
  after_results_simp
  rw [← tail16 m ρ c main_v29 (ne_of_lt (by decide) wrLow16), ← tail16 m ρ c main_arg20 (ne_of_lt (by decide) wrLow16)]
  rfl

theorem ssa_v77 : W main_v77 = kICol (W main_arg21) := by
  show W19 (F := Ideal) m ρ c (Proc.devRef .tc main_v77) = _
  rw [tail17 m ρ c main_v77 (ne_of_lt (by decide) wrLow17)]
  show StableHlo.after hostOps7 (W16 (F := Ideal) m ρ c) (Proc.devRef .tc main_v77) = _
  after_results_simp
  rw [← tail16 m ρ c main_arg21 (ne_of_lt (by decide) wrLow16)]
  rfl

/-- The label transform of layer 2 is the last stretch's value. -/
theorem ssa_v84 : W main_v84 = kLab2 (W main_v78) (W main_arg12) (W main_v45) (W main_arg13) (W main_arg14) := by
  show StableHlo.after hostOps8 (W18 (F := Ideal) m ρ c) (Proc.devRef .tc main_v84) = _
  after_results_simp
  rw [← tail18 m ρ c main_v78 (ne_of_lt (by decide) wrLow18), ← tail18 m ρ c main_arg12 (ne_of_lt (by decide) wrLow18), ← tail18 m ρ c main_v45 (ne_of_lt (by decide) wrLow18),
    ← tail18 m ρ c main_arg13 (ne_of_lt (by decide) wrLow18), ← tail18 m ρ c main_arg14 (ne_of_lt (by decide) wrLow18)]
  rfl

end Cert.KernelIdeal.Val

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.Reg0.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

/-- The zero offsets of a whole-buffer access, however spelt. -/
theorem hz0 : (![0, 0] : Fin 2 → Nat) = fun _ => 0 := funext fun a => by fin_cases a <;> rfl

/-- The block product into the zero accumulator, at entry (p, q): the row times the column. -/
theorem dot0_apply (a : FVec Ideal S4000x128 .bf16) (b : FVec Ideal S128x128 .bf16) (p : Fin 4000) (q : Fin 128) :
    matmul dot_S4000x128_S128x128_S4000x128_1_0_0_1_n_n none a b (constant S4000x128 .f32 0x00000000#32) (ix2 p q)
      = ∑ k : Fin 128, a (ix2 p k) * b (ix2 k q) :=
  Cert.LibPlainDot.matmul_zero_apply dot_S4000x128_S128x128_S4000x128_1_0_0_1_n_n rfl rfl rfl rfl rfl rfl none a b p q

/-- The body's arithmetic at entry (p, q): the row of the feature block times the column of the weight, scaled by the
    row's entry of the column block. -/
theorem pay0_apply (x0 : Vec Ideal S4000x128 .f32) (x1 : Vec Ideal S128x128 .f32) (x2 : Vec Ideal S4000x1 .f32)
    (p : Fin 4000) (q : Fin 128) :
    k0_pay1 x0 x1 x2 (ix2 p q) = (∑ k : Fin 128, x0 (ix2 p k) * x1 (ix2 k q)) * x2 (ix2 p (0 : Fin 1)) := by
  unfold k0_pay1
  rw [mulf_apply, dot0_apply, Cert.LibColumn.broadcastTo_a1_ab_apply, shapeCast_self]
  rfl

/-- The block index of each window at each grid point: the row windows move with the point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t` holds rows `4000 t … 4000 t + 3999` of the feature array. -/
theorem blk0_x (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_arg0 : S100000x128.Idx → EReal) i := by
  obtain ⟨e0, e1, -⟩ := idx_facts0 t
  unfold iblk0
  rw [View.read_apply]
  show V c main_arg0 (((cfg0.win 0).blk t).view.emb y) = V c main_arg0 i
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The weight block at every point is the whole weight. -/
theorem blk0_w (c : Dev nD) (t : Fin cfg0.N) (y : S128x128.Idx) :
    (iblk0 V c 1 t : Vec Ideal S128x128 .f32) y = (V c main_arg2 : S128x128.Idx → EReal) y := by
  obtain ⟨-, -, e0, e1, -⟩ := idx_facts0 t
  unfold iblk0
  rw [View.read_apply]
  show V c main_arg2 (((cfg0.win 1).blk t).view.emb y) = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scale block at point `t` holds rows `4000 t … 4000 t + 3999` of the scale column. -/
theorem blk0_s (c : Dev nD) (t : Fin cfg0.N) (y : S4000x1.Idx) (i : S100000x1.Idx)
    (h0 : (i 0).val = 4000 * t.val + (y 0).val) (h1 : (i 1).val = (y 1).val) :
    (iblk0 V c 2 t : Vec Ideal S4000x1 .f32) y = (V c main_v7 : S100000x1.Idx → EReal) i := by
  obtain ⟨-, -, -, -, e0, e1, -⟩ := idx_facts0 t
  unfold iblk0
  rw [View.read_apply]
  show V c main_v7 (((cfg0.win 2).blk t).view.emb y) = V c main_v7 i
  congr 1
  funext a
  apply Fin.ext
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

/-- The body's value at entry `j` of point `t`'s blocks is the scaled product of the whole arrays at the entry of row
    `4000 t + j₀` and column `j₁`. -/
theorem point0 (c : Dev nD) (t : Fin cfg0.N) (j : S4000x128.Idx) (i : S100000x128.Idx)
    (h0 : (i 0).val = 4000 * t.val + (j 0).val) (h1 : (i 1).val = (j 1).val) :
    k0_pay1 (iblk0 V c 0 t) (iblk0 V c 1 t) (iblk0 V c 2 t) j
      = gLin (n := 100000) (k := 128) (h := 128) (V c main_arg0) (V c main_arg2) (V c main_v7) i := by
  obtain ⟨p, q, rfl⟩ : ∃ (p : Fin 4000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext h1
  refine (pay0_apply (iblk0 V c 0 t) (iblk0 V c 1 t) (iblk0 V c 2 t) p q').trans ?_
  rw [gLin_apply]
  refine congrArg₂ (· * ·) (Finset.sum_congr rfl fun k _ => ?_) ?_
  · exact congrArg₂ (· * ·) (blk0_x V c t (ix2 p k) (ix2 r k) h0 rfl) (blk0_w V c t (ix2 k q'))
  · exact blk0_s V c t (ix2 p (0 : Fin 1)) (ix2 r (0 : Fin 1)) h0 rfl

/-- What point `t` writes back is block `t` of the scaled product of the whole arrays. -/
theorem flushed0_eq (c : Dev nD) (t : Fin cfg0.N) :
    (dat0 (F := Ideal) V c).flushed 3 t
      = ((cfg0.win 3).blk t).view.read (Elt Ideal)
          (gLin (n := 100000) (k := 128) (h := 128) (V c main_arg0) (V c main_arg2) (V c main_v7)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S128x128) hz0, View.ld_unit_zero (S := S4000x1) hz0]
  obtain ⟨-, -, -, -, -, -, e0, e1⟩ := idx_facts0 t
  funext j
  show k0_pay1 (iblk0 V c 0 t) (iblk0 V c 1 t) (iblk0 V c 2 t) j
      = gLin (n := 100000) (k := 128) (h := 128) (V c main_arg0) (V c main_arg2) (V c main_v7) (((cfg0.win 3).blk t).view.emb j)
  refine point0 V c t j _ ?_ ?_
  · show win0_3.index t (0 : Fin 2) * 4000 + 1 * (j 0).val = 4000 * t.val + (j 0).val
    rw [e0]; omega
  · show win0_3.index t (1 : Fin 2) * 128 + 1 * (j 1).val = (j 1).val
    rw [e1]; omega

/-- Every entry of the output array is in the block of the point its row falls in: row `r` in point `r / 4000`. -/
theorem cover0 (i : S100000x128.Idx) :
    ∃ t : Fin cfg0.N, (cfg0.win 3).flush t = true ∧ i ∈ ((cfg0.win 3).blk t).view.set := by
  have hN : grid0.N = 25 := N_0
  have hi0 : (i 0).val < 100000 := (i 0).isLt
  have hi1 : (i 1).val < 128 := (i 1).isLt
  have ht : (i 0).val / 4000 < cfg0.N := by show _ < grid0.N; rw [hN]; omega
  obtain ⟨t, htv⟩ : ∃ t : Fin cfg0.N, t.val = (i 0).val / 4000 := ⟨⟨_, ht⟩, rfl⟩
  obtain ⟨-, -, -, -, -, -, e0, e1⟩ := idx_facts0 t
  refine ⟨t, flush0_3 t, ?_⟩
  show i ∈ ((View.whole main_v8).slice (win0_3.rect t)).set
  rw [View.set_slice_whole, Rect.mem_set_unit]
  intro a
  match a with
  | ⟨0, _⟩ =>
    show win0_3.index t (0 : Fin 2) * 4000 ≤ (i 0).val ∧ (i 0).val < win0_3.index t (0 : Fin 2) * 4000 + 4000
    rw [e0, htv]; omega
  | ⟨1, _⟩ =>
    show win0_3.index t (1 : Fin 2) * 128 ≤ (i 1).val ∧ (i 1).val < win0_3.index t (1 : Fin 2) * 128 + 128
    rw [e1]; omega

/-- Region 0: the scaled product of the paper features with the first weight, a block of 4000 rows at each of 25 points. -/
theorem region0_value (c : Dev nD) :
    (dat0 (F := Ideal) V c).arrAt 3 cfg0.N = gLin (n := 100000) (k := 128) (h := 128) (V c main_arg0) (V c main_arg2) (V c main_v7) := by
  exact (dat0 (F := Ideal) V c).arrAt_eq_of_cover 3 _ (fun t _ => flushed0_eq V c t) (fun i => cover0 i)

end Cert.KernelIdeal.Val

end
-- ==== Proof.Reg1.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

/-- The fixed index `(0, 0)` as the constant-zero function. -/
theorem reg1_zero_pair : (![0, 0] : Fin 2 → Nat) = fun _ => 0 := funext fun a => by fin_cases a <;> rfl

/-- The compare of a word with the number of a column, widened and converted, is the one-hot weight. -/
theorem reg1_onehot_factor (w : BitVec 32) (k : Nat) :
    FloatOps.sitofp (F := Ideal) .f32 ((IntOp.cmpi .eq w (BitVec.ofNat 32 k)).setWidth 32) = onehot w k := by
  rw [Cert.LibIdealReal.sitofp_extui_bit]
  unfold onehot
  by_cases h : w = BitVec.ofNat 32 k
  · have hb : IntOp.cmpi .eq w (BitVec.ofNat 32 k) = 1#1 := by
      show BitVec.ofBool (w == BitVec.ofNat 32 k) = 1#1
      rw [beq_iff_eq.2 h]; rfl
    rw [if_pos hb, if_pos h]
  · have hb : IntOp.cmpi .eq w (BitVec.ofNat 32 k) ≠ 1#1 := by
      show BitVec.ofBool (w == BitVec.ofNat 32 k) ≠ 1#1
      rw [beq_eq_false_iff_ne.2 h]; decide
    rw [if_neg hb, if_neg h]

/-- The one-hot matrix of a column of words, at `(p, k)`. -/
theorem reg1_onehot_mat_apply (x0 : Vec Ideal S4000x1 .i32) (h1 h2 h3 h4) (p : Fin 4000) (k : Fin 64) :
    (sitofp (F := Ideal) .f32 (extui 32 (cmpi .eq (broadcastTo S4000x64 (shapeCast S4000x1 x0 h1) h2) (iota .tc S4000x64 32 [1] h3)) h4) : FVec Ideal S4000x64 .f32) (ix2 p k)
      = onehot (x0 (ix2 p (0 : Fin 1))) k.val := by
  rw [sitofp_apply, extui_apply]
  show FloatOps.sitofp .f32 ((IntOp.cmpi .eq (broadcastTo S4000x64 (shapeCast S4000x1 x0 h1) h2 (ix2 p k)) (iota .tc S4000x64 32 [1] h3 (ix2 p k))).setWidth 32) = _
  rw [Cert.LibColumn.broadcastTo_a1_ab_apply, shapeCast_self, iota_single_apply]
  exact reg1_onehot_factor _ _

/-- The body's product at `(p, q)`: the one-hot combination of the table block's rows by the word of row `p`. -/
theorem reg1_pay_apply (x0 : Vec Ideal S4000x1 .i32) (x1 : Vec Ideal S64x64 .f32) (p : Fin 4000) (q : Fin 64) :
    k1_pay1 (F := Ideal) x0 x1 (ix2 p q) = ∑ k : Fin 64, onehot (x0 (ix2 p (0 : Fin 1))) k.val * x1 (ix2 k q) := by
  unfold k1_pay1
  refine (Cert.LibPlainDot.matmul_zero_apply dot_S4000x64_S64x64_S4000x64_1_0_0_1_n_n rfl rfl rfl rfl rfl rfl _ _ _ p q).trans ?_
  refine Finset.sum_congr rfl fun k _ => ?_
  rw [reg1_onehot_mat_apply]

/-- The index maps over the grid: the word column's and the result's row blocks move together, one block a point;
    the table is read whole; the second block index is zero everywhere. -/
theorem reg1_idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the one-hot selection of the whole arrays. -/
theorem reg1_flushed_eq (c : Dev nD) (t : Fin cfg1.N) :
    (dat1 (F := Ideal) V c).flushed 2 t
      = ((cfg1.win 2).blk t).view.read (Elt Ideal) (gPick (n := 100000) (t := 64) (f := 64) (V c main_v21) (V c main_arg1)) := by
  show (cfg1.win 2).cut (grid1.coords t) ((dat1 V c).after 2 t) = _
  rw [after1_2]
  unfold out1_2
  rw [View.canon_unit_zero reg1_zero_pair]
  simp only [View.ld_unit_zero (S := S4000x1) reg1_zero_pair, View.ld_unit_zero (S := S64x64) reg1_zero_pair]
  obtain ⟨e0, e1, e2, e3, e4, e5⟩ := reg1_idx_facts t
  funext j
  obtain ⟨p, q, rfl⟩ : ∃ (p : Fin 4000) (q : Fin 64), j = ix2 p q := ⟨j 0, j 1, eq_ix2 j⟩
  show k1_pay1 (iblk1 V c 0 t) (iblk1 V c 1 t) (ix2 p q)
      = gPick (n := 100000) (t := 64) (f := 64) (V c main_v21) (V c main_arg1) (((cfg1.win 2).blk t).view.emb (ix2 p q))
  rw [reg1_pay_apply]
  show _ = ∑ k : Fin 64, onehot (V c main_v21 (ix2 (c0 (((cfg1.win 2).blk t).view.emb (ix2 p q))) (0 : Fin 1))) k.val
      * V c main_arg1 (ix2 k (c1 (((cfg1.win 2).blk t).view.emb (ix2 p q))))
  refine Finset.sum_congr rfl fun k _ => ?_
  have hw : iblk1 V c 0 t (ix2 p (0 : Fin 1))
      = V c main_v21 (ix2 (c0 (((cfg1.win 2).blk t).view.emb (ix2 p q))) (0 : Fin 1)) := by
    show V c main_v21 (((cfg1.win 0).blk t).view.emb (ix2 p (0 : Fin 1))) = _
    refine congrArg _ (funext fun a => Fin.ext ?_)
    match a with
    | ⟨0, _⟩ =>
      show win1_0.index t (0 : Fin 2) * 4000 + 1 * p.val = win1_2.index t (0 : Fin 2) * 4000 + 1 * p.val
      rw [e0]
    | ⟨1, _⟩ =>
      show win1_0.index t (1 : Fin 2) * 1 + 1 * 0 = 0
      rw [e1]
  have hx : iblk1 V c 1 t (ix2 k q)
      = V c main_arg1 (ix2 k (c1 (((cfg1.win 2).blk t).view.emb (ix2 p q)))) := by
    show V c main_arg1 (((cfg1.win 1).blk t).view.emb (ix2 k q)) = _
    refine congrArg _ (funext fun a => Fin.ext ?_)
    match a with
    | ⟨0, _⟩ =>
      show win1_1.index t (0 : Fin 2) * 64 + 1 * k.val = k.val
      rw [e2]; omega
    | ⟨1, _⟩ =>
      show win1_1.index t (1 : Fin 2) * 64 + 1 * q.val = win1_2.index t (1 : Fin 2) * 64 + 1 * q.val
      rw [e3, e5]
  rw [hw, hx]

/-- An index of the result is in point `t`'s block when each coordinate is in the block's range on its axis. -/
theorem reg1_mem_blk (t : Fin cfg1.N) (i : S100000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v22).slice (win1_2.rect t)).set ↔ _
  rw [View.set_slice_whole, Rect.mem_set_unit]
  exact Iff.rfl

/-- Every row is in the block of the point numbered by the row's quotient by 4000. -/
theorem reg1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 25 := N_1
  have hlt : (i 0).val / 4000 < grid1.N := by omega
  obtain ⟨e0, e1, e2, e3, e4, e5⟩ := reg1_idx_facts ⟨(i 0).val / 4000, hlt⟩
  have e4' : win1_2.index ⟨(i 0).val / 4000, hlt⟩ (0 : Fin 2) = (i 0).val / 4000 := e4
  refine ⟨⟨(i 0).val / 4000, hlt⟩, flush1_2 _, ?_⟩
  rw [reg1_mem_blk]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    omega
  | ⟨1, _⟩ =>
    show win1_2.index ⟨(i 0).val / 4000, hlt⟩ (1 : Fin 2) * 64 ≤ (i 1).val
      ∧ (i 1).val < win1_2.index ⟨(i 0).val / 4000, hlt⟩ (1 : Fin 2) * 64 + 64
    omega

/-- Region 1: each edge's row of the label table picked by a one-hot product, 4000 edges at each of 25 points. -/
theorem region1_value (c : Dev nD) :
    (dat1 (F := Ideal) V c).arrAt 2 cfg1.N = gPick (n := 100000) (t := 64) (f := 64) (V c main_v21) (V c main_arg1) :=
  (dat1 (F := Ideal) V c).arrAt_eq_of_cover 2 _ (fun t _ => reg1_flushed_eq V c t) reg1_cover

end Cert.KernelIdeal.Val

end
-- ==== Proof.Reg2.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

/-! The body's arithmetic at an index, each window's block read off its array, and the cover of the array by the output's blocks. -/
namespace Reg2

/-- The zero offsets of a whole-buffer access. -/
theorem zero_off2 : (![0, 0] : Fin 2 → Nat) = fun _ => 0 := funext fun a => by fin_cases a <;> rfl

/-- A block product of operands of any two formats into the zero accumulator, at `(p, q)`:
    `∑ k, lhs (p, k) · rhs (k, q)`. -/
theorem matmul_zero_fmt_apply {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    Idealize.ShloMosaic.matmul (F := Ideal) d prec lhs rhs (constant ⟨2, ![A, B]⟩ .f32 0x00000000#32) (ix2 p q)
      = ∑ k : Fin K, lhs (ix2 p k) * rhs (ix2 k q) := by
  show FloatOps.matmul d prec lhs rhs (constant ⟨2, ![A, B]⟩ .f32 0x00000000#32) (ix2 p q) = _
  rw [Cert.LibPlainDot.eq_plain d hlc hrc hln hrn hlb hrb, Ideal.matmul_constant_zero_apply]
  exact Cert.LibPlainDot.plain_sum lhs rhs p q

/-- The body's arithmetic at row `p`, column `q` of its blocks. -/
theorem pay2_apply (v0 : Vec Ideal S2000x1 .f32) (v2 v4 : Vec Ideal S2000x128 .f32) (v9 : Vec Ideal S1x128 .f32)
    (v13 : Vec Ideal S2000x128 .f32) (v15 : Vec Ideal S128x128 .f32) (v18 : Vec Ideal S2000x64 .f32)
    (v21 : Vec Ideal S64x128 .f32) (v25 : Vec Ideal S1x128 .f32) (p : Fin 2000) (q : Fin 128) :
    k2_pay1 v0 v2 v4 v9 v13 v15 v18 v21 v25 (ix2 p q)
      = max ((((v0 (ix2 p (0 : Fin 1)) * (v2 (ix2 p q) + v4 (ix2 p q)) + v9 (ix2 (0 : Fin 1) q))
          + (((∑ k : Fin 64, v18 (ix2 p k) * v21 (ix2 k q)) + ∑ k : Fin 128, v13 (ix2 p k) * v15 (ix2 k q))
              + v25 (ix2 (0 : Fin 1) q))) * HALF)) Z := by
  unfold k2_pay1
  simp only [shapeCast_self]
  rw [maximumf_apply, mulf_apply, addf_apply, addf_apply, addf_apply, addf_apply, mulf_apply, addf_apply]
  rw [Cert.LibColumn.broadcastTo_a1_ab_apply, broadcastTo_1b_ab_apply, broadcastTo_1b_ab_apply]
  rw [matmul_zero_fmt_apply _ rfl rfl rfl rfl rfl rfl, matmul_zero_fmt_apply _ rfl rfl rfl rfl rfl rfl]
  rfl

-- the core's buffer contents at the region's entry
variable (V : (c : Dev nD) → (b : Ref sig .tc) → Buf (Elt Ideal) ((c : Thread nD τ).loc b))

/-- The printed index maps over the grid: a row-blocked window's block at point `t` is block `t` of its rows, a
    whole-array window's is the array. -/
theorem idx_maps2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-- Row `p` of block `t` is row `2000 t + p` of the array. -/
theorem row_lt2 (t : Fin cfg2.N) (p : Fin 2000) : t.val * 2000 + p.val < 100000 := by
  have hN : cfg2.N = 50 := N_2
  have := t.isLt; have := p.isLt; omega

theorem blk2_0 (c : Dev nD) (t : Fin cfg2.N) (p : Fin 2000) (q : Fin 128) :
    iblk2 V c 0 t (ix2 p q) = V c main_v20 (ix2 (⟨t.val * 2000 + p.val, row_lt2 t p⟩ : Fin 100000) q) := by
  obtain ⟨e0, e1⟩ := (idx_maps2 t).1
  show V c main_v20 (((cfg2.win 0).blk t).view.emb (ix2 p q)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * q.val = q.val; omega

theorem blk2_1 (c : Dev nD) (t : Fin cfg2.N) (p : Fin 2000) (q : Fin 128) :
    iblk2 V c 1 t (ix2 p q) = V c main_v8 (ix2 (⟨t.val * 2000 + p.val, row_lt2 t p⟩ : Fin 100000) q) := by
  obtain ⟨e0, e1⟩ := (idx_maps2 t).2.1
  show V c main_v8 (((cfg2.win 1).blk t).view.emb (ix2 p q)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * q.val = q.val; omega

theorem blk2_2 (c : Dev nD) (t : Fin cfg2.N) (p : Fin 2000) (q : Fin 1) :
    iblk2 V c 2 t (ix2 p q) = V c main_v26 (ix2 (⟨t.val * 2000 + p.val, row_lt2 t p⟩ : Fin 100000) q) := by
  obtain ⟨e0, e1⟩ := (idx_maps2 t).2.2.1
  show V c main_v26 (((cfg2.win 2).blk t).view.emb (ix2 p q)) = _
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 1 + 1 * q.val = q.val; omega

theorem blk2_3 (c : Dev nD) (t : Fin cfg2.N) (p : Fin 1) (q : Fin 128) :
    iblk2 V c 3 t (ix2 p q) = V c main_v27 (ix2 p q) := by
  obtain ⟨e0, e1⟩ := (idx_maps2 t).2.2.2.1
  show V c main_v27 (((cfg2.win 3).blk t).view.emb (ix2 p q)) = _
  refine congrArg _ (funext fun a => Fin.ext ?_)
  match a with
  | ⟨0, _⟩ => show win2_3.index t (0 : Fin 2) * 1 + 1 * p.val = p.val; omega
  | ⟨1, _⟩ => show win2_3.index t (1 : Fin 2) * 128 + 1 * q.val = q.val; omega

theorem blk2_4 (c : Dev nD) (t : Fin cfg2.N) (p : Fin 2000) (q : Fin 64) :
    iblk2 V c 4 t (ix2 p q) = V c main_v25 (ix2 (⟨t.val * 2000 + p.val, row_lt2 t p⟩ : Fin 100000) q) := by
  obtain ⟨e0, e1⟩ := (idx_maps2 t).2.2.2.2.1
  show V c main_v25 (((cfg2.win 4).blk t).view.emb (ix2 p q)) = _
  refine congrArg _ (funext fun a => Fin.ext ?_)
  match a with
  | ⟨0, _⟩ => show win2_4.index t (0 : Fin 2) * 2000 + 1 * p.val = t.val * 2000 + p.val; omega
  | ⟨1, _⟩ => show win2_4.index t (1 : Fin 2) * 64 + 1 * q.val = q.val; omega

theorem blk2_5 (c : Dev nD) (t : Fin cfg2.N) (p : Fin 2000) (q : Fin 128) :
    iblk2 V c 5 t (ix2 p q) = V c main_arg0 (ix2 (⟨t.val * 2000 + p.val, row_lt2 t p⟩ : Fin 100000) q) := by
  obtain ⟨e0, e1⟩ := (idx_maps2 t).2.2.2.2.2.1
  show V c main_arg0 (((cfg2.win 5).blk t).view.emb (ix2 p q)) = _
  refine congrArg _ (funext fun a => Fin.ext ?_)
  match a with
  | ⟨0, _⟩ => show win2_5.index t (0 : Fin 2) * 2000 + 1 * p.val = t.val * 2000 + p.val; omega
  | ⟨1, _⟩ => show win2_5.index t (1 : Fin 2) * 128 + 1 * q.val = q.val; omega

theorem blk2_6 (c : Dev nD) (t : Fin cfg2.N) (p : Fin 64) (q : Fin 128) :
    iblk2 V c 6 t (ix2 p q) = V c main_arg7 (ix2 p q) := by
  obtain ⟨e0, e1⟩ := (idx_maps2 t).2.2.2.2.2.2.1
  show V c main_arg7 (((cfg2.win 6).blk t).view.emb (ix2 p q)) = _
  refine congrArg _ (funext fun a => Fin.ext ?_)
  match a with
  | ⟨0, _⟩ => show win2_6.index t (0 : Fin 2) * 64 + 1 * p.val = p.val; omega
  | ⟨1, _⟩ => show win2_6.index t (1 : Fin 2) * 128 + 1 * q.val = q.val; omega

theorem blk2_7 (c : Dev nD) (t : Fin cfg2.N) (p : Fin 128) (q : Fin 128) :
    iblk2 V c 7 t (ix2 p q) = V c main_arg8 (ix2 p q) := by
  obtain ⟨e0, e1⟩ := (idx_maps2 t).2.2.2.2.2.2.2.1
  show V c main_arg8 (((cfg2.win 7).blk t).view.emb (ix2 p q)) = _
  refine congrArg _ (funext fun a => Fin.ext ?_)
  match a with
  | ⟨0, _⟩ => show win2_7.index t (0 : Fin 2) * 128 + 1 * p.val = p.val; omega
  | ⟨1, _⟩ => show win2_7.index t (1 : Fin 2) * 128 + 1 * q.val = q.val; omega

theorem blk2_8 (c : Dev nD) (t : Fin cfg2.N) (p : Fin 1) (q : Fin 128) :
    iblk2 V c 8 t (ix2 p q) = V c main_v28 (ix2 p q) := by
  obtain ⟨e0, e1⟩ := (idx_maps2 t).2.2.2.2.2.2.2.2.1
  show V c main_v28 (((cfg2.win 8).blk t).view.emb (ix2 p q)) = _
  refine congrArg _ (funext fun a => Fin.ext ?_)
  match a with
  | ⟨0, _⟩ => show win2_8.index t (0 : Fin 2) * 1 + 1 * p.val = p.val; omega
  | ⟨1, _⟩ => show win2_8.index t (1 : Fin 2) * 128 + 1 * q.val = q.val; omega

/-- The region's result as one function of the arrays it reads. -/
abbrev G2 (c : Dev nD) : Mat 100000 128 :=
  gMixFull (n := 100000) (h := 128) (fl := 64) (fp := 128) (V c main_v20) (V c main_v8) (V c main_v26) (V c main_v27) (V c main_v25)
    (V c main_arg0) (V c main_arg7) (V c main_arg8) (V c main_v28)

/-- Where row `p`, column `q` of the output's block at point `t` sits in the array. -/
theorem emb2_9 (t : Fin cfg2.N) (p : Fin 2000) (q : Fin 128) :
    ((cfg2.win 9).blk t).view.emb (ix2 p q) = ix2 (⟨t.val * 2000 + p.val, row_lt2 t p⟩ : Fin 100000) q := by
  obtain ⟨e0, e1⟩ := (idx_maps2 t).2.2.2.2.2.2.2.2.2
  refine funext fun a => Fin.ext ?_
  match a with
  | ⟨0, _⟩ => show win2_9.index t (0 : Fin 2) * 2000 + 1 * p.val = t.val * 2000 + p.val; omega
  | ⟨1, _⟩ => show win2_9.index t (1 : Fin 2) * 128 + 1 * q.val = q.val; omega

/-- What point `t` writes back is block `t` of the result function. -/
theorem flushed2_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  unfold out2_9
  rw [View.canon_unit_zero zero_off2]
  simp only [View.ld_unit_zero (S := S2000x128) zero_off2, View.ld_unit_zero (S := S2000x1) zero_off2,
    View.ld_unit_zero (S := S1x128) zero_off2, View.ld_unit_zero (S := S128x128) zero_off2,
    View.ld_unit_zero (S := S2000x64) zero_off2, View.ld_unit_zero (S := S64x128) zero_off2]
  funext j
  obtain ⟨p, q, rfl⟩ : ∃ (p : Fin 2000) (q : Fin 128), j = ix2 p q := ⟨j 0, j 1, eq_ix2 j⟩
  show k2_pay1 (iblk2 V c 2 t) (iblk2 V c 0 t) (iblk2 V c 1 t) (iblk2 V c 3 t) (iblk2 V c 5 t) (iblk2 V c 7 t)
      (iblk2 V c 4 t) (iblk2 V c 6 t) (iblk2 V c 8 t) (ix2 p q) = G2 V c (((cfg2.win 9).blk t).view.emb (ix2 p q))
  rw [emb2_9, pay2_apply]
  unfold G2
  rw [gMixFull_apply]
  simp only [blk2_0, blk2_1, blk2_2, blk2_3, blk2_4, blk2_5, blk2_6, blk2_7, blk2_8]

/-- An index of the array is in point `t`'s block iff each coordinate is in the block's range on its axis. -/
theorem mem_blk2 (t : Fin cfg2.N) (i : S100000x128.Idx) :
    i ∈ ((cfg2.win 9).blk t).view.set ↔ ∀ a : Fin 2, win2_9.index t a * S2000x128.size a ≤ (i a).val
      ∧ (i a).val < win2_9.index t a * S2000x128.size a + S2000x128.size a := by
  show i ∈ ((View.whole main_v29).slice (win2_9.rect t)).set ↔ _
  rw [View.set_slice_whole, Rect.mem_set_unit]
  exact Iff.rfl

/-- Row `r` is in the block of point `r / 2000`: the blocks cover the array. -/
theorem cover2 (i : S100000x128.Idx) :
    ∃ t : Fin cfg2.N, (cfg2.win 9).flush t = true ∧ i ∈ ((cfg2.win 9).blk t).view.set := by
  have hN : cfg2.N = 50 := N_2
  have hi0 : (i 0).val < 100000 := (i 0).isLt
  have hi1 : (i 1).val < 128 := (i 1).isLt
  obtain ⟨t, htv⟩ : ∃ t : Fin cfg2.N, t.val = (i 0).val / 2000 := ⟨⟨(i 0).val / 2000, by omega⟩, rfl⟩
  obtain ⟨e0, e1⟩ := (idx_maps2 t).2.2.2.2.2.2.2.2.2
  refine ⟨t, flush2_9 t, ?_⟩
  rw [mem_blk2]
  intro a
  match a with
  | ⟨0, _⟩ =>
    show win2_9.index t (0 : Fin 2) * 2000 ≤ (i 0).val ∧ (i 0).val < win2_9.index t (0 : Fin 2) * 2000 + 2000
    omega
  | ⟨1, _⟩ =>
    show win2_9.index t (1 : Fin 2) * 128 ≤ (i 1).val ∧ (i 1).val < win2_9.index t (1 : Fin 2) * 128 + 128
    omega

end Reg2

-- the core's buffer contents at the region's entry
variable (V : (c : Dev nD) → (b : Ref sig .tc) → Buf (Elt Ideal) ((c : Thread nD τ).loc b))

/-- Region 2: the first layer's combining step with the rectifier, 2000 rows at each of 50 points. -/
theorem region2_value (c : Dev nD) :
    (dat2 (F := Ideal) V c).arrAt 9 cfg2.N
      = gMixFull (n := 100000) (h := 128) (fl := 64) (fp := 128) (V c main_v20) (V c main_v8) (V c main_v26) (V c main_v27) (V c main_v25)
          (V c main_arg0) (V c main_arg7) (V c main_arg8) (V c main_v28) :=
  (dat2 (F := Ideal) V c).arrAt_eq_of_cover 9 (Reg2.G2 V c) (fun t _ => Reg2.flushed2_eq V c t) Reg2.cover2

end Cert.KernelIdeal.Val

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Reg3.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibBlockSum
import proofs.«428892_j6622839570445_2_alg».proof.Proof.LibPlainDot
import proofs.«428892_j6622839570445_2_alg».proof.Proof.LibIdealReal
import proofs.«428892_j6622839570445_2_alg».proof.Proof.LibColumn
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

namespace Reg3

/-! ## A product contracted over the FIRST axis of both operands, read at an index -/

namespace TDot

variable {K A B : Nat}

/-- Dimension numbers `[0] × [0]`, free axes `[1]` and `[1]`, no batch: a `K × A` operand against a `K × B` one. -/
def dims (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Any record with these dimension numbers is that one. -/
theorem eq_dims (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = dims K A B := by
  cases d
  simp only at hlc hrc hln hrn hlb hrb
  subst hlc hrc hln hrn hlb hrb
  rfl

/-- The contraction shape has one axis … -/
theorem dims_rank : (dims K A B).contr.rank = 1 := rfl
/-- … of extent `K`. -/
theorem dims_size : (dims K A B).contr.size ⟨0, by rw [dims_rank]; exact Nat.one_pos⟩ = K := rfl

/-- At result index `(p, q)` and contraction coordinate `k` the left operand is read at `(k, p)`. -/
theorem dims_lhs (p : Fin A) (q : Fin B) (k : Fin K) :
    (dims K A B).lhsIdx (ix2 p q) ((contrEquiv1 (dims K A B) K dims_rank dims_size).symm k) = ix2 k p := by
  funext a
  apply Fin.ext
  match a with
  | ⟨0, _⟩ => rfl
  | ⟨1, _⟩ => rfl

/-- At result index `(p, q)` and contraction coordinate `k` the right operand is read at `(k, q)`. -/
theorem dims_rhs (p : Fin A) (q : Fin B) (k : Fin K) :
    (dims K A B).rhsIdx (ix2 p q) ((contrEquiv1 (dims K A B) K dims_rank dims_size).symm k) = ix2 k q := by
  funext a
  apply Fin.ext
  match a with
  | ⟨0, _⟩ => rfl
  | ⟨1, _⟩ => rfl

/-- A block product into the zero accumulator, at `(p, q)`: `∑ k, lhs (k, p) · rhs (k, q)`. -/
theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_dims d hlc hrc hln hrn hlb hrb, Ideal.matmul_constant_zero_apply,
    ← Equiv.sum_comp (contrEquiv1 (dims K A B) K dims_rank dims_size).symm]
  refine Finset.sum_congr rfl fun k _ => ?_
  rw [dims_lhs, dims_rhs]

end TDot

/-- The equality test of two words is the bit one exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-- The one-hot weight as the programs compute it: the equality bit, widened, converted. -/
theorem onehot_eq (w : BitVec 32) (c : Nat) :
    FloatOps.sitofp (F := Ideal) .f32 ((IntOp.cmpi .eq w (BitVec.ofNat 32 c)).setWidth 32) = onehot w c := by
  rw [Cert.LibIdealReal.sitofp_extui_bit]
  unfold onehot
  by_cases h : w = BitVec.ofNat 32 c
  · rw [if_pos ((cmpi_eq_one_iff _ _).mpr h), if_pos h]
  · rw [if_neg (fun h' => h ((cmpi_eq_one_iff _ _).mp h')), if_neg h]

/-- The update's payload at `(p, q)`: the previous contents there plus the 4000 rows of the data block weighted by
    their one-hot weight at `p`. -/
theorem pay2_apply (i : Vec Ideal S4000x1 .i32) (d : Vec Ideal S4000x128 .f32) (prev : Vec Ideal S64x128 .f32)
    (p : Fin 64) (q : Fin 128) :
    k3_pay2 (F := Ideal) i d prev (ix2 p q)
      = prev (ix2 p q) + ∑ r : Fin 4000, onehot (i (ix2 r (0 : Fin 1))) p.val * d (ix2 r q) := by
  unfold k3_pay2
  refine congrArg₂ (· + ·) (congrFun (shapeCast_self prev _) (ix2 p q)) ?_
  refine (TDot.matmul_zero_apply dot_S4000x64_S4000x128_S64x128_0_0_1_1_n_n rfl rfl rfl rfl rfl rfl _ _ _ p q).trans ?_
  refine Finset.sum_congr rfl fun r _ => ?_
  refine congrArg₂ (· * ·) ?_ (congrFun (shapeCast_self d _) (ix2 r q))
  have e1 : broadcastTo S4000x64 (shapeCast S4000x1 i shapeCasts_S4000x1_S4000x1) broadcasts_S4000x1_S4000x64 (ix2 r p)
      = i (ix2 r (0 : Fin 1)) :=
    (Cert.LibColumn.broadcastTo_a1_ab_apply _ _ r p).trans (congrFun (shapeCast_self i _) _)
  have e2 : iota .tc S4000x64 32 [1] iota_S4000x64_d1_w32 (ix2 r p) = BitVec.ofNat 32 p.val :=
    iota_single_apply .tc S4000x64 32 1 _ (ix2 r p)
  show FloatOps.sitofp (F := Ideal) .f32 ((IntOp.cmpi .eq
      (broadcastTo S4000x64 (shapeCast S4000x1 i shapeCasts_S4000x1_S4000x1) broadcasts_S4000x1_S4000x64 (ix2 r p))
      (iota .tc S4000x64 32 [1] iota_S4000x64_d1_w32 (ix2 r p))).setWidth 32) = _
  rw [e1, e2]
  exact onehot_eq _ _

/-- The reset's payload is zero everywhere. -/
theorem pay1_apply (j : S64x128.Idx) : k3_pay1 (F := Ideal) j = 0 := Ideal.ofBits_zero_f32

/-! ## What each case of the body leaves, as the payloads -/

theorem hz : (![0, 0] : Fin 2 → Nat) = fun _ => 0 := funext fun a => by fin_cases a <;> rfl

section pieces
variable {F : FTy → Type} [FloatOps F]

/-- At a later point the body leaves the update of what the buffer held. -/
theorem out3_B (c : Dev nD) (i : grid3.Coords) (a1 : Memref sig .tc .vmem S4000x1 .i32) (h1 : a1.IsWhole)
    (a2 : Memref sig .tc .vmem S4000x128 .f32) (h2 : a2.IsWhole) (a3 : Memref sig .tc .vmem S64x128 .f32) (h3 : a3.IsWhole)
    (hc : ¬cond3_0 i) (x0 : Vec F S4000x1 .i32) (x1 : Vec F S4000x128 .f32) (xo : Vec F S64x128 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S4000x1) hz,
    View.ld_unit_zero (S := S4000x128) hz, View.ld_unit_zero (S := S64x128) hz]

/-- At the first point the body stores the zero block, reads it back, and leaves the update of it. -/
theorem out3_A (c : Dev nD) (i : grid3.Coords) (a1 : Memref sig .tc .vmem S4000x1 .i32) (h1 : a1.IsWhole)
    (a2 : Memref sig .tc .vmem S4000x128 .f32) (h2 : a2.IsWhole) (a3 : Memref sig .tc .vmem S64x128 .f32) (h3 : a3.IsWhole)
    (hc : cond3_0 i) (x0 : Vec F S4000x1 .i32) (x1 : Vec F S4000x128 .f32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x128) hz, View.readCov_unit_zero (S := S64x128) _ hz]
  simp only [View.readAt_eq_ld, h1.read_unread, h2.read_unread, View.ld_unit_zero (S := S4000x1) hz,
    View.ld_unit_zero (S := S4000x128) hz]

end pieces

/-! ## The input blocks, read off the arrays -/

/-- The index maps of the two input windows at point `t`: row block `t`, the one block of columns. -/
theorem idx_facts3 : ∀ t : Fin cfg3.N,
    (win3_0.index t 0 = t.val ∧ win3_0.index t 1 = 0) ∧ (win3_1.index t 0 = t.val ∧ win3_1.index t 1 = 0) :=
  (by decide +kernel : ∀ t : Fin grid3.N,
    (win3_0.index t 0 = t.val ∧ win3_0.index t 1 = 0) ∧ (win3_1.index t 0 = t.val ∧ win3_1.index t 1 = 0))

/-- The word block and the data block at point `t`, and the two arrays, at their literal types. -/
abbrev iblkI (c : Dev nD) (t : Fin cfg3.N) : Vec Ideal S4000x1 .i32 := iblk3 V c 0 t
abbrev iblkD (c : Dev nD) (t : Fin cfg3.N) : Vec Ideal S4000x128 .f32 := iblk3 V c 1 t
abbrev arrI (c : Dev nD) : WCol 100000 := V c main_v37
abbrev arrD (c : Dev nD) : Mat 100000 128 := V c main_v36

/-- Row `r` of block `t` is a row of the array. -/
theorem row_lt (t : Fin cfg3.N) (r : Fin 4000) : 4000 * t.val + r.val < 100000 := by
  have := lt_of_lt_of_eq t.isLt (show cfg3.N = 25 from N_3)
  have := r.isLt
  omega

/-- The word block at point `t` reads the word array at row `4000 t + r`. -/
theorem iblkI_apply (c : Dev nD) (t : Fin cfg3.N) (r : Fin 4000) :
    iblkI V c t (ix2 r (0 : Fin 1)) = arrI V c (ix2 ⟨4000 * t.val + r.val, row_lt t r⟩ (0 : Fin 1)) := by
  unfold iblkI iblk3
  rw [View.read_apply]
  show V c main_v37 _ = V c main_v37 _
  congr 1
  funext a
  apply Fin.ext
  match a with
  | ⟨0, _⟩ => show win3_0.index t 0 * 4000 + 1 * r.val = 4000 * t.val + r.val; rw [(idx_facts3 t).1.1]; omega
  | ⟨1, _⟩ => show win3_0.index t 1 * 1 + 1 * 0 = 0; rw [(idx_facts3 t).1.2]

/-- The data block at point `t` reads the data array at row `4000 t + r`. -/
theorem iblkD_apply (c : Dev nD) (t : Fin cfg3.N) (r : Fin 4000) (q : Fin 128) :
    iblkD V c t (ix2 r q) = arrD V c (ix2 ⟨4000 * t.val + r.val, row_lt t r⟩ q) := by
  unfold iblkD iblk3
  rw [View.read_apply]
  show V c main_v36 _ = V c main_v36 _
  congr 1
  funext a
  apply Fin.ext
  match a with
  | ⟨0, _⟩ => show win3_1.index t 0 * 4000 + 1 * r.val = 4000 * t.val + r.val; rw [(idx_facts3 t).2.1]; omega
  | ⟨1, _⟩ => show win3_1.index t 1 * 128 + 1 * q.val = q.val; rw [(idx_facts3 t).2.2]; omega

/-! ## The accumulation over the points -/

/-- What block `t` adds at `(p, q)`: its 4000 data rows weighted by their one-hot weight at `p`. -/
def blockSum (c : Dev nD) (t : Fin cfg3.N) (p : Fin 64) (q : Fin 128) : EReal :=
  ∑ r : Fin 4000, onehot (iblkI V c t (ix2 r (0 : Fin 1))) p.val * iblkD V c t (ix2 r q)

/-- After point `n` the output block holds, at `(p, q)`, the contributions of blocks `0 … n`: at the first point
    the zero block plus block 0, at each later point one more block. -/
theorem outsAt3_eq (c : Dev nD) (p : Fin 64) (q : Fin 128) : ∀ (n : ℕ) (h : n < cfg3.N),
    outsAt3 V c n h (ix2 p q) = ∑ t : Fin (n + 1), blockSum V c ⟨t.val, lt_of_lt_of_le t.isLt h⟩ p q
  | 0, h => by
    rw [outsAt3_A V c ⟨0, h⟩ rfl]
    refine (congrFun (out3_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr rfl) (iblkI V c ⟨0, h⟩) (iblkD V c ⟨0, h⟩)) (ix2 p q)).trans ?_
    refine (pay2_apply (iblkI V c ⟨0, h⟩) (iblkD V c ⟨0, h⟩) (k3_pay1 (F := Ideal)) p q).trans ?_
    rw [pay1_apply, zero_add, Fin.sum_univ_one]
    rfl
  | n + 1, h => by
    have hN : cfg3.N = 25 := N_3
    have hB : ¬(⟨n + 1, h⟩ : Fin cfg3.N).val % 25 = 0 := by dsimp only; omega
    rw [outsAt3_B V c ⟨n + 1, h⟩ hB]
    refine (congrFun (out3_B (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (fun h' => hB ((hcond3_0 ⟨n + 1, h⟩).mp h'))
      (iblkI V c ⟨n + 1, h⟩) (iblkD V c ⟨n + 1, h⟩) (outsAt3 V c n (Nat.lt_of_succ_lt h))) (ix2 p q)).trans ?_
    refine (pay2_apply (iblkI V c ⟨n + 1, h⟩) (iblkD V c ⟨n + 1, h⟩) (outsAt3 V c n (Nat.lt_of_succ_lt h)) p q).trans ?_
    refine Eq.trans ?_ (Fin.sum_univ_castSucc _).symm
    exact congrArg₂ (· + ·) (outsAt3_eq c p q n (Nat.lt_of_succ_lt h)) rfl

/-! ## The array after the region -/

/-- The pile of all 100000 rows. -/
abbrev pile3 (c : Dev nD) : Mat 64 128 := gPile (n := 100000) (t := 64) (f := 128) (V c main_v37) (V c main_v36)

/-- The last point. -/
theorem lt24 : 24 < cfg3.N := lt_of_lt_of_eq (by decide : 24 < 25) N_3.symm
abbrev tLast : Fin cfg3.N := ⟨24, lt24⟩

/-- After the last point the output block holds the pile: 25 blocks of 4000 rows are the 100000 rows. -/
theorem outsAt3_last (c : Dev nD) (h : 24 < cfg3.N) : outsAt3 V c 24 h = pile3 V c := by
  funext j
  obtain ⟨p, q, rfl⟩ : ∃ (p : Fin 64) (q : Fin 128), j = ix2 p q := ⟨j 0, j 1, eq_ix2 j⟩
  rw [outsAt3_eq V c p q 24 h]
  show _ = ∑ e : Fin 100000, onehot (arrI V c (ix2 e (0 : Fin 1))) p.val * arrD V c (ix2 e q)
  rw [← Cert.BlockSum.sum_blocks 25 4000 (fun e : Fin (25 * 4000) => onehot (arrI V c (ix2 e (0 : Fin 1))) p.val * arrD V c (ix2 e q))]
  refine Finset.sum_congr rfl fun t _ => ?_
  unfold blockSum
  refine Finset.sum_congr rfl fun r _ => ?_
  rw [iblkI_apply, iblkD_apply]

/-- The one write-back, after the last point, writes the pile: the output's one block is the whole array. -/
theorem flushed3_eq (c : Dev nD) (t : Fin cfg3.N) (hf : (cfg3.win 2).flush t = true) :
    (dat3 (F := Ideal) V c).flushed 2 t = ((cfg3.win 2).blk t).view.read (Elt Ideal) (pile3 V c) := by
  have hN : cfg3.N = 25 := N_3
  have h24 : t.val = 24 := by have := (flush3_2 t).mp hf; have := t.isLt; omega
  obtain rfl : t = tLast := Fin.ext h24
  show (cfg3.win 2).cut (grid3.coords tLast) ((dat3 (F := Ideal) V c).after 2 tLast) = _
  rw [after3_2, outsAt3_last]
  have hz' : (fun a => win3_2.index tLast a * main_v38.ty.shape.size a) = fun _ => 0 :=
    funext fun a => by fin_cases a <;> decide
  exact (Memref.read_access_unit_zero (Elt Ideal) main_v38 hz' (fun a => by rw [congrFun hz' a]; simp) (pile3 V c)).symm

end Reg3

open Reg3 in
/-- Region 3: the rows of the gathered paper features piled by their label word, 4000 edges added at each of 25
    points into one 64-row block that is reset at the first point and written back after the last. -/
theorem region3_value (c : Dev nD) :
    (dat3 (F := Ideal) V c).arrAt 2 cfg3.N = gPile (n := 100000) (t := 64) (f := 128) (V c main_v37) (V c main_v36) :=
  (dat3 (F := Ideal) V c).arrAt_eq_of_cover 2 (pile3 V c) (flushed3_eq V c) fun i =>
    ⟨tLast, (flush3_2 tLast).mpr rfl, by
      show i ∈ ((View.whole main_v38).slice (win3_2.rect tLast)).set
      rw [View.set_slice_whole, Rect.mem_set_unit]
      intro a
      have h0 : (i 0 : Nat) < 64 := (i 0).isLt
      have h1 : (i 1 : Nat) < 128 := (i 1).isLt
      match a with
      | ⟨0, _⟩ =>
        show win3_2.index tLast 0 * win3_2.size 0 ≤ (i 0 : Nat) ∧ (i 0 : Nat) < win3_2.index tLast 0 * win3_2.size 0 + win3_2.xsize (grid3.coords tLast) 0
        rw [show win3_2.index tLast 0 * win3_2.size 0 = 0 from by decide +kernel, show win3_2.xsize (grid3.coords tLast) 0 = 64 from by decide +kernel]; omega
      | ⟨1, _⟩ =>
        show win3_2.index tLast 1 * win3_2.size 1 ≤ (i 1 : Nat) ∧ (i 1 : Nat) < win3_2.index tLast 1 * win3_2.size 1 + win3_2.xsize (grid3.coords tLast) 1
        rw [show win3_2.index tLast 1 * win3_2.size 1 = 0 from by decide +kernel, show win3_2.xsize (grid3.coords tLast) 1 = 128 from by decide +kernel]; omega⟩

end Cert.KernelIdeal.Val

end
-- ==== Proof.Reg4.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

/-- The zero offsets of a whole-buffer access, however spelt. -/
theorem hz4 : (![0, 0] : Fin 2 → Nat) = fun _ => 0 := funext fun a => by fin_cases a <;> rfl

/-- The block product into the zero accumulator, at entry (p, q): the row times the column. -/
theorem dot4_apply (a : FVec Ideal S4000x128 .bf16) (b : FVec Ideal S128x64 .bf16) (p : Fin 4000) (q : Fin 64) :
    matmul dot_S4000x128_S128x64_S4000x64_1_0_0_1_n_n none a b (constant S4000x64 .f32 0x00000000#32) (ix2 p q)
      = ∑ k : Fin 128, a (ix2 p k) * b (ix2 k q) :=
  Cert.LibPlainDot.matmul_zero_apply dot_S4000x128_S128x64_S4000x64_1_0_0_1_n_n rfl rfl rfl rfl rfl rfl none a b p q

/-- The body's arithmetic at entry (p, q): the row of the feature block times the column of the weight, scaled by the
    row's entry of the column block. -/
theorem pay4_apply (x0 : Vec Ideal S4000x128 .f32) (x1 : Vec Ideal S128x64 .f32) (x2 : Vec Ideal S4000x1 .f32)
    (p : Fin 4000) (q : Fin 64) :
    k4_pay1 x0 x1 x2 (ix2 p q) = (∑ k : Fin 128, x0 (ix2 p k) * x1 (ix2 k q)) * x2 (ix2 p (0 : Fin 1)) := by
  unfold k4_pay1
  rw [mulf_apply, dot4_apply, Cert.LibColumn.broadcastTo_a1_ab_apply, shapeCast_self, shapeCast_self]
  rfl

/-- The block index of each window at each grid point: the row windows move with the point, the weight stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The feature block at point `t` holds rows `4000 t … 4000 t + 3999` of the feature array. -/
theorem blk4_x (c : Dev nD) (t : Fin cfg4.N) (y : S4000x128.Idx) (i : S100000x128.Idx)
    (h0 : (i 0).val = 4000 * t.val + (y 0).val) (h1 : (i 1).val = (y 1).val) :
    (iblk4 V c 0 t : Vec Ideal S4000x128 .f32) y = (V c main_v29 : S100000x128.Idx → EReal) i := by
  obtain ⟨e0, e1, -⟩ := idx_facts4 t
  unfold iblk4
  rw [View.read_apply]
  show V c main_v29 (((cfg4.win 0).blk t).view.emb y) = V c main_v29 i
  congr 1
  funext a
  apply Fin.ext
  match a with
  | ⟨0, _⟩ => show win4_0.index t (0 : Fin 2) * 4000 + 1 * (y 0).val = (i 0).val; rw [e0, h0]; omega
  | ⟨1, _⟩ => show win4_0.index t (1 : Fin 2) * 128 + 1 * (y 1).val = (i 1).val; rw [e1, h1]; omega

/-- The weight block at every point is the whole weight. -/
theorem blk4_w (c : Dev nD) (t : Fin cfg4.N) (y : S128x64.Idx) :
    (iblk4 V c 1 t : Vec Ideal S128x64 .f32) y = (V c main_arg10 : S128x64.Idx → EReal) y := by
  obtain ⟨-, -, e0, e1, -⟩ := idx_facts4 t
  unfold iblk4
  rw [View.read_apply]
  show V c main_arg10 (((cfg4.win 1).blk t).view.emb y) = V c main_arg10 y
  congr 1
  funext a
  apply Fin.ext
  match a with
  | ⟨0, _⟩ => show win4_1.index t (0 : Fin 2) * 128 + 1 * (y 0).val = (y 0).val; rw [e0]; omega
  | ⟨1, _⟩ => show win4_1.index t (1 : Fin 2) * 64 + 1 * (y 1).val = (y 1).val; rw [e1]; omega

/-- The scale block at point `t` holds rows `4000 t … 4000 t + 3999` of the scale column. -/
theorem blk4_s (c : Dev nD) (t : Fin cfg4.N) (y : S4000x1.Idx) (i : S100000x1.Idx)
    (h0 : (i 0).val = 4000 * t.val + (y 0).val) (h1 : (i 1).val = (y 1).val) :
    (iblk4 V c 2 t : Vec Ideal S4000x1 .f32) y = (V c main_v46 : S100000x1.Idx → EReal) i := by
  obtain ⟨-, -, -, -, e0, e1, -⟩ := idx_facts4 t
  unfold iblk4
  rw [View.read_apply]
  show V c main_v46 (((cfg4.win 2).blk t).view.emb y) = V c main_v46 i
  congr 1
  funext a
  apply Fin.ext
  match a with
  | ⟨0, _⟩ => show win4_2.index t (0 : Fin 2) * 4000 + 1 * (y 0).val = (i 0).val; rw [e0, h0]; omega
  | ⟨1, _⟩ => show win4_2.index t (1 : Fin 2) * 1 + 1 * (y 1).val = (i 1).val; rw [e1, h1]; omega

/-- The body's value at entry `j` of point `t`'s blocks is the scaled product of the whole arrays at the entry of row
    `4000 t + j₀` and column `j₁`. -/
theorem point4 (c : Dev nD) (t : Fin cfg4.N) (j : S4000x64.Idx) (i : S100000x64.Idx)
    (h0 : (i 0).val = 4000 * t.val + (j 0).val) (h1 : (i 1).val = (j 1).val) :
    k4_pay1 (iblk4 V c 0 t) (iblk4 V c 1 t) (iblk4 V c 2 t) j
      = gLin (n := 100000) (k := 128) (h := 64) (V c main_v29) (V c main_arg10) (V c main_v46) i := by
  obtain ⟨p, q, rfl⟩ : ∃ (p : Fin 4000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  refine (pay4_apply (iblk4 V c 0 t) (iblk4 V c 1 t) (iblk4 V c 2 t) p q').trans ?_
  rw [gLin_apply]
  refine congrArg₂ (· * ·) (Finset.sum_congr rfl fun k _ => ?_) ?_
  · exact congrArg₂ (· * ·) (blk4_x V c t (ix2 p k) (ix2 r k) h0 rfl) (blk4_w V c t (ix2 k q'))
  · exact blk4_s V c t (ix2 p (0 : Fin 1)) (ix2 r (0 : Fin 1)) h0 rfl

/-- What point `t` writes back is block `t` of the scaled product of the whole arrays. -/
theorem flushed4_eq (c : Dev nD) (t : Fin cfg4.N) :
    (dat4 (F := Ideal) V c).flushed 3 t
      = ((cfg4.win 3).blk t).view.read (Elt Ideal)
          (gLin (n := 100000) (k := 128) (h := 64) (V c main_v29) (V c main_arg10) (V c main_v46)) := by
  show (cfg4.win 3).cut (grid4.coords t) ((dat4 V c).after 3 t) = _
  rw [after4_3]
  unfold out4_3
  rw [View.canon_unit_zero hz4]
  simp only [View.ld_unit_zero (S := S4000x128) hz4, View.ld_unit_zero (S := S128x64) hz4, View.ld_unit_zero (S := S4000x1) hz4]
  obtain ⟨-, -, -, -, -, -, e0, e1⟩ := idx_facts4 t
  funext j
  show k4_pay1 (iblk4 V c 0 t) (iblk4 V c 1 t) (iblk4 V c 2 t) j
      = gLin (n := 100000) (k := 128) (h := 64) (V c main_v29) (V c main_arg10) (V c main_v46) (((cfg4.win 3).blk t).view.emb j)
  refine point4 V c t j _ ?_ ?_
  · show win4_3.index t (0 : Fin 2) * 4000 + 1 * (j 0).val = 4000 * t.val + (j 0).val
    rw [e0]; omega
  · show win4_3.index t (1 : Fin 2) * 64 + 1 * (j 1).val = (j 1).val
    rw [e1]; omega

/-- Every entry of the output array is in the block of the point its row falls in: row `r` in point `r / 4000`. -/
theorem cover4 (i : S100000x64.Idx) :
    ∃ t : Fin cfg4.N, (cfg4.win 3).flush t = true ∧ i ∈ ((cfg4.win 3).blk t).view.set := by
  have hN : grid4.N = 25 := N_4
  have hi0 : (i 0).val < 100000 := (i 0).isLt
  have hi1 : (i 1).val < 64 := (i 1).isLt
  have ht : (i 0).val / 4000 < cfg4.N := by show _ < grid4.N; rw [hN]; omega
  obtain ⟨t, htv⟩ : ∃ t : Fin cfg4.N, t.val = (i 0).val / 4000 := ⟨⟨_, ht⟩, rfl⟩
  obtain ⟨-, -, -, -, -, -, e0, e1⟩ := idx_facts4 t
  refine ⟨t, flush4_3 t, ?_⟩
  show i ∈ ((View.whole main_v47).slice (win4_3.rect t)).set
  rw [View.set_slice_whole, Rect.mem_set_unit]
  intro a
  match a with
  | ⟨0, _⟩ =>
    show win4_3.index t (0 : Fin 2) * 4000 ≤ (i 0).val ∧ (i 0).val < win4_3.index t (0 : Fin 2) * 4000 + 4000
    rw [e0, htv]; omega
  | ⟨1, _⟩ =>
    show win4_3.index t (1 : Fin 2) * 64 ≤ (i 1).val ∧ (i 1).val < win4_3.index t (1 : Fin 2) * 64 + 64
    rw [e1]; omega

/-- Region 4: the scaled product of the hidden paper features with the second weight, a block of 4000 rows at each of 25 points. -/
theorem region4_value (c : Dev nD) :
    (dat4 (F := Ideal) V c).arrAt 3 cfg4.N = gLin (n := 100000) (k := 128) (h := 64) (V c main_v29) (V c main_arg10) (V c main_v46) := by
  exact (dat4 (F := Ideal) V c).arrAt_eq_of_cover 3 _ (fun t _ => flushed4_eq V c t) (fun i => cover4 i)

end Cert.KernelIdeal.Val

end
-- ==== Proof.Reg5.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

/-- The fixed index `(0, 0)` as the constant-zero function. -/
theorem reg5_zero_pair : (![0, 0] : Fin 2 → Nat) = fun _ => 0 := funext fun a => by fin_cases a <;> rfl

/-- The compare of a word with the number of a column, widened and converted, is the one-hot weight. -/
theorem reg5_onehot_factor (w : BitVec 32) (k : Nat) :
    FloatOps.sitofp (F := Ideal) .f32 ((IntOp.cmpi .eq w (BitVec.ofNat 32 k)).setWidth 32) = onehot w k := by
  rw [Cert.LibIdealReal.sitofp_extui_bit]
  unfold onehot
  by_cases h : w = BitVec.ofNat 32 k
  · have hb : IntOp.cmpi .eq w (BitVec.ofNat 32 k) = 1#1 := by
      show BitVec.ofBool (w == BitVec.ofNat 32 k) = 1#1
      rw [beq_iff_eq.2 h]; rfl
    rw [if_pos hb, if_pos h]
  · have hb : IntOp.cmpi .eq w (BitVec.ofNat 32 k) ≠ 1#1 := by
      show BitVec.ofBool (w == BitVec.ofNat 32 k) ≠ 1#1
      rw [beq_eq_false_iff_ne.2 h]; decide
    rw [if_neg hb, if_neg h]

/-- The one-hot matrix of a column of words, at `(p, k)`. -/
theorem reg5_onehot_mat_apply (x0 : Vec Ideal S4000x1 .i32) (h1 h2 h3 h4) (p : Fin 4000) (k : Fin 64) :
    (sitofp (F := Ideal) .f32 (extui 32 (cmpi .eq (broadcastTo S4000x64 (shapeCast S4000x1 x0 h1) h2) (iota .tc S4000x64 32 [1] h3)) h4) : FVec Ideal S4000x64 .f32) (ix2 p k)
      = onehot (x0 (ix2 p (0 : Fin 1))) k.val := by
  rw [sitofp_apply, extui_apply]
  show FloatOps.sitofp .f32 ((IntOp.cmpi .eq (broadcastTo S4000x64 (shapeCast S4000x1 x0 h1) h2 (ix2 p k)) (iota .tc S4000x64 32 [1] h3 (ix2 p k))).setWidth 32) = _
  rw [Cert.LibColumn.broadcastTo_a1_ab_apply, shapeCast_self, iota_single_apply]
  exact reg5_onehot_factor _ _

/-- The body's product at `(p, q)`: the one-hot combination of the table block's rows by the word of row `p`. -/
theorem reg5_pay_apply (x0 : Vec Ideal S4000x1 .i32) (x1 : Vec Ideal S64x64 .f32) (p : Fin 4000) (q : Fin 64) :
    k5_pay1 (F := Ideal) x0 x1 (ix2 p q) = ∑ k : Fin 64, onehot (x0 (ix2 p (0 : Fin 1))) k.val * x1 (ix2 k q) := by
  unfold k5_pay1
  refine (Cert.LibPlainDot.matmul_zero_apply dot_S4000x64_S64x64_S4000x64_1_0_0_1_n_n rfl rfl rfl rfl rfl rfl _ _ _ p q).trans ?_
  refine Finset.sum_congr rfl fun k _ => ?_
  rw [reg5_onehot_mat_apply, shapeCast_self]

/-- The index maps over the grid: the word column's and the result's row blocks move together, one block a point;
    the table is read whole; the second block index is zero everywhere. -/
theorem reg5_idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the one-hot selection of the whole arrays. -/
theorem reg5_flushed_eq (c : Dev nD) (t : Fin cfg5.N) :
    (dat5 (F := Ideal) V c).flushed 2 t
      = ((cfg5.win 2).blk t).view.read (Elt Ideal) (gPick (n := 100000) (t := 64) (f := 64) (V c main_v61) (V c main_v60)) := by
  show (cfg5.win 2).cut (grid5.coords t) ((dat5 V c).after 2 t) = _
  rw [after5_2]
  unfold out5_2
  rw [View.canon_unit_zero reg5_zero_pair]
  simp only [View.ld_unit_zero (S := S4000x1) reg5_zero_pair, View.ld_unit_zero (S := S64x64) reg5_zero_pair]
  obtain ⟨e0, e1, e2, e3, e4, e5⟩ := reg5_idx_facts t
  funext j
  obtain ⟨p, q, rfl⟩ : ∃ (p : Fin 4000) (q : Fin 64), j = ix2 p q := ⟨j 0, j 1, eq_ix2 j⟩
  show k5_pay1 (iblk5 V c 0 t) (iblk5 V c 1 t) (ix2 p q)
      = gPick (n := 100000) (t := 64) (f := 64) (V c main_v61) (V c main_v60) (((cfg5.win 2).blk t).view.emb (ix2 p q))
  rw [reg5_pay_apply]
  show _ = ∑ k : Fin 64, onehot (V c main_v61 (ix2 (c0 (((cfg5.win 2).blk t).view.emb (ix2 p q))) (0 : Fin 1))) k.val
      * V c main_v60 (ix2 k (c1 (((cfg5.win 2).blk t).view.emb (ix2 p q))))
  refine Finset.sum_congr rfl fun k _ => ?_
  have hw : iblk5 V c 0 t (ix2 p (0 : Fin 1))
      = V c main_v61 (ix2 (c0 (((cfg5.win 2).blk t).view.emb (ix2 p q))) (0 : Fin 1)) := by
    show V c main_v61 (((cfg5.win 0).blk t).view.emb (ix2 p (0 : Fin 1))) = _
    refine congrArg _ (funext fun a => Fin.ext ?_)
    match a with
    | ⟨0, _⟩ =>
      show win5_0.index t (0 : Fin 2) * 4000 + 1 * p.val = win5_2.index t (0 : Fin 2) * 4000 + 1 * p.val
      rw [e0]
    | ⟨1, _⟩ =>
      show win5_0.index t (1 : Fin 2) * 1 + 1 * 0 = 0
      rw [e1]
  have hx : iblk5 V c 1 t (ix2 k q)
      = V c main_v60 (ix2 k (c1 (((cfg5.win 2).blk t).view.emb (ix2 p q)))) := by
    show V c main_v60 (((cfg5.win 1).blk t).view.emb (ix2 k q)) = _
    refine congrArg _ (funext fun a => Fin.ext ?_)
    match a with
    | ⟨0, _⟩ =>
      show win5_1.index t (0 : Fin 2) * 64 + 1 * k.val = k.val
      rw [e2]; omega
    | ⟨1, _⟩ =>
      show win5_1.index t (1 : Fin 2) * 64 + 1 * q.val = win5_2.index t (1 : Fin 2) * 64 + 1 * q.val
      rw [e3, e5]
  rw [hw, hx]

/-- An index of the result is in point `t`'s block when each coordinate is in the block's range on its axis. -/
theorem reg5_mem_blk (t : Fin cfg5.N) (i : S100000x64.Idx) :
    i ∈ ((cfg5.win 2).blk t).view.set ↔ ∀ a : Fin 2, win5_2.index t a * S4000x64.size a ≤ (i a).val
      ∧ (i a).val < win5_2.index t a * S4000x64.size a + S4000x64.size a := by
  show i ∈ ((View.whole main_v62).slice (win5_2.rect t)).set ↔ _
  rw [View.set_slice_whole, Rect.mem_set_unit]
  exact Iff.rfl

/-- Every row is in the block of the point numbered by the row's quotient by 4000. -/
theorem reg5_cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 25 := N_5
  have hlt : (i 0).val / 4000 < grid5.N := by omega
  obtain ⟨e0, e1, e2, e3, e4, e5⟩ := reg5_idx_facts ⟨(i 0).val / 4000, hlt⟩
  have e4' : win5_2.index ⟨(i 0).val / 4000, hlt⟩ (0 : Fin 2) = (i 0).val / 4000 := e4
  refine ⟨⟨(i 0).val / 4000, hlt⟩, flush5_2 _, ?_⟩
  rw [reg5_mem_blk]
  intro a
  match a with
  | ⟨0, _⟩ =>
    show win5_2.index ⟨(i 0).val / 4000, hlt⟩ (0 : Fin 2) * 4000 ≤ (i 0).val
      ∧ (i 0).val < win5_2.index ⟨(i 0).val / 4000, hlt⟩ (0 : Fin 2) * 4000 + 4000
    omega
  | ⟨1, _⟩ =>
    show win5_2.index ⟨(i 0).val / 4000, hlt⟩ (1 : Fin 2) * 64 ≤ (i 1).val
      ∧ (i 1).val < win5_2.index ⟨(i 0).val / 4000, hlt⟩ (1 : Fin 2) * 64 + 64
    omega

/-- Region 5: each edge's row of the transformed label table picked by a one-hot product, 4000 edges at each of 25 points. -/
theorem region5_value (c : Dev nD) :
    (dat5 (F := Ideal) V c).arrAt 2 cfg5.N = gPick (n := 100000) (t := 64) (f := 64) (V c main_v61) (V c main_v60) :=
  (dat5 (F := Ideal) V c).arrAt_eq_of_cover 2 _ (fun t _ => reg5_flushed_eq V c t) reg5_cover

end Cert.KernelIdeal.Val

end
-- ==== Proof.Reg6.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibPlainDot
import proofs.«428892_j6622839570445_2_alg».proof.Proof.LibColumn
import proofs.«428892_j6622839570445_2_alg».proof.Proof.LibIdealReal
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

/-! The body's arithmetic at an index, each window's block read off its array, and the cover of the array by the output's blocks. -/
namespace Reg6

/-- The zero offsets of a whole-buffer access. -/
theorem zero_off6 : (![0, 0] : Fin 2 → Nat) = fun _ => 0 := funext fun a => by fin_cases a <;> rfl

/-- A block product of operands of any two formats into the zero accumulator, at `(p, q)`:
    `∑ k, lhs (p, k) · rhs (k, q)`. -/
theorem matmul_zero_fmt_apply6 {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    Idealize.ShloMosaic.matmul (F := Ideal) d prec lhs rhs (constant ⟨2, ![A, B]⟩ .f32 0x00000000#32) (ix2 p q)
      = ∑ k : Fin K, lhs (ix2 p k) * rhs (ix2 k q) := by
  show FloatOps.matmul d prec lhs rhs (constant ⟨2, ![A, B]⟩ .f32 0x00000000#32) (ix2 p q) = _
  rw [Cert.LibPlainDot.eq_plain d hlc hrc hln hrn hlb hrb, Ideal.matmul_constant_zero_apply]
  exact Cert.LibPlainDot.plain_sum lhs rhs p q

/-- The body's arithmetic at row `p`, column `q` of its blocks. -/
theorem pay6_apply (v0 : Vec Ideal S2000x1 .f32) (v2 v4 : Vec Ideal S2000x64 .f32) (v9 : Vec Ideal S1x64 .f32)
    (v13 : Vec Ideal S2000x128 .f32) (v16 : Vec Ideal S128x64 .f32) (v19 : Vec Ideal S2000x64 .f32)
    (v22 : Vec Ideal S1x64 .f32) (p : Fin 2000) (q : Fin 64) :
    k6_pay1 v0 v2 v4 v9 v13 v16 v19 v22 (ix2 p q)
      = ((v0 (ix2 p (0 : Fin 1)) * (v2 (ix2 p q) + v4 (ix2 p q)) + v9 (ix2 (0 : Fin 1) q))
          + ((v19 (ix2 p q) + ∑ k : Fin 128, v13 (ix2 p k) * v16 (ix2 k q)) + v22 (ix2 (0 : Fin 1) q))) * HALF := by
  unfold k6_pay1
  simp only [shapeCast_self]
  rw [mulf_apply, addf_apply, addf_apply, addf_apply, addf_apply, mulf_apply, addf_apply]
  rw [Cert.LibColumn.broadcastTo_a1_ab_apply, broadcastTo_1b_ab_apply, broadcastTo_1b_ab_apply]
  rw [matmul_zero_fmt_apply6 _ rfl rfl rfl rfl rfl rfl]
  rfl

-- the core's buffer contents at the region's entry
variable (V : (c : Dev nD) → (b : Ref sig .tc) → Buf (Elt Ideal) ((c : Thread nD τ).loc b))

/-- The printed index maps over the grid: a row-blocked window's block at point `t` is block `t` of its rows, a
    whole-array window's is the array. -/
theorem idx_maps6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = t.val ∧ win6_4.index t (1 : Fin 2) = 0)
    ∧ (win6_5.index t (0 : Fin 2) = t.val ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = t.val ∧ win6_8.index t (1 : Fin 2) = 0) :=
  (by decide +kernel : ∀ t : Fin grid6.N, _)

/-- Row `p` of block `t` is row `2000 t + p` of the array. -/
theorem row_lt6 (t : Fin cfg6.N) (p : Fin 2000) : t.val * 2000 + p.val < 100000 := by
  have hN : cfg6.N = 50 := N_6
  have := t.isLt; have := p.isLt; omega

theorem blk6_0 (c : Dev nD) (t : Fin cfg6.N) (p : Fin 2000) (q : Fin 64) :
    iblk6 V c 0 t (ix2 p q) = V c main_v59 (ix2 (⟨t.val * 2000 + p.val, row_lt6 t p⟩ : Fin 100000) q) := by
  obtain ⟨e0, e1⟩ := (idx_maps6 t).1
  show V c main_v59 (((cfg6.win 0).blk t).view.emb (ix2 p q)) = _
  refine congrArg _ (funext fun a => Fin.ext ?_)
  match a with
  | ⟨0, _⟩ => show win6_0.index t (0 : Fin 2) * 2000 + 1 * p.val = t.val * 2000 + p.val; omega
  | ⟨1, _⟩ => show win6_0.index t (1 : Fin 2) * 64 + 1 * q.val = q.val; omega

theorem blk6_1 (c : Dev nD) (t : Fin cfg6.N) (p : Fin 2000) (q : Fin 64) :
    iblk6 V c 1 t (ix2 p q) = V c main_v47 (ix2 (⟨t.val * 2000 + p.val, row_lt6 t p⟩ : Fin 100000) q) := by
  obtain ⟨e0, e1⟩ := (idx_maps6 t).2.1
  show V c main_v47 (((cfg6.win 1).blk t).view.emb (ix2 p q)) = _
  refine congrArg _ (funext fun a => Fin.ext ?_)
  match a with
  | ⟨0, _⟩ => show win6_1.index t (0 : Fin 2) * 2000 + 1 * p.val = t.val * 2000 + p.val; omega
  | ⟨1, _⟩ => show win6_1.index t (1 : Fin 2) * 64 + 1 * q.val = q.val; omega

theorem blk6_2 (c : Dev nD) (t : Fin cfg6.N) (p : Fin 2000) (q : Fin 1) :
    iblk6 V c 2 t (ix2 p q) = V c main_v66 (ix2 (⟨t.val * 2000 + p.val, row_lt6 t p⟩ : Fin 100000) q) := by
  obtain ⟨e0, e1⟩ := (idx_maps6 t).2.2.1
  show V c main_v66 (((cfg6.win 2).blk t).view.emb (ix2 p q)) = _
  refine congrArg _ (funext fun a => Fin.ext ?_)
  match a with
  | ⟨0, _⟩ => show win6_2.index t (0 : Fin 2) * 2000 + 1 * p.val = t.val * 2000 + p.val; omega
  | ⟨1, _⟩ => show win6_2.index t (1 : Fin 2) * 1 + 1 * q.val = q.val; omega

theorem blk6_3 (c : Dev nD) (t : Fin cfg6.N) (p : Fin 1) (q : Fin 64) :
    iblk6 V c 3 t (ix2 p q) = V c main_v67 (ix2 p q) := by
  obtain ⟨e0, e1⟩ := (idx_maps6 t).2.2.2.1
  show V c main_v67 (((cfg6.win 3).blk t).view.emb (ix2 p q)) = _
  refine congrArg _ (funext fun a => Fin.ext ?_)
  match a with
  | ⟨0, _⟩ => show win6_3.index t (0 : Fin 2) * 1 + 1 * p.val = p.val; omega
  | ⟨1, _⟩ => show win6_3.index t (1 : Fin 2) * 64 + 1 * q.val = q.val; omega

theorem blk6_4 (c : Dev nD) (t : Fin cfg6.N) (p : Fin 2000) (q : Fin 64) :
    iblk6 V c 4 t (ix2 p q) = V c main_v65 (ix2 (⟨t.val * 2000 + p.val, row_lt6 t p⟩ : Fin 100000) q) := by
  obtain ⟨e0, e1⟩ := (idx_maps6 t).2.2.2.2.1
  show V c main_v65 (((cfg6.win 4).blk t).view.emb (ix2 p q)) = _
  refine congrArg _ (funext fun a => Fin.ext ?_)
  match a with
  | ⟨0, _⟩ => show win6_4.index t (0 : Fin 2) * 2000 + 1 * p.val = t.val * 2000 + p.val; omega
  | ⟨1, _⟩ => show win6_4.index t (1 : Fin 2) * 64 + 1 * q.val = q.val; omega

theorem blk6_5 (c : Dev nD) (t : Fin cfg6.N) (p : Fin 2000) (q : Fin 128) :
    iblk6 V c 5 t (ix2 p q) = V c main_v29 (ix2 (⟨t.val * 2000 + p.val, row_lt6 t p⟩ : Fin 100000) q) := by
  obtain ⟨e0, e1⟩ := (idx_maps6 t).2.2.2.2.2.1
  show V c main_v29 (((cfg6.win 5).blk t).view.emb (ix2 p q)) = _
  refine congrArg _ (funext fun a => Fin.ext ?_)
  match a with
  | ⟨0, _⟩ => show win6_5.index t (0 : Fin 2) * 2000 + 1 * p.val = t.val * 2000 + p.val; omega
  | ⟨1, _⟩ => show win6_5.index t (1 : Fin 2) * 128 + 1 * q.val = q.val; omega

theorem blk6_6 (c : Dev nD) (t : Fin cfg6.N) (p : Fin 128) (q : Fin 64) :
    iblk6 V c 6 t (ix2 p q) = V c main_arg16 (ix2 p q) := by
  obtain ⟨e0, e1⟩ := (idx_maps6 t).2.2.2.2.2.2.1
  show V c main_arg16 (((cfg6.win 6).blk t).view.emb (ix2 p q)) = _
  refine congrArg _ (funext fun a => Fin.ext ?_)
  match a with
  | ⟨0, _⟩ => show win6_6.index t (0 : Fin 2) * 128 + 1 * p.val = p.val; omega
  | ⟨1, _⟩ => show win6_6.index t (1 : Fin 2) * 64 + 1 * q.val = q.val; omega

theorem blk6_7 (c : Dev nD) (t : Fin cfg6.N) (p : Fin 1) (q : Fin 64) :
    iblk6 V c 7 t (ix2 p q) = V c main_v68 (ix2 p q) := by
  obtain ⟨e0, e1⟩ := (idx_maps6 t).2.2.2.2.2.2.2.1
  show V c main_v68 (((cfg6.win 7).blk t).view.emb (ix2 p q)) = _
  refine congrArg _ (funext fun a => Fin.ext ?_)
  match a with
  | ⟨0, _⟩ => show win6_7.index t (0 : Fin 2) * 1 + 1 * p.val = p.val; omega
  | ⟨1, _⟩ => show win6_7.index t (1 : Fin 2) * 64 + 1 * q.val = q.val; omega

/-- The region's result as one function of the arrays it reads. -/
abbrev G6 (c : Dev nD) : Mat 100000 64 :=
  gMixPre (n := 100000) (h := 64) (fp := 128) (V c main_v59) (V c main_v47) (V c main_v66) (V c main_v67) (V c main_v65)
    (V c main_v29) (V c main_arg16) (V c main_v68)

/-- Where row `p`, column `q` of the output's block at point `t` sits in the array. -/
theorem emb6_8 (t : Fin cfg6.N) (p : Fin 2000) (q : Fin 64) :
    ((cfg6.win 8).blk t).view.emb (ix2 p q) = ix2 (⟨t.val * 2000 + p.val, row_lt6 t p⟩ : Fin 100000) q := by
  obtain ⟨e0, e1⟩ := (idx_maps6 t).2.2.2.2.2.2.2.2
  refine funext fun a => Fin.ext ?_
  match a with
  | ⟨0, _⟩ => show win6_8.index t (0 : Fin 2) * 2000 + 1 * p.val = t.val * 2000 + p.val; omega
  | ⟨1, _⟩ => show win6_8.index t (1 : Fin 2) * 64 + 1 * q.val = q.val; omega

/-- What point `t` writes back is block `t` of the result function. -/
theorem flushed6_eq (c : Dev nD) (t : Fin cfg6.N) :
    (dat6 (F := Ideal) V c).flushed 8 t = ((cfg6.win 8).blk t).view.read (Elt Ideal) (G6 V c) := by
  show (cfg6.win 8).cut (grid6.coords t) ((dat6 (F := Ideal) V c).after 8 t) = _
  rw [after6_8]
  unfold out6_8
  rw [View.canon_unit_zero zero_off6]
  simp only [View.ld_unit_zero (S := S2000x64) zero_off6, View.ld_unit_zero (S := S2000x1) zero_off6,
    View.ld_unit_zero (S := S1x64) zero_off6, View.ld_unit_zero (S := S2000x128) zero_off6,
    View.ld_unit_zero (S := S128x64) zero_off6]
  funext j
  obtain ⟨p, q, rfl⟩ : ∃ (p : Fin 2000) (q : Fin 64), j = ix2 p q := ⟨j 0, j 1, eq_ix2 j⟩
  show k6_pay1 (iblk6 V c 2 t) (iblk6 V c 0 t) (iblk6 V c 1 t) (iblk6 V c 3 t) (iblk6 V c 5 t) (iblk6 V c 6 t)
      (iblk6 V c 4 t) (iblk6 V c 7 t) (ix2 p q) = G6 V c (((cfg6.win 8).blk t).view.emb (ix2 p q))
  rw [emb6_8, pay6_apply]
  unfold G6
  rw [gMixPre_apply]
  simp only [blk6_0, blk6_1, blk6_2, blk6_3, blk6_4, blk6_5, blk6_6, blk6_7]

/-- An index of the array is in point `t`'s block iff each coordinate is in the block's range on its axis. -/
theorem mem_blk6 (t : Fin cfg6.N) (i : S100000x64.Idx) :
    i ∈ ((cfg6.win 8).blk t).view.set ↔ ∀ a : Fin 2, win6_8.index t a * S2000x64.size a ≤ (i a).val
      ∧ (i a).val < win6_8.index t a * S2000x64.size a + S2000x64.size a := by
  show i ∈ ((View.whole main_v69).slice (win6_8.rect t)).set ↔ _
  rw [View.set_slice_whole, Rect.mem_set_unit]
  exact Iff.rfl

/-- Row `r` is in the block of point `r / 2000`: the blocks cover the array. -/
theorem cover6 (i : S100000x64.Idx) :
    ∃ t : Fin cfg6.N, (cfg6.win 8).flush t = true ∧ i ∈ ((cfg6.win 8).blk t).view.set := by
  have hN : cfg6.N = 50 := N_6
  have hi0 : (i 0).val < 100000 := (i 0).isLt
  have hi1 : (i 1).val < 64 := (i 1).isLt
  obtain ⟨t, htv⟩ : ∃ t : Fin cfg6.N, t.val = (i 0).val / 2000 := ⟨⟨(i 0).val / 2000, by omega⟩, rfl⟩
  obtain ⟨e0, e1⟩ := (idx_maps6 t).2.2.2.2.2.2.2.2
  refine ⟨t, flush6_8 t, ?_⟩
  rw [mem_blk6]
  intro a
  match a with
  | ⟨0, _⟩ =>
    show win6_8.index t (0 : Fin 2) * 2000 ≤ (i 0).val ∧ (i 0).val < win6_8.index t (0 : Fin 2) * 2000 + 2000
    omega
  | ⟨1, _⟩ =>
    show win6_8.index t (1 : Fin 2) * 64 ≤ (i 1).val ∧ (i 1).val < win6_8.index t (1 : Fin 2) * 64 + 64
    omega

end Reg6

-- the core's buffer contents at the region's entry
variable (V : (c : Dev nD) → (b : Ref sig .tc) → Buf (Elt Ideal) ((c : Thread nD τ).loc b))

/-- Region 6: the second layer's combining step, 2000 rows at each of 50 points. -/
theorem region6_value (c : Dev nD) :
    (dat6 (F := Ideal) V c).arrAt 8 cfg6.N
      = gMixPre (n := 100000) (h := 64) (fp := 128) (V c main_v59) (V c main_v47) (V c main_v66) (V c main_v67) (V c main_v65)
          (V c main_v29) (V c main_arg16) (V c main_v68) :=
  (dat6 (F := Ideal) V c).arrAt_eq_of_cover 8 (Reg6.G6 V c) (fun t _ => Reg6.flushed6_eq V c t) Reg6.cover6

end Cert.KernelIdeal.Val

end
-- ==== Proof.Reg7.lean ====
/-
  The array a kernel region leaves, as one function of the arrays it reads, at the ideal values.
-/
import proofs.«428892_j6622839570445_2_alg».proof.Proof.Gen.KernelIdeal.Frame
import proofs.«428892_j6622839570445_2_alg».proof.Proof.GnnSpec
import Idealize.ShloMosaic.Lib.Pipeline.Value
import Idealize.ShloMosaic.Lib.ValueIdx
import Idealize.ShloMosaic.Lib.ValueLayout
import Idealize.ShloMosaic.PureOps.Ideal.Laws
import proofs.«428892_j6622839570445_2_alg».proof.Proof.LibBlockSum
import proofs.«428892_j6622839570445_2_alg».proof.Proof.LibPlainDot
import proofs.«428892_j6622839570445_2_alg».proof.Proof.LibIdealReal
import proofs.«428892_j6622839570445_2_alg».proof.Proof.LibColumn
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem
open scoped BigOperators

-- the core's buffer contents at the region's entry
variable (V : (c : Dev nD) → (b : Ref sig .tc) → Buf (Elt Ideal) ((c : Thread nD τ).loc b))

namespace Reg7

/-! ## A product contracted over the FIRST axis of both operands, read at an index -/

namespace TDot

variable {K A B : Nat}

/-- Dimension numbers `[0] × [0]`, free axes `[1]` and `[1]`, no batch: a `K × A` operand against a `K × B` one. -/
def dims (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Any record with these dimension numbers is that one. -/
theorem eq_dims (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = dims K A B := by
  cases d
  simp only at hlc hrc hln hrn hlb hrb
  subst hlc hrc hln hrn hlb hrb
  rfl

/-- The contraction shape has one axis … -/
theorem dims_rank : (dims K A B).contr.rank = 1 := rfl
/-- … of extent `K`. -/
theorem dims_size : (dims K A B).contr.size ⟨0, by rw [dims_rank]; exact Nat.one_pos⟩ = K := rfl

/-- At result index `(p, q)` and contraction coordinate `k` the left operand is read at `(k, p)`. -/
theorem dims_lhs (p : Fin A) (q : Fin B) (k : Fin K) :
    (dims K A B).lhsIdx (ix2 p q) ((contrEquiv1 (dims K A B) K dims_rank dims_size).symm k) = ix2 k p := by
  funext a
  apply Fin.ext
  match a with
  | ⟨0, _⟩ => rfl
  | ⟨1, _⟩ => rfl

/-- At result index `(p, q)` and contraction coordinate `k` the right operand is read at `(k, q)`. -/
theorem dims_rhs (p : Fin A) (q : Fin B) (k : Fin K) :
    (dims K A B).rhsIdx (ix2 p q) ((contrEquiv1 (dims K A B) K dims_rank dims_size).symm k) = ix2 k q := by
  funext a
  apply Fin.ext
  match a with
  | ⟨0, _⟩ => rfl
  | ⟨1, _⟩ => rfl

/-- A block product into the zero accumulator, at `(p, q)`: `∑ k, lhs (k, p) · rhs (k, q)`. -/
theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_dims d hlc hrc hln hrn hlb hrb, Ideal.matmul_constant_zero_apply,
    ← Equiv.sum_comp (contrEquiv1 (dims K A B) K dims_rank dims_size).symm]
  refine Finset.sum_congr rfl fun k _ => ?_
  rw [dims_lhs, dims_rhs]

end TDot

/-- The equality test of two words is the bit one exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-- The one-hot weight as the programs compute it: the equality bit, widened, converted. -/
theorem onehot_eq (w : BitVec 32) (c : Nat) :
    FloatOps.sitofp (F := Ideal) .f32 ((IntOp.cmpi .eq w (BitVec.ofNat 32 c)).setWidth 32) = onehot w c := by
  rw [Cert.LibIdealReal.sitofp_extui_bit]
  unfold onehot
  by_cases h : w = BitVec.ofNat 32 c
  · rw [if_pos ((cmpi_eq_one_iff _ _).mpr h), if_pos h]
  · rw [if_neg (fun h' => h ((cmpi_eq_one_iff _ _).mp h')), if_neg h]

/-- The update's payload at `(p, q)`: the previous contents there plus the 4000 rows of the data block weighted by
    their one-hot weight at `p`. -/
theorem pay2_apply (i : Vec Ideal S4000x1 .i32) (d : Vec Ideal S4000x128 .f32) (prev : Vec Ideal S64x128 .f32)
    (p : Fin 64) (q : Fin 128) :
    k7_pay2 (F := Ideal) i d prev (ix2 p q)
      = prev (ix2 p q) + ∑ r : Fin 4000, onehot (i (ix2 r (0 : Fin 1))) p.val * d (ix2 r q) := by
  unfold k7_pay2
  refine congrArg₂ (· + ·) (congrFun (shapeCast_self prev _) (ix2 p q)) ?_
  refine (TDot.matmul_zero_apply dot_S4000x64_S4000x128_S64x128_0_0_1_1_n_n rfl rfl rfl rfl rfl rfl _ _ _ p q).trans ?_
  refine Finset.sum_congr rfl fun r _ => ?_
  refine congrArg₂ (· * ·) ?_ (congrFun (shapeCast_self d _) (ix2 r q))
  have e1 : broadcastTo S4000x64 (shapeCast S4000x1 i shapeCasts_S4000x1_S4000x1) broadcasts_S4000x1_S4000x64 (ix2 r p)
      = i (ix2 r (0 : Fin 1)) :=
    (Cert.LibColumn.broadcastTo_a1_ab_apply _ _ r p).trans (congrFun (shapeCast_self i _) _)
  have e2 : iota .tc S4000x64 32 [1] iota_S4000x64_d1_w32 (ix2 r p) = BitVec.ofNat 32 p.val :=
    iota_single_apply .tc S4000x64 32 1 _ (ix2 r p)
  show FloatOps.sitofp (F := Ideal) .f32 ((IntOp.cmpi .eq
      (broadcastTo S4000x64 (shapeCast S4000x1 i shapeCasts_S4000x1_S4000x1) broadcasts_S4000x1_S4000x64 (ix2 r p))
      (iota .tc S4000x64 32 [1] iota_S4000x64_d1_w32 (ix2 r p))).setWidth 32) = _
  rw [e1, e2]
  exact onehot_eq _ _

/-- The reset's payload is zero everywhere. -/
theorem pay1_apply (j : S64x128.Idx) : k7_pay1 (F := Ideal) j = 0 := Ideal.ofBits_zero_f32

/-! ## What each case of the body leaves, as the payloads -/

theorem hz : (![0, 0] : Fin 2 → Nat) = fun _ => 0 := funext fun a => by fin_cases a <;> rfl

section pieces
variable {F : FTy → Type} [FloatOps F]

/-- At a later point the body leaves the update of what the buffer held. -/
theorem out7_B (c : Dev nD) (i : grid7.Coords) (a1 : Memref sig .tc .vmem S4000x1 .i32) (h1 : a1.IsWhole)
    (a2 : Memref sig .tc .vmem S4000x128 .f32) (h2 : a2.IsWhole) (a3 : Memref sig .tc .vmem S64x128 .f32) (h3 : a3.IsWhole)
    (hc : ¬cond7_0 i) (x0 : Vec F S4000x1 .i32) (x1 : Vec F S4000x128 .f32) (xo : Vec F S64x128 .f32) :
    out7_B_2 c i a1 h1 a2 h2 a3 h3 hc x0 x1 xo = k7_pay2 x0 x1 xo := by
  unfold out7_B_2
  rw [View.read_writes_eq_canon _ _ _ (cover7_B_2 c i a1 h1 a2 h2 a3 h3 hc x0 x1 xo)]
  unfold kernelRun7_B
  dsimp only
  sl_unfold_words
  rw [View.canon_unit_zero hz]
  simp only [View.readAt_eq_ld, h1.read_unread, h2.read_unread, h3.read_unread, View.ld_unit_zero (S := S4000x1) hz,
    View.ld_unit_zero (S := S4000x128) hz, View.ld_unit_zero (S := S64x128) hz]

/-- At the first point the body stores the zero block, reads it back, and leaves the update of it. -/
theorem out7_A (c : Dev nD) (i : grid7.Coords) (a1 : Memref sig .tc .vmem S4000x1 .i32) (h1 : a1.IsWhole)
    (a2 : Memref sig .tc .vmem S4000x128 .f32) (h2 : a2.IsWhole) (a3 : Memref sig .tc .vmem S64x128 .f32) (h3 : a3.IsWhole)
    (hc : cond7_0 i) (x0 : Vec F S4000x1 .i32) (x1 : Vec F S4000x128 .f32) :
    out7_A_2 c i a1 h1 a2 h2 a3 h3 hc x0 x1 = k7_pay2 x0 x1 (k7_pay1 (F := F)) := by
  unfold out7_A_2
  rw [View.read_writes_eq_canon _ _ _ (cover7_A_2 c i a1 h1 a2 h2 a3 h3 hc x0 x1)]
  unfold kernelRun7_A
  dsimp only
  sl_unfold_words
  rw [View.canon_cons_unit_zero (S := S64x128) hz, View.readCov_unit_zero (S := S64x128) _ hz]
  simp only [View.readAt_eq_ld, h1.read_unread, h2.read_unread, View.ld_unit_zero (S := S4000x1) hz,
    View.ld_unit_zero (S := S4000x128) hz]

end pieces

/-! ## The input blocks, read off the arrays -/

/-- The index maps of the two input windows at point `t`: row block `t`, the one block of columns. -/
theorem idx_facts7 : ∀ t : Fin cfg7.N,
    (win7_0.index t 0 = t.val ∧ win7_0.index t 1 = 0) ∧ (win7_1.index t 0 = t.val ∧ win7_1.index t 1 = 0) :=
  (by decide +kernel : ∀ t : Fin grid7.N,
    (win7_0.index t 0 = t.val ∧ win7_0.index t 1 = 0) ∧ (win7_1.index t 0 = t.val ∧ win7_1.index t 1 = 0))

/-- The word block and the data block at point `t`, and the two arrays, at their literal types. -/
abbrev iblkI (c : Dev nD) (t : Fin cfg7.N) : Vec Ideal S4000x1 .i32 := iblk7 V c 0 t
abbrev iblkD (c : Dev nD) (t : Fin cfg7.N) : Vec Ideal S4000x128 .f32 := iblk7 V c 1 t
abbrev arrI (c : Dev nD) : WCol 100000 := V c main_v77
abbrev arrD (c : Dev nD) : Mat 100000 128 := V c main_v76

/-- Row `r` of block `t` is a row of the array. -/
theorem row_lt (t : Fin cfg7.N) (r : Fin 4000) : 4000 * t.val + r.val < 100000 := by
  have := lt_of_lt_of_eq t.isLt (show cfg7.N = 25 from N_7)
  have := r.isLt
  omega

/-- The word block at point `t` reads the word array at row `4000 t + r`. -/
theorem iblkI_apply (c : Dev nD) (t : Fin cfg7.N) (r : Fin 4000) :
    iblkI V c t (ix2 r (0 : Fin 1)) = arrI V c (ix2 ⟨4000 * t.val + r.val, row_lt t r⟩ (0 : Fin 1)) := by
  unfold iblkI iblk7
  rw [View.read_apply]
  show V c main_v77 _ = V c main_v77 _
  congr 1
  funext a
  apply Fin.ext
  match a with
  | ⟨0, _⟩ => show win7_0.index t 0 * 4000 + 1 * r.val = 4000 * t.val + r.val; rw [(idx_facts7 t).1.1]; omega
  | ⟨1, _⟩ => show win7_0.index t 1 * 1 + 1 * 0 = 0; rw [(idx_facts7 t).1.2]

/-- The data block at point `t` reads the data array at row `4000 t + r`. -/
theorem iblkD_apply (c : Dev nD) (t : Fin cfg7.N) (r : Fin 4000) (q : Fin 128) :
    iblkD V c t (ix2 r q) = arrD V c (ix2 ⟨4000 * t.val + r.val, row_lt t r⟩ q) := by
  unfold iblkD iblk7
  rw [View.read_apply]
  show V c main_v76 _ = V c main_v76 _
  congr 1
  funext a
  apply Fin.ext
  match a with
  | ⟨0, _⟩ => show win7_1.index t 0 * 4000 + 1 * r.val = 4000 * t.val + r.val; rw [(idx_facts7 t).2.1]; omega
  | ⟨1, _⟩ => show win7_1.index t 1 * 128 + 1 * q.val = q.val; rw [(idx_facts7 t).2.2]; omega

/-! ## The accumulation over the points -/

/-- What block `t` adds at `(p, q)`: its 4000 data rows weighted by their one-hot weight at `p`. -/
def blockSum (c : Dev nD) (t : Fin cfg7.N) (p : Fin 64) (q : Fin 128) : EReal :=
  ∑ r : Fin 4000, onehot (iblkI V c t (ix2 r (0 : Fin 1))) p.val * iblkD V c t (ix2 r q)

/-- After point `n` the output block holds, at `(p, q)`, the contributions of blocks `0 … n`: at the first point
    the zero block plus block 0, at each later point one more block. -/
theorem outsAt7_eq (c : Dev nD) (p : Fin 64) (q : Fin 128) : ∀ (n : ℕ) (h : n < cfg7.N),
    outsAt7 V c n h (ix2 p q) = ∑ t : Fin (n + 1), blockSum V c ⟨t.val, lt_of_lt_of_le t.isLt h⟩ p q
  | 0, h => by
    rw [outsAt7_A V c ⟨0, h⟩ rfl]
    refine (congrFun (out7_A (F := Ideal) c (grid7.coords ⟨0, h⟩) (ms7_0 ⟨0, h⟩) (hs7_0 ⟨0, h⟩) (ms7_1 ⟨0, h⟩) (hs7_1 ⟨0, h⟩)
      (ms7_2 ⟨0, h⟩) (hs7_2 ⟨0, h⟩) ((hcond7_0 ⟨0, h⟩).mpr rfl) (iblkI V c ⟨0, h⟩) (iblkD V c ⟨0, h⟩)) (ix2 p q)).trans ?_
    refine (pay2_apply (iblkI V c ⟨0, h⟩) (iblkD V c ⟨0, h⟩) (k7_pay1 (F := Ideal)) p q).trans ?_
    rw [pay1_apply, zero_add, Fin.sum_univ_one]
    rfl
  | n + 1, h => by
    have hN : cfg7.N = 25 := N_7
    have hB : ¬(⟨n + 1, h⟩ : Fin cfg7.N).val % 25 = 0 := by dsimp only; omega
    rw [outsAt7_B V c ⟨n + 1, h⟩ hB]
    refine (congrFun (out7_B (F := Ideal) c (grid7.coords ⟨n + 1, h⟩) (ms7_0 ⟨n + 1, h⟩) (hs7_0 ⟨n + 1, h⟩) (ms7_1 ⟨n + 1, h⟩)
      (hs7_1 ⟨n + 1, h⟩) (ms7_2 ⟨n + 1, h⟩) (hs7_2 ⟨n + 1, h⟩) (fun h' => hB ((hcond7_0 ⟨n + 1, h⟩).mp h'))
      (iblkI V c ⟨n + 1, h⟩) (iblkD V c ⟨n + 1, h⟩) (outsAt7 V c n (Nat.lt_of_succ_lt h))) (ix2 p q)).trans ?_
    refine (pay2_apply (iblkI V c ⟨n + 1, h⟩) (iblkD V c ⟨n + 1, h⟩) (outsAt7 V c n (Nat.lt_of_succ_lt h)) p q).trans ?_
    refine Eq.trans ?_ (Fin.sum_univ_castSucc _).symm
    exact congrArg₂ (· + ·) (outsAt7_eq c p q n (Nat.lt_of_succ_lt h)) rfl

/-! ## The array after the region -/

/-- The pile of all 100000 rows. -/
abbrev pile7 (c : Dev nD) : Mat 64 128 := gPile (n := 100000) (t := 64) (f := 128) (V c main_v77) (V c main_v76)

/-- The last point. -/
theorem lt24 : 24 < cfg7.N := lt_of_lt_of_eq (by decide : 24 < 25) N_7.symm
abbrev tLast : Fin cfg7.N := ⟨24, lt24⟩

/-- After the last point the output block holds the pile: 25 blocks of 4000 rows are the 100000 rows. -/
theorem outsAt7_last (c : Dev nD) (h : 24 < cfg7.N) : outsAt7 V c 24 h = pile7 V c := by
  funext j
  obtain ⟨p, q, rfl⟩ : ∃ (p : Fin 64) (q : Fin 128), j = ix2 p q := ⟨j 0, j 1, eq_ix2 j⟩
  rw [outsAt7_eq V c p q 24 h]
  show _ = ∑ e : Fin 100000, onehot (arrI V c (ix2 e (0 : Fin 1))) p.val * arrD V c (ix2 e q)
  rw [← Cert.BlockSum.sum_blocks 25 4000 (fun e : Fin (25 * 4000) => onehot (arrI V c (ix2 e (0 : Fin 1))) p.val * arrD V c (ix2 e q))]
  refine Finset.sum_congr rfl fun t _ => ?_
  unfold blockSum
  refine Finset.sum_congr rfl fun r _ => ?_
  rw [iblkI_apply, iblkD_apply]

/-- The one write-back, after the last point, writes the pile: the output's one block is the whole array. -/
theorem flushed7_eq (c : Dev nD) (t : Fin cfg7.N) (hf : (cfg7.win 2).flush t = true) :
    (dat7 (F := Ideal) V c).flushed 2 t = ((cfg7.win 2).blk t).view.read (Elt Ideal) (pile7 V c) := by
  have hN : cfg7.N = 25 := N_7
  have h24 : t.val = 24 := by have := (flush7_2 t).mp hf; have := t.isLt; omega
  obtain rfl : t = tLast := Fin.ext h24
  show (cfg7.win 2).cut (grid7.coords tLast) ((dat7 (F := Ideal) V c).after 2 tLast) = _
  rw [after7_2, outsAt7_last]
  have hz' : (fun a => win7_2.index tLast a * main_v78.ty.shape.size a) = fun _ => 0 :=
    funext fun a => by fin_cases a <;> decide
  exact (Memref.read_access_unit_zero (Elt Ideal) main_v78 hz' (fun a => by rw [congrFun hz' a]; simp) (pile7 V c)).symm

end Reg7

open Reg7 in
/-- Region 7: the same pile over the hidden paper features. -/
theorem region7_value (c : Dev nD) :
    (dat7 (F := Ideal) V c).arrAt 2 cfg7.N = gPile (n := 100000) (t := 64) (f := 128) (V c main_v77) (V c main_v76) :=
  (dat7 (F := Ideal) V c).arrAt_eq_of_cover 2 (pile7 V c) (flushed7_eq V c) fun i =>
    ⟨tLast, (flush7_2 tLast).mpr rfl, by
      show i ∈ ((View.whole main_v78).slice (win7_2.rect tLast)).set
      rw [View.set_slice_whole, Rect.mem_set_unit]
      intro a
      have h0 : (i 0 : Nat) < 64 := (i 0).isLt
      have h1 : (i 1 : Nat) < 128 := (i 1).isLt
      match a with
      | ⟨0, _⟩ =>
        show win7_2.index tLast 0 * win7_2.size 0 ≤ (i 0 : Nat) ∧ (i 0 : Nat) < win7_2.index tLast 0 * win7_2.size 0 + win7_2.xsize (grid7.coords tLast) 0
        rw [show win7_2.index tLast 0 * win7_2.size 0 = 0 from by decide +kernel, show win7_2.xsize (grid7.coords tLast) 0 = 64 from by decide +kernel]; omega
      | ⟨1, _⟩ =>
        show win7_2.index tLast 1 * win7_2.size 1 ≤ (i 1 : Nat) ∧ (i 1 : Nat) < win7_2.index tLast 1 * win7_2.size 1 + win7_2.xsize (grid7.coords tLast) 1
        rw [show win7_2.index tLast 1 * win7_2.size 1 = 0 from by decide +kernel, show win7_2.xsize (grid7.coords tLast) 1 = 128 from by decide +kernel]; omega⟩

end Cert.KernelIdeal.Val

end
-- ==== Proof.KSsaR.lean ====
/-
  The contents of the last boundary satisfy the equations of @main's kernel regions: each region's output array is,
  at the end of the run, the region's function of what its input arrays hold at the end of the run. (A region's
  output is written by that region only, and its inputs by no later segment, so both are read at the last boundary.)
-/
import proofs.«428892_j6622839570445_2_alg».proof.Proof.KTail
import proofs.«428892_j6622839570445_2_alg».proof.Proof.GnnSpec
import proofs.«428892_j6622839570445_2_alg».proof.Proof.Reg0
import proofs.«428892_j6622839570445_2_alg».proof.Proof.Reg1
import proofs.«428892_j6622839570445_2_alg».proof.Proof.Reg2
import proofs.«428892_j6622839570445_2_alg».proof.Proof.Reg3
import proofs.«428892_j6622839570445_2_alg».proof.Proof.Reg4
import proofs.«428892_j6622839570445_2_alg».proof.Proof.Reg5
import proofs.«428892_j6622839570445_2_alg».proof.Proof.Reg6
import proofs.«428892_j6622839570445_2_alg».proof.Proof.Reg7
set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

local notation "W" => Wf m ρ c

theorem ssa_v8 : W main_v8 = gLin (n := 100000) (k := 128) (h := 128) (W main_arg0) (W main_arg2) (W main_v7) := by
  show W19 (F := Ideal) m ρ c (Proc.devRef .tc main_v8) = _
  rw [tail2 m ρ c main_v8 (by decide)]
  refine ((W2_arr m ρ c 3).trans (region0_value (V1 m ρ) c)).trans ?_
  show _ = gLin (n := 100000) (k := 128) (h := 128) (W19 (F := Ideal) m ρ c (Proc.devRef .tc main_arg0)) (W19 (F := Ideal) m ρ c (Proc.devRef .tc main_arg2)) (W19 (F := Ideal) m ρ c (Proc.devRef .tc main_v7))
  rw [tail1 m ρ c main_arg0 (by decide), tail1 m ρ c main_arg2 (by decide), tail1 m ρ c main_v7 (by decide)]

theorem ssa_v22 : W main_v22 = gPick (n := 100000) (t := 64) (f := 64) (W main_v21) (W main_arg1) := by
  show W19 (F := Ideal) m ρ c (Proc.devRef .tc main_v22) = _
  rw [tail4 m ρ c main_v22 (by decide)]
  refine ((W4_arr m ρ c 2).trans (region1_value (V3 m ρ) c)).trans ?_
  show _ = gPick (n := 100000) (t := 64) (f := 64) (W19 (F := Ideal) m ρ c (Proc.devRef .tc main_v21)) (W19 (F := Ideal) m ρ c (Proc.devRef .tc main_arg1))
  rw [tail3 m ρ c main_v21 (by decide), tail3 m ρ c main_arg1 (by decide)]

theorem ssa_v29 : W main_v29 = gMixFull (n := 100000) (h := 128) (fl := 64) (fp := 128) (W main_v20) (W main_v8) (W main_v26) (W main_v27) (W main_v25) (W main_arg0) (W main_arg7) (W main_arg8) (W main_v28) := by
  show W19 (F := Ideal) m ρ c (Proc.devRef .tc main_v29) = _
  rw [tail6 m ρ c main_v29 (by decide)]
  refine ((W6_arr m ρ c 9).trans (region2_value (V5 m ρ) c)).trans ?_
  show _ = gMixFull (n := 100000) (h := 128) (fl := 64) (fp := 128) (W19 (F := Ideal) m ρ c (Proc.devRef .tc main_v20)) (W19 (F := Ideal) m ρ c (Proc.devRef .tc main_v8)) (W19 (F := Ideal) m ρ c (Proc.devRef .tc main_v26)) (W19 (F := Ideal) m ρ c (Proc.devRef .tc main_v27)) (W19 (F := Ideal) m ρ c (Proc.devRef .tc main_v25)) (W19 (F := Ideal) m ρ c (Proc.devRef .tc main_arg0)) (W19 (F := Ideal) m ρ c (Proc.devRef .tc main_arg7)) (W19 (F := Ideal) m ρ c (Proc.devRef .tc main_arg8)) (W19 (F := Ideal) m ρ c (Proc.devRef .tc main_v28))
  rw [tail5 m ρ c main_v20 (by decide), tail5 m ρ c main_v8 (by decide), tail5 m ρ c main_v26 (by decide), tail5 m ρ c main_v27 (by decide), tail5 m ρ c main_v25 (by decide), tail5 m ρ c main_arg0 (by decide), tail5 m ρ c main_arg7 (by decide), tail5 m ρ c main_arg8 (by decide), tail5 m ρ c main_v28 (by decide)]

theorem ssa_v38 : W main_v38 = gPile (n := 100000) (t := 64) (f := 128) (W main_v37) (W main_v36) := by
  show W19 (F := Ideal) m ρ c (Proc.devRef .tc main_v38) = _
  rw [tail8 m ρ c main_v38 (by decide)]
  refine ((W8_arr m ρ c 2).trans (region3_value (V7 m ρ) c)).trans ?_
  show _ = gPile (n := 100000) (t := 64) (f := 128) (W19 (F := Ideal) m ρ c (Proc.devRef .tc main_v37)) (W19 (F := Ideal) m ρ c (Proc.devRef .tc main_v36))
  rw [tail7 m ρ c main_v37 (by decide), tail7 m ρ c main_v36 (by decide)]

theorem ssa_v47 : W main_v47 = gLin (n := 100000) (k := 128) (h := 64) (W main_v29) (W main_arg10) (W main_v46) := by
  show W19 (F := Ideal) m ρ c (Proc.devRef .tc main_v47) = _
  rw [tail12 m ρ c main_v47 (by decide)]
  refine ((W12_arr m ρ c 3).trans (region4_value (V11 m ρ) c)).trans ?_
  show _ = gLin (n := 100000) (k := 128) (h := 64) (W19 (F := Ideal) m ρ c (Proc.devRef .tc main_v29)) (W19 (F := Ideal) m ρ c (Proc.devRef .tc main_arg10)) (W19 (F := Ideal) m ρ c (Proc.devRef .tc main_v46))
  rw [tail11 m ρ c main_v29 (by decide), tail11 m ρ c main_arg10 (by decide), tail11 m ρ c main_v46 (by decide)]

theorem ssa_v62 : W main_v62 = gPick (n := 100000) (t := 64) (f := 64) (W main_v61) (W main_v60) := by
  show W19 (F := Ideal) m ρ c (Proc.devRef .tc main_v62) = _
  rw [tail14 m ρ c main_v62 (by decide)]
  refine ((W14_arr m ρ c 2).trans (region5_value (V13 m ρ) c)).trans ?_
  show _ = gPick (n := 100000) (t := 64) (f := 64) (W19 (F := Ideal) m ρ c (Proc.devRef .tc main_v61)) (W19 (F := Ideal) m ρ c (Proc.devRef .tc main_v60))
  rw [tail13 m ρ c main_v61 (by decide), tail13 m ρ c main_v60 (by decide)]

theorem ssa_v69 : W main_v69 = gMixPre (n := 100000) (h := 64) (fp := 128) (W main_v59) (W main_v47) (W main_v66) (W main_v67) (W main_v65) (W main_v29) (W main_arg16) (W main_v68) := by
  show W19 (F := Ideal) m ρ c (Proc.devRef .tc main_v69) = _
  rw [tail16 m ρ c main_v69 (by decide)]
  refine ((W16_arr m ρ c 8).trans (region6_value (V15 m ρ) c)).trans ?_
  show _ = gMixPre (n := 100000) (h := 64) (fp := 128) (W19 (F := Ideal) m ρ c (Proc.devRef .tc main_v59)) (W19 (F := Ideal) m ρ c (Proc.devRef .tc main_v47)) (W19 (F := Ideal) m ρ c (Proc.devRef .tc main_v66)) (W19 (F := Ideal) m ρ c (Proc.devRef .tc main_v67)) (W19 (F := Ideal) m ρ c (Proc.devRef .tc main_v65)) (W19 (F := Ideal) m ρ c (Proc.devRef .tc main_v29)) (W19 (F := Ideal) m ρ c (Proc.devRef .tc main_arg16)) (W19 (F := Ideal) m ρ c (Proc.devRef .tc main_v68))
  rw [tail15 m ρ c main_v59 (by decide), tail15 m ρ c main_v47 (by decide), tail15 m ρ c main_v66 (by decide), tail15 m ρ c main_v67 (by decide), tail15 m ρ c main_v65 (by decide), tail15 m ρ c main_v29 (by decide), tail15 m ρ c main_arg16 (by decide), tail15 m ρ c main_v68 (by decide)]

theorem ssa_v78 : W main_v78 = gPile (n := 100000) (t := 64) (f := 128) (W main_v77) (W main_v76) := by
  show W19 (F := Ideal) m ρ c (Proc.devRef .tc main_v78) = _
  rw [tail18 m ρ c main_v78 (by decide)]
  refine ((W18_arr m ρ c 2).trans (region7_value (V17 m ρ) c)).trans ?_
  show _ = gPile (n := 100000) (t := 64) (f := 128) (W19 (F := Ideal) m ρ c (Proc.devRef .tc main_v77)) (W19 (F := Ideal) m ρ c (Proc.devRef .tc main_v76))
  rw [tail17 m ρ c main_v77 (by decide), tail17 m ρ c main_v76 (by decide)]

end Cert.KernelIdeal.Val

end
-- ==== Proof.KOut.lean ====
/-
  The two result arrays of the kernel program, at the ideal values, as ONE term each of @main's argument arrays: the
  equations of the host stretches and of the kernel regions composed, from the results back to the arguments.
-/
import proofs.«428892_j6622839570445_2_alg».proof.Proof.KSsaH
import proofs.«428892_j6622839570445_2_alg».proof.Proof.KSsaR

set_option maxRecDepth 16384

noncomputable section

namespace Cert.KernelIdeal.Val

open Cert.KernelIdeal Cert.KernelIdeal.Gen Cert.Gnn Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

local notation "W" => Wf m ρ c

/-- An argument holds at the last boundary what it was launched with. -/
theorem wf_arg0 : W main_arg0 = m ((c.tc : Thread nD τ).loc main_arg0) := W19_main_arg0 m ρ c
theorem wf_arg1 : W main_arg1 = m ((c.tc : Thread nD τ).loc main_arg1) := W19_main_arg1 m ρ c
theorem wf_arg2 : W main_arg2 = m ((c.tc : Thread nD τ).loc main_arg2) := W19_main_arg2 m ρ c
theorem wf_arg3 : W main_arg3 = m ((c.tc : Thread nD τ).loc main_arg3) := W19_main_arg3 m ρ c
theorem wf_arg4 : W main_arg4 = m ((c.tc : Thread nD τ).loc main_arg4) := W19_main_arg4 m ρ c
theorem wf_arg5 : W main_arg5 = m ((c.tc : Thread nD τ).loc main_arg5) := W19_main_arg5 m ρ c
theorem wf_arg6 : W main_arg6 = m ((c.tc : Thread nD τ).loc main_arg6) := W19_main_arg6 m ρ c
theorem wf_arg7 : W main_arg7 = m ((c.tc : Thread nD τ).loc main_arg7) := W19_main_arg7 m ρ c
theorem wf_arg8 : W main_arg8 = m ((c.tc : Thread nD τ).loc main_arg8) := W19_main_arg8 m ρ c
theorem wf_arg9 : W main_arg9 = m ((c.tc : Thread nD τ).loc main_arg9) := W19_main_arg9 m ρ c
theorem wf_arg10 : W main_arg10 = m ((c.tc : Thread nD τ).loc main_arg10) := W19_main_arg10 m ρ c
theorem wf_arg11 : W main_arg11 = m ((c.tc : Thread nD τ).loc main_arg11) := W19_main_arg11 m ρ c
theorem wf_arg12 : W main_arg12 = m ((c.tc : Thread nD τ).loc main_arg12) := W19_main_arg12 m ρ c
theorem wf_arg13 : W main_arg13 = m ((c.tc : Thread nD τ).loc main_arg13) := W19_main_arg13 m ρ c
theorem wf_arg14 : W main_arg14 = m ((c.tc : Thread nD τ).loc main_arg14) := W19_main_arg14 m ρ c
theorem wf_arg15 : W main_arg15 = m ((c.tc : Thread nD τ).loc main_arg15) := W19_main_arg15 m ρ c
theorem wf_arg16 : W main_arg16 = m ((c.tc : Thread nD τ).loc main_arg16) := W19_main_arg16 m ρ c
theorem wf_arg17 : W main_arg17 = m ((c.tc : Thread nD τ).loc main_arg17) := W19_main_arg17 m ρ c
theorem wf_arg18 : W main_arg18 = m ((c.tc : Thread nD τ).loc main_arg18) := W19_main_arg18 m ρ c
theorem wf_arg19 : W main_arg19 = m ((c.tc : Thread nD τ).loc main_arg19) := W19_main_arg19 m ρ c
theorem wf_arg20 : W main_arg20 = m ((c.tc : Thread nD τ).loc main_arg20) := W19_main_arg20 m ρ c
theorem wf_arg21 : W main_arg21 = m ((c.tc : Thread nD τ).loc main_arg21) := W19_main_arg21 m ρ c
theorem wf_arg22 : W main_arg22 = m ((c.tc : Thread nD τ).loc main_arg22) := W19_main_arg22 m ρ c
theorem wf_arg23 : W main_arg23 = m ((c.tc : Thread nD τ).loc main_arg23) := W19_main_arg23 m ρ c

/-- The hidden paper features the kernel program computes, of the arguments. -/
def kXP : FVec Ideal S100000x128 .f32 := (gMixFull (n := 100000) (h := 128) (fl := 64) (fp := 128) (kAgg128 (gLin (n := 100000) (k := 128) (h := 128) (m ((c.tc : Thread nD τ).loc main_arg0)) (m ((c.tc : Thread nD τ).loc main_arg2)) (kCol (kDis (m ((c.tc : Thread nD τ).loc main_arg19))))) (m ((c.tc : Thread nD τ).loc main_arg18)) (m ((c.tc : Thread nD τ).loc main_arg19))) (gLin (n := 100000) (k := 128) (h := 128) (m ((c.tc : Thread nD τ).loc main_arg0)) (m ((c.tc : Thread nD τ).loc main_arg2)) (kCol (kDis (m ((c.tc : Thread nD τ).loc main_arg19))))) (kCol (kDis (m ((c.tc : Thread nD τ).loc main_arg19)))) (kRow128 (m ((c.tc : Thread nD τ).loc main_arg3))) (kSeg64 (m ((c.tc : Thread nD τ).loc main_arg23)) (gPick (n := 100000) (t := 64) (f := 64) (kICol (m ((c.tc : Thread nD τ).loc main_arg22))) (m ((c.tc : Thread nD τ).loc main_arg1)))) (m ((c.tc : Thread nD τ).loc main_arg0)) (m ((c.tc : Thread nD τ).loc main_arg7)) (m ((c.tc : Thread nD τ).loc main_arg8)) (kRow128 (m ((c.tc : Thread nD τ).loc main_arg9))))

/-- The hidden label features the kernel program computes, of the arguments. -/
def kXL : FVec Ideal S64x128 .f32 := (kLab1 (gPile (n := 100000) (t := 64) (f := 128) (kICol (m ((c.tc : Thread nD τ).loc main_arg21))) (kGathP (m ((c.tc : Thread nD τ).loc main_arg0)) (m ((c.tc : Thread nD τ).loc main_arg20)))) (m ((c.tc : Thread nD τ).loc main_arg4)) (m ((c.tc : Thread nD τ).loc main_arg1)) (m ((c.tc : Thread nD τ).loc main_arg5)) (m ((c.tc : Thread nD τ).loc main_arg6)))

theorem wf_v29 : W main_v29 = kXP m c := by
  rw [ssa_v29, ssa_v20, ssa_v8, ssa_v7, ssa_v6, ssa_v26, ssa_v27, ssa_v25, ssa_v22, ssa_v21, ssa_v28, ssa_v6]
  rw [wf_arg0, wf_arg1, wf_arg2, wf_arg3, wf_arg7, wf_arg8, wf_arg9, wf_arg18, wf_arg19, wf_arg22, wf_arg23]
  rfl

theorem wf_v45 : W main_v45 = kXL m c := by
  rw [ssa_v45, ssa_v38, ssa_v37, ssa_v36]
  rw [wf_arg0, wf_arg1, wf_arg4, wf_arg5, wf_arg6, wf_arg20, wf_arg21]
  rfl

/-- The paper result the kernel program computes, of the arguments and the hidden features. -/
def kOutP : FVec Ideal S100000x64 .f32 :=
  gMixPre (n := 100000) (h := 64) (fp := 128) (kAgg64 (gLin (n := 100000) (k := 128) (h := 64) (kXP m c) (m ((c.tc : Thread nD τ).loc main_arg10)) (kCol (kDis (m ((c.tc : Thread nD τ).loc main_arg19))))) (m ((c.tc : Thread nD τ).loc main_arg18)) (m ((c.tc : Thread nD τ).loc main_arg19)))
    (gLin (n := 100000) (k := 128) (h := 64) (kXP m c) (m ((c.tc : Thread nD τ).loc main_arg10)) (kCol (kDis (m ((c.tc : Thread nD τ).loc main_arg19))))) (kCol (kDis (m ((c.tc : Thread nD τ).loc main_arg19)))) (kRow64 (m ((c.tc : Thread nD τ).loc main_arg11)))
    (kSeg64 (m ((c.tc : Thread nD τ).loc main_arg23)) (gPick (n := 100000) (t := 64) (f := 64) (kICol (m ((c.tc : Thread nD τ).loc main_arg22))) (kDot2 (kXL m c) (m ((c.tc : Thread nD τ).loc main_arg15))))) (kXP m c) (m ((c.tc : Thread nD τ).loc main_arg16)) (kRow64 (m ((c.tc : Thread nD τ).loc main_arg17)))

/-- The label result the kernel program computes, of the arguments and the hidden features. -/
def kOutL : FVec Ideal S64x64 .f32 :=
  kLab2 (gPile (n := 100000) (t := 64) (f := 128) (kICol (m ((c.tc : Thread nD τ).loc main_arg21))) (kGathP (kXP m c) (m ((c.tc : Thread nD τ).loc main_arg20)))) (m ((c.tc : Thread nD τ).loc main_arg12)) (kXL m c) (m ((c.tc : Thread nD τ).loc main_arg13)) (m ((c.tc : Thread nD τ).loc main_arg14))

set_option maxHeartbeats 1000000 in
theorem wf_v69 : W main_v69 = kOutP m c := by
  rw [ssa_v69, ssa_v59, ssa_v47, ssa_v46, ssa_v66, ssa_v67, ssa_v68, ssa_v65, ssa_v62, ssa_v61, ssa_v60, ssa_v6]
  rw [wf_v29, wf_v45]
  rw [wf_arg10, wf_arg11, wf_arg15, wf_arg16, wf_arg17, wf_arg18, wf_arg19, wf_arg22, wf_arg23]
  rfl

set_option maxHeartbeats 1000000 in
theorem wf_v84 : W main_v84 = kOutL m c := by
  rw [ssa_v84, ssa_v78, ssa_v77, ssa_v76]
  rw [wf_v29, wf_v45]
  rw [wf_arg12, wf_arg13, wf_arg14, wf_arg20, wf_arg21]
  rfl

end Cert.KernelIdeal.Val

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.KRead.lean ====
/-
  The kernel program's host stretches read at an index, at the ideal values: each function of KFun.lean at a
  coordinate, as sums over the edges whose destination word names the row, rows picked by wrapped and clamped
  words, and plain sums for the products.
-/
import proofs.«428892_j6622839570445_2_alg».proof.Proof.KFun
import proofs.«428892_j6622839570445_2_alg».proof.Proof.LibPlainDot
import proofs.«428892_j6622839570445_2_alg».proof.Proof.LibScatterGather2
import proofs.«428892_j6622839570445_2_alg».proof.Proof.LibCells
import proofs.«428892_j6622839570445_2_alg».proof.Proof.LibColumn
import Idealize.ShloMosaic.Lib.Pipeline.Value
import Idealize.ShloMosaic.Lib.ValueLayout

noncomputable section

namespace Cert.KernelIdeal.Val

open Cert.KernelIdeal Cert.Gnn Idealize.ShloMosaic Idealize.ShloMosaic.ValueIdx
open scoped BigOperators

theorem kCol_apply (x : FVec Ideal S100000 .f32) (u : Fin 100000) : kCol x (ix2 u (0 : Fin 1)) = x (ix1 u) :=
  Cert.LibColumn.shapeCast_a_a1_apply x _ u 0
theorem kICol_apply (x : IVec S100000 32) (u : Fin 100000) : kICol x (ix2 u (0 : Fin 1)) = x (ix1 u) :=
  Cert.LibColumn.shapeCast_a_a1_apply x _ u 0
theorem kRow128_apply (b : FVec Ideal S128 .f32) (q : Fin 128) : kRow128 b (ix2 (0 : Fin 1) q) = b (ix1 q) :=
  shapeCast_a_1a_apply b _ 0 q
theorem kRow64_apply (b : FVec Ideal S64 .f32) (q : Fin 64) : kRow64 b (ix2 (0 : Fin 1) q) = b (ix1 q) :=
  shapeCast_a_1a_apply b _ 0 q

/-- A vector spread along a new trailing unit axis reads, at `(e, 0)`, the vector at `e`. -/
theorem bcastCol_apply {α : Type} {m : Nat} (h : (⟨1, ![m]⟩ : Shape).BroadcastsInDim ⟨2, ![m, 1]⟩ ![0])
    (v : (⟨1, ![m]⟩ : Shape).Idx → α) (e : Fin m) :
    broadcastInDim ⟨2, ![m, 1]⟩ ![0] h v (ix2 e (0 : Fin 1)) = v (ix1 e) := by
  refine broadcastInDim_apply ![0] h v (ix2 e (0 : Fin 1)) (ix1 e) fun a => ?_
  match a with
  | ⟨0, _⟩ =>
    show e.val = if m = 1 then 0 else e.val
    split
    · have := e.isLt; omega
    · rfl

theorem kIdxC_apply (a18 : IVec S1600000 32) (e : Fin 1600000) :
    kIdxC a18 (ix2 e (0 : Fin 1)) = wrapW 100000 (a18 (ix1 e)) := by
  unfold kIdxC
  exact (bcastCol_apply _ _ e).trans rfl
theorem kIdxP_apply (a20 : IVec S100000 32) (e : Fin 100000) :
    kIdxP a20 (ix2 e (0 : Fin 1)) = wrapW 100000 (a20 (ix1 e)) := by
  unfold kIdxP
  exact (bcastCol_apply _ _ e).trans rfl

/-- A bias spread to a one-row table and then over the rows reads, at `(p, q)`, the bias at `q`. -/
theorem bcastRow_apply {α : Type} {a b : Nat} (h1 : (⟨2, ![1, b]⟩ : Shape).BroadcastsInDim ⟨2, ![a, b]⟩ ![0, 1])
    (h2 : (⟨1, ![b]⟩ : Shape).BroadcastsInDim ⟨2, ![1, b]⟩ ![1]) (v : (⟨1, ![b]⟩ : Shape).Idx → α) (p : Fin a) (q : Fin b) :
    broadcastInDim ⟨2, ![a, b]⟩ ![0, 1] h1 (broadcastInDim ⟨2, ![1, b]⟩ ![1] h2 v) (ix2 p q) = v (ix1 q) := by
  refine (broadcastInDim_apply ![0, 1] h1 _ (ix2 p q) (ix2 (0 : Fin 1) q) fun ax => ?_).trans
    (broadcastInDim_apply ![1] h2 v (ix2 (0 : Fin 1) q) (ix1 q) fun ax => ?_)
  · match ax with
    | ⟨0, _⟩ => rfl
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- The host's reciprocal square root reads elementwise. -/
theorem hostRsqrt_apply {s : Shape} {φ : FTy} (x : FVec Ideal s φ) (i : s.Idx) : Host.rsqrt x i = Ideal.rsqrt (x i) := rfl

theorem kDis_apply (a19 : IVec S1600000 32) (u : Fin 100000) :
    kDis a19 (ix1 u) = Ideal.rsqrt ((Z + ∑ e ∈ Finset.univ.filter (fun e : Fin 1600000 => (a19 (ix1 e)).toInt = (u.val : ℤ)), ONE) + ONE) := by
  unfold kDis
  rw [hostRsqrt_apply, addf_apply]
  refine congrArg Ideal.rsqrt (congrArg₂ (· + ·) ?_ rfl)
  refine (Cert.LibCells.scatterAdd1_apply scatter_S100000_S1600000x1_S1600000_n_0_0_1 rfl rfl rfl rfl _ _ _ u).trans ?_
  refine congrArg₂ (· + ·) rfl ?_
  refine Finset.sum_congr (Finset.filter_congr fun e _ => ?_) fun e _ => rfl
  rw [bcastCol_apply]

theorem kSeg64_apply (a23 : IVec S100000 32) (v : FVec Ideal S100000x64 .f32) (p : Fin 100000) (j : Fin 64) :
    kSeg64 a23 v (ix2 p j)
      = Z + ∑ e ∈ Finset.univ.filter (fun e : Fin 100000 => (a23 (ix1 e)).toInt = (p.val : ℤ)), v (ix2 e j) := by
  unfold kSeg64
  refine (Cert.LibScatterGather2.scatterAdd_apply scatter_S100000x64_S100000x1_S100000x64_1_0_0_1 rfl rfl rfl rfl _ _ v p j).trans ?_
  refine congrArg₂ (· + ·) rfl ?_
  refine Finset.sum_congr (Finset.filter_congr fun e _ => ?_) fun e _ => rfl
  rw [bcastCol_apply]

theorem kGathP_apply (x : FVec Ideal S100000x128 .f32) (a20 : IVec S100000 32) (e : Fin 100000) (j : Fin 128) :
    kGathP x a20 (ix2 e j) = x (ix2 (rowOf 100000 (by decide) (wrapW 100000 (a20 (ix1 e)))) j) := by
  unfold kGathP
  refine (Cert.LibScatterGather2.gather_apply_clamp gather_S100000x128_S100000x1_S100000x128_1_0_n_n_0_1_1128
    rfl rfl rfl rfl rfl x (kIdxP a20) e j (by decide)).trans ?_
  refine congrArg x (congrArg (fun r => ix2 r j) (Fin.ext ?_))
  show min (kIdxP a20 (ix2 e (0 : Fin 1))).toInt.toNat (100000 - 1) = min (wrapW 100000 (a20 (ix1 e))).toInt.toNat (100000 - 1)
  rw [kIdxP_apply]

theorem kAgg128_apply (ys : FVec Ideal S100000x128 .f32) (a18 a19 : IVec S1600000 32) (u : Fin 100000) (j : Fin 128) :
    kAgg128 ys a18 a19 (ix2 u j)
      = Z + ∑ e ∈ Finset.univ.filter (fun e : Fin 1600000 => (a19 (ix1 e)).toInt = (u.val : ℤ)),
          ys (ix2 (rowOf 100000 (by decide) (wrapW 100000 (a18 (ix1 e)))) j) := by
  unfold kAgg128
  refine (Cert.LibScatterGather2.scatterAdd_apply scatter_S100000x128_S1600000x1_S1600000x128_1_0_0_1 rfl rfl rfl rfl _ _ _ u j).trans ?_
  refine congrArg₂ (· + ·) rfl ?_
  refine Finset.sum_congr (Finset.filter_congr fun e _ => ?_) fun e _ => ?_
  · rw [bcastCol_apply]
  · rw [extf_apply]
    refine (Cert.LibScatterGather2.gather_apply_clamp gather_S100000x128_S1600000x1_S1600000x128_1_0_n_n_0_1_1128
      rfl rfl rfl rfl rfl _ (kIdxC a18) e j (by decide)).trans ?_
    rw [truncf_apply]
    refine congrArg ys (congrArg (fun r => ix2 r j) (Fin.ext ?_))
    show min (kIdxC a18 (ix2 e (0 : Fin 1))).toInt.toNat (100000 - 1) = min (wrapW 100000 (a18 (ix1 e))).toInt.toNat (100000 - 1)
    rw [kIdxC_apply]

theorem kAgg64_apply (ys : FVec Ideal S100000x64 .f32) (a18 a19 : IVec S1600000 32) (u : Fin 100000) (j : Fin 64) :
    kAgg64 ys a18 a19 (ix2 u j)
      = Z + ∑ e ∈ Finset.univ.filter (fun e : Fin 1600000 => (a19 (ix1 e)).toInt = (u.val : ℤ)),
          ys (ix2 (rowOf 100000 (by decide) (wrapW 100000 (a18 (ix1 e)))) j) := by
  unfold kAgg64
  refine (Cert.LibScatterGather2.scatterAdd_apply scatter_S100000x64_S1600000x1_S1600000x64_1_0_0_1 rfl rfl rfl rfl _ _ _ u j).trans ?_
  refine congrArg₂ (· + ·) rfl ?_
  refine Finset.sum_congr (Finset.filter_congr fun e _ => ?_) fun e _ => ?_
  · rw [bcastCol_apply]
  · rw [extf_apply]
    refine (Cert.LibScatterGather2.gather_apply_clamp gather_S100000x64_S1600000x1_S1600000x64_1_0_n_n_0_1_164
      rfl rfl rfl rfl rfl _ (kIdxC a18) e j (by decide)).trans ?_
    rw [truncf_apply]
    refine congrArg ys (congrArg (fun r => ix2 r j) (Fin.ext ?_))
    show min (kIdxC a18 (ix2 e (0 : Fin 1))).toInt.toNat (100000 - 1) = min (wrapW 100000 (a18 (ix1 e))).toInt.toNat (100000 - 1)
    rw [kIdxC_apply]

/-- The host's product of an `A × K` table and a `K × B` table at `(p, q)`: the plain sum over `K`. -/
theorem hostDot_apply {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    Host.dotGeneral d prec lhs rhs (ix2 p q) = ∑ k : Fin K, lhs (ix2 p k) * rhs (ix2 k q) :=
  Cert.LibPlainDot.dotGeneral_apply d hlc hrc hln hrn hlb hrb prec .single lhs rhs p q

theorem kLab1_apply (agg : FVec Ideal S64x128 .f32) (w4 : FVec Ideal S128x128 .f32) (xl : FVec Ideal S64x64 .f32)
    (w5 : FVec Ideal S64x128 .f32) (b6 : FVec Ideal S128 .f32) (c : Fin 64) (q : Fin 128) :
    kLab1 agg w4 xl w5 b6 (ix2 c q)
      = max (((∑ k : Fin 128, agg (ix2 c k) * w4 (ix2 k q)) + ∑ k : Fin 64, xl (ix2 c k) * w5 (ix2 k q)) + b6 (ix1 q)) Z := by
  unfold kLab1
  rw [maximumf_apply, addf_apply, addf_apply, bcastRow_apply,
    hostDot_apply dot_S64x128_S128x128_S64x128_1_0_0_1_n_n rfl rfl rfl rfl rfl rfl,
    hostDot_apply dot_S64x64_S64x128_S64x128_1_0_0_1_n_n rfl rfl rfl rfl rfl rfl]
  rfl
theorem kDot2_apply (x : FVec Ideal S64x128 .f32) (w : FVec Ideal S128x64 .f32) (c : Fin 64) (q : Fin 64) :
    kDot2 x w (ix2 c q) = ∑ k : Fin 128, x (ix2 c k) * w (ix2 k q) :=
  hostDot_apply dot_S64x128_S128x64_S64x64_1_0_0_1_n_n rfl rfl rfl rfl rfl rfl none x w c q
theorem kLab2_apply (agg : FVec Ideal S64x128 .f32) (w12 : FVec Ideal S128x64 .f32) (xl : FVec Ideal S64x128 .f32)
    (w13 : FVec Ideal S128x64 .f32) (b14 : FVec Ideal S64 .f32) (c : Fin 64) (q : Fin 64) :
    kLab2 agg w12 xl w13 b14 (ix2 c q)
      = ((∑ k : Fin 128, agg (ix2 c k) * w12 (ix2 k q)) + ∑ k : Fin 128, xl (ix2 c k) * w13 (ix2 k q)) + b14 (ix1 q) := by
  unfold kLab2
  rw [addf_apply, addf_apply, bcastRow_apply,
    hostDot_apply dot_S64x128_S128x64_S64x64_1_0_0_1_n_n rfl rfl rfl rfl rfl rfl,
    hostDot_apply dot_S64x128_S128x64_S64x64_1_0_0_1_n_n rfl rfl rfl rfl rfl rfl]

end Cert.KernelIdeal.Val

end
-- ==== Proof.GnnMath.lean ====
/-
  Arithmetic on the extended reals that the two programs' equality rests on: a one-hot combination picks one term;
  a nonnegative real factor distributes over a sum; the inverse square root of a count plus one is a nonnegative real;
  sums and products of reals are reals; a sum over edges commutes with a product by a real weight matrix.
-/
import proofs.«428892_j6622839570445_2_alg».proof.Proof.GnnSpec
import proofs.«428892_j6622839570445_2_alg».proof.Proof.LibIdealReal
import Mathlib.Data.EReal.Operations
import Mathlib.Analysis.SpecialFunctions.Sqrt

noncomputable section

namespace Cert.Gnn

open Idealize.ShloMosaic Idealize.ShloMosaic.ValueIdx
open scoped BigOperators

/-- An extended real that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, Cert.LibIdealReal.add_coe a b⟩
theorem IsR.mul {x y : EReal} (hx : IsR x) (hy : IsR y) : IsR (x * y) := by
  obtain ⟨a, rfl⟩ := hx
  obtain ⟨b, rfl⟩ := hy
  exact ⟨a * b, Cert.LibIdealReal.mul_coe a b⟩
theorem IsR.max {x y : EReal} (hx : IsR x) (hy : IsR y) : IsR (max x y) := by
  obtain ⟨a, rfl⟩ := hx
  obtain ⟨b, rfl⟩ := hy
  exact ⟨_, Cert.LibIdealReal.max_coe a b⟩
theorem IsR.sum {ι : Type*} (s : Finset ι) (f : ι → EReal) (h : ∀ i ∈ s, IsR (f i)) : IsR (∑ i ∈ s, f i) := by
  classical
  refine ⟨∑ i ∈ s, (if hi : i ∈ s then Classical.choose (h i hi) else 0), ?_⟩
  refine Cert.LibIdealReal.sum_of_eq s f _ ?_
  intro i hi
  rw [dif_pos hi]
  exact Classical.choose_spec (h i hi)
theorem isR_Z : IsR Z := by
  exact ⟨0, Cert.LibIdealReal.ofBits_zero_coe⟩
theorem isR_ONE : IsR ONE := by
  exact ⟨1, Cert.LibIdealReal.ofBits_one_coe⟩
theorem isR_HALF : IsR HALF := by
  exact ⟨1 / 2, Cert.LibIdealReal.ofBits_half⟩
theorem Z_eq_zero : Z = 0 := Ideal.ofBits_zero_f32
theorem isR_onehot (w : BitVec 32) (c : Nat) : IsR (onehot w c) := by
  unfold onehot
  split_ifs
  · exact ⟨1, rfl⟩
  · exact ⟨0, rfl⟩

/-- The one-hot weight is one exactly at the column whose number the word is. -/
theorem onehot_eq (w : BitVec 32) (c : Nat) (hc : c < 2 ^ 32) :
    onehot w c = if w.toNat = c then ((1 : ℝ) : EReal) else ((0 : ℝ) : EReal) := by
  have key : (w = BitVec.ofNat 32 c) ↔ w.toNat = c := by
    constructor
    · intro h
      rw [h, BitVec.toNat_ofNat]
      exact Nat.mod_eq_of_lt hc
    · intro h
      apply BitVec.eq_of_toNat_eq
      rw [BitVec.toNat_ofNat, Nat.mod_eq_of_lt hc]
      exact h
  unfold onehot
  by_cases h : w.toNat = c
  · rw [if_pos (key.mpr h), if_pos h]
  · rw [if_neg (fun h' => h (key.mp h')), if_neg h]

/-- A one-hot combination over `t` columns picks the term of the word's column, when the word names a column. -/
theorem onehot_sum_pick {t : Nat} (ht : t ≤ 2 ^ 32) (w : BitVec 32) (f : Fin t → EReal) (h : w.toNat < t) :
    ∑ c : Fin t, onehot w c.val * f c = f ⟨w.toNat, h⟩ := by
  rw [Finset.sum_eq_single (⟨w.toNat, h⟩ : Fin t)]
  · rw [onehot_eq w _ (lt_of_lt_of_le h ht), if_pos rfl, EReal.coe_one, one_mul]
  · intro b _ hb
    have hne : ¬ w.toNat = b.val := fun hh => hb (Fin.ext hh.symm)
    rw [onehot_eq w _ (lt_of_lt_of_le b.isLt ht), if_neg hne, EReal.coe_zero, zero_mul]
  · intro hh
    exact absurd (Finset.mem_univ _) hh

/-- A one-hot weight at a fixed column, over edges: the weighted sum is the sum over the edges whose word, read signed,
    is that column. -/
theorem onehot_sum_filter {n : Nat} (idx : Fin n → BitVec 32) (c : Nat) (hc : c < 2 ^ 31) (f : Fin n → EReal) :
    ∑ e : Fin n, onehot (idx e) c * f e = ∑ e ∈ Finset.univ.filter (fun e : Fin n => (idx e).toInt = (c : ℤ)), f e := by
  have key : ∀ w : BitVec 32, w.toNat = c ↔ w.toInt = (c : ℤ) := by
    intro w
    have hw := w.isLt
    rw [BitVec.toInt_eq_toNat_cond]
    constructor
    · intro h
      rw [if_pos (by omega)]
      omega
    · intro h
      split_ifs at h <;> omega
  rw [Finset.sum_filter]
  refine Finset.sum_congr rfl ?_
  intro e _
  rw [onehot_eq _ _ (by omega)]
  by_cases h : (idx e).toInt = (c : ℤ)
  · rw [if_pos ((key _).mpr h), if_pos h, EReal.coe_one, one_mul]
  · rw [if_neg (fun h' => h ((key _).mp h')), if_neg h, EReal.coe_zero, zero_mul]

/-- A nonnegative real factor distributes over a sum of extended reals. -/
theorem nn_mul_add {s : EReal} (hs : ∃ r : ℝ, 0 ≤ r ∧ s = (r : EReal)) (a b : EReal) : s * (a + b) = s * a + s * b := by
  obtain ⟨r, hr, rfl⟩ := hs
  exact EReal.left_distrib_of_nonneg_of_ne_top (EReal.coe_nonneg.mpr hr) (EReal.coe_ne_top r) a b

/-- The normalised neighbour term in its two groupings. -/
theorem mix_cites {s : EReal} (hs : ∃ r : ℝ, 0 ≤ r ∧ s = (r : EReal)) (a y b : EReal) :
    s * (a + y * s) + b = (s * a + (s * s) * y) + b := by
  rw [nn_mul_add hs, mul_comm y s, ← mul_assoc s s y]

/-- The inverse square root of a count plus one is a nonnegative real. -/
theorem dis_nn {ι : Type*} (s : Finset ι) :
    ∃ r : ℝ, 0 ≤ r ∧ Ideal.rsqrt ((Z + ∑ _e ∈ s, ONE) + ONE) = (r : EReal) := by
  have h1 : (Z + ∑ _e ∈ s, ONE) + ONE = (((s.card : ℝ) + 1 : ℝ) : EReal) := by
    have hsum : ∑ _e ∈ s, ONE = ((∑ _e ∈ s, (1 : ℝ) : ℝ) : EReal) :=
      Cert.LibIdealReal.sum_of_eq s (fun _ => ONE) (fun _ => 1) (fun _ _ => Cert.LibIdealReal.ofBits_one_coe)
    rw [hsum, Z_eq_zero, zero_add, show ONE = ((1 : ℝ) : EReal) from Cert.LibIdealReal.ofBits_one_coe,
      ← EReal.coe_add]
    simp
  have hpos : (0 : ℝ) < (s.card : ℝ) + 1 := by positivity
  rw [h1, Ideal.rsqrt_coe, if_neg (not_lt.mpr hpos.le), if_neg hpos.ne']
  exact ⟨_, inv_nonneg.mpr (Real.sqrt_nonneg _), rfl⟩

/-- A sum over edges of products with real weights, summed over the contracted axis, in the other order:
    the sum over `k` of (the edge sum of the `k`-th entries) times the `k`-th weight. -/
theorem edge_sum_mul_swap {ι : Type*} {K : Nat} (s : Finset ι) (f : ι → Fin K → EReal) (w : Fin K → EReal)
    (hf : ∀ e ∈ s, ∀ k, IsR (f e k)) (hw : ∀ k, IsR (w k)) :
    ∑ e ∈ s, ∑ k : Fin K, f e k * w k = ∑ k : Fin K, (∑ e ∈ s, f e k) * w k := by
  classical
  choose wr hwr using hw
  let fr : ι → Fin K → ℝ := fun e k => if he : e ∈ s then Classical.choose (hf e he k) else 0
  have hfr : ∀ e ∈ s, ∀ k, f e k = ((fr e k : ℝ) : EReal) := by
    intro e he k
    simp only [fr, dif_pos he]
    exact Classical.choose_spec (hf e he k)
  have lhs : ∑ e ∈ s, ∑ k : Fin K, f e k * w k = ((∑ e ∈ s, ∑ k : Fin K, fr e k * wr k : ℝ) : EReal) := by
    refine Cert.LibIdealReal.sum_of_eq s _ _ ?_
    intro e he
    refine Cert.LibIdealReal.sum_of_eq Finset.univ _ _ ?_
    intro k _
    rw [hfr e he k, hwr k, Cert.LibIdealReal.mul_coe]
  have rhs : ∑ k : Fin K, (∑ e ∈ s, f e k) * w k = ((∑ k : Fin K, (∑ e ∈ s, fr e k) * wr k : ℝ) : EReal) := by
    refine Cert.LibIdealReal.sum_of_eq Finset.univ _ _ ?_
    intro k _
    have hk : ∑ e ∈ s, f e k = ((∑ e ∈ s, fr e k : ℝ) : EReal) :=
      Cert.LibIdealReal.sum_of_eq s (fun e => f e k) (fun e => fr e k) (fun e he => hfr e he k)
    rw [hk, hwr k, Cert.LibIdealReal.mul_coe]
  rw [lhs, rhs, Finset.sum_comm]
  congr 1
  refine Finset.sum_congr rfl ?_
  intro k _
  rw [Finset.sum_mul]

/-- A word in `[0, n)` read signed is unchanged by the negative-index wrap and names its own row. -/
theorem rowOf_wrapW_of_range (n : Nat) (hn : 0 < n) (hn' : n < 2 ^ 31) (w : BitVec 32) (h0 : 0 ≤ w.toInt) (h1 : w.toInt < n) :
    (rowOf n hn (wrapW n w)).val = w.toNat := by
  have hslt : IntOp.cmpi .slt w 0#32 = 0#1 := by
    unfold IntOp.cmpi
    simp only [BitVec.slt, BitVec.toInt_zero]
    rw [decide_eq_false (not_lt.mpr h0)]
    rfl
  have hw : wrapW n w = w := by
    unfold wrapW Scalar.select
    rw [hslt, if_neg (by decide)]
  have hnat : w.toInt = (w.toNat : ℤ) := by
    have hlt := w.isLt
    rw [BitVec.toInt_eq_toNat_cond] at h0 ⊢
    split_ifs at h0 ⊢
    · rfl
    · omega
  rw [hw]
  show min w.toInt.toNat (n - 1) = w.toNat
  omega

end Cert.Gnn

end
-- ==== Proof.GnnTypes.lean ====
/-
  Names for the types of the index arrays the graph programs take.
-/
import proofs.«428892_j6622839570445_2_alg».proof.Proof.GnnSpec

namespace Cert.Gnn

open Idealize.ShloMosaic

/-- A one-axis array of 32-bit words. -/
abbrev WVec (a : Nat) : Type := (⟨1, ![a]⟩ : Shape).Idx → BitVec 32

end Cert.Gnn
-- ==== Proof.BrLab.lean ====
/-
  The label side of the two programs agrees: the pile of the gathered paper rows by their label words, computed by
  one-hot products block after block, is the host's accumulating scatter of the same rows, and the label transform
  on top of it is the same operations in both programs.
-/
import proofs.«428892_j6622839570445_2_alg».proof.Proof.KRead
import proofs.«428892_j6622839570445_2_alg».proof.Proof.GnnMath
import proofs.«428892_j6622839570445_2_alg».proof.Proof.GnnTypes
import proofs.«428892_j6622839570445_2_alg».proof.Proof.Gen.ReferenceIdeal.Read
import proofs.«428892_j6622839570445_2_alg».proof.Proof.LibScatterGather2
import proofs.«428892_j6622839570445_2_alg».proof.Proof.LibCells
import proofs.«428892_j6622839570445_2_alg».proof.Proof.LibPlainDot
import proofs.«428892_j6622839570445_2_alg».proof.Proof.LibColumn
import proofs.«428892_j6622839570445_2_alg».proof.Proof.LibIdealReal

noncomputable section

namespace Cert.Bridge

open Cert.Gnn Cert.KernelIdeal.Val Cert.ReferenceIdeal.Read Idealize.ShloMosaic Idealize.ShloMosaic.ValueIdx
open scoped BigOperators

/-- A two-axis index with the given coordinates is the literal pair. -/
theorem lab_idx2_eq {a b : Nat} (f : (⟨2, ![a, b]⟩ : Shape).Idx) (p : Fin a) (q : Fin b)
    (h0 : (f 0).val = p.val) (h1 : (f 1).val = q.val) : f = ix2 p q := by
  funext d
  match d with
  | ⟨0, _⟩ => exact Fin.ext h0
  | ⟨1, _⟩ => exact Fin.ext h1

/-- A one-axis index with the given coordinate is the literal one. -/
theorem lab_idx1_eq {a : Nat} (f : (⟨1, ![a]⟩ : Shape).Idx) (p : Fin a) (h0 : (f 0).val = p.val) : f = ix1 p := by
  funext d
  match d with
  | ⟨0, _⟩ => exact Fin.ext h0

/-- The pile of the gathered rows by label word is the accumulating scatter, into a zero table, of the rows gathered
    by the wrapped source words: entry (c, k) of both is the sum, over the edges whose label word read signed is c,
    of entry k of the row the edge's source word names. -/
theorem lab_pile_eq (X : Mat 100000 128) (a20 a21 : WVec 100000)
    (z : Mat 64 128) (hz : ∀ i, z i = Z)
    (col : WCol 100000) (hcol : ∀ e : Fin 100000, col (ix2 e (0 : Fin 1)) = a21 (ix1 e))
    (w : WCol 100000) (hw : ∀ e : Fin 100000, w (ix2 e (0 : Fin 1)) = wrapW 100000 (a20 (ix1 e))) :
    gPile (t := 64) (kICol a21) (kGathP X a20)
      = Host.scatterAdd (F := Ideal) (φ := .f32) Cert.ReferenceIdeal.scatter_S64x128_S100000x1_S100000x128_1_0_0_1 z col
          (Host.gather Cert.ReferenceIdeal.gather_S100000x128_S100000x1_S100000x128_1_0_n_n_0_1_1128 X w) := by
  funext i
  obtain ⟨c, k, rfl⟩ : ∃ (c : Fin 64) (k : Fin 128), i = ix2 c k := ⟨i 0, i 1, eq_ix2 i⟩
  have hL : gPile (t := 64) (kICol a21) (kGathP X a20) (ix2 c k)
      = ∑ e : Fin 100000, onehot (a21 (ix1 e)) c.val
          * X (ix2 (rowOf 100000 (by decide) (wrapW 100000 (a20 (ix1 e)))) k) := by
    rw [gPile_apply]
    refine Finset.sum_congr rfl fun e _ => ?_
    rw [kICol_apply, kGathP_apply]
  rw [hL, Cert.LibScatterGather2.scatterAdd_apply _ rfl rfl rfl rfl, hz, Z_eq_zero, zero_add,
    onehot_sum_filter (fun e : Fin 100000 => a21 (ix1 e)) c.val (by have := c.isLt; omega)]
  simp only [hcol]
  refine Finset.sum_congr rfl fun e _ => ?_
  rw [Cert.LibScatterGather2.gather_apply_clamp _ rfl rfl rfl rfl rfl X w e k (by decide)]
  refine congrArg X (congrArg (fun r => ix2 r k) (Fin.ext ?_))
  show min (wrapW 100000 (a20 (ix1 e))).toInt.toNat (100000 - 1) = min (w (ix2 e (0 : Fin 1))).toInt.toNat (100000 - 1)
  rw [hw]

/-- The reference's wrapped source column of layer 1, read at an edge. -/
theorem lab_v60_read (a20 : WVec 100000) (e : Fin 100000) :
    val_main_v60 (F := Ideal) a20 (ix2 e (0 : Fin 1)) = wrapW 100000 (a20 (ix1 e)) := by
  have h : idx_main_v60 (ix2 e (0 : Fin 1)) = ix1 e := lab_idx1_eq _ _ rfl
  rw [val_main_v60_apply, h, val_main_v59_apply, val_main_v56_apply, val_main_v58_apply, val_main_v55_apply,
    val_main_v57_apply, val_main_c_9_apply, val_main_c_10_apply]
  rfl

/-- The reference's label column of layer 1, read at an edge. -/
theorem lab_v63_read (a21 : WVec 100000) (e : Fin 100000) :
    val_main_v63 (F := Ideal) a21 (ix2 e (0 : Fin 1)) = a21 (ix1 e) := by
  have h : idx_main_v63 (ix2 e (0 : Fin 1)) = ix1 e := lab_idx1_eq _ _ rfl
  rw [val_main_v63_apply, h]

/-- The reference's zero table of layer 1. -/
theorem lab_v62_read (i : (⟨2, ![64, 128]⟩ : Shape).Idx) : val_main_v62 (F := Ideal) i = Z := by
  rw [val_main_v62_apply, val_main_cst_11_apply]
  rfl

/-- Layer 1: the pile is the reference's scatter stage. -/
theorem lab_pile1 (x0 : Mat 100000 128) (a20 a21 : WVec 100000) :
    gPile (t := 64) (kICol a21) (kGathP x0 a20) = val_main_v64 (F := Ideal) x0 a20 a21 := by
  unfold val_main_v64 val_main_v61
  exact lab_pile_eq x0 a20 a21 _ lab_v62_read _ (lab_v63_read a21) _ (lab_v60_read a20)

/-- Layer 1: the kernel program's label features are the reference's. -/
theorem lab1 (x0 : Mat 100000 128) (x1 : Mat 64 64) (x4 : Mat 128 128) (x5 : Mat 64 128) (x6 : Vec1 128) (a20 : WVec 100000) (a21 : WVec 100000) :
    kLab1 (gPile (t := 64) (kICol a21) (kGathP x0 a20)) x4 x1 x5 x6 = val_main_v75 (F := Ideal) x0 x1 x4 x5 x6 a20 a21 := by
  rw [lab_pile1]
  funext i
  obtain ⟨c, q, rfl⟩ : ∃ (c : Fin 64) (q : Fin 128), i = ix2 c q := ⟨i 0, i 1, eq_ix2 i⟩
  rw [kLab1_apply, val_main_v75_apply, val_main_v70_apply, val_main_v67_apply, val_main_v65_apply, val_main_v66_apply,
    val_main_v69_apply, val_main_v68_apply, val_main_call1_v0_apply, val_main_call1_cst_apply]
  generalize val_main_v64 (F := Ideal) x0 a20 a21 = agg
  have hl65 : ∀ k : Fin 128, lidx_main_v65 (ix2 c q) k = ix2 c k := fun k => lab_idx2_eq _ _ _ rfl rfl
  have hr65 : ∀ k : Fin 128, ridx_main_v65 (ix2 c q) k = ix2 k q := fun k => lab_idx2_eq _ _ _ rfl rfl
  have hl66 : ∀ k : Fin 64, lidx_main_v66 (ix2 c q) k = ix2 c k := fun k => lab_idx2_eq _ _ _ rfl rfl
  have hr66 : ∀ k : Fin 64, ridx_main_v66 (ix2 c q) k = ix2 k q := fun k => lab_idx2_eq _ _ _ rfl rfl
  have hb : idx_main_v68 (idx_main_v69 (ix2 c q)) = ix1 q := lab_idx1_eq _ _ rfl
  simp only [hl65, hr65, hl66, hr66, hb]
  rfl

/-- The reference's wrapped source column of layer 2, read at an edge. -/
theorem lab_v136_read (a20 : WVec 100000) (e : Fin 100000) :
    val_main_v136 (F := Ideal) a20 (ix2 e (0 : Fin 1)) = wrapW 100000 (a20 (ix1 e)) := by
  have h : idx_main_v136 (ix2 e (0 : Fin 1)) = ix1 e := lab_idx1_eq _ _ rfl
  rw [val_main_v136_apply, h, val_main_v135_apply, val_main_v132_apply, val_main_v134_apply, val_main_v131_apply,
    val_main_v133_apply, val_main_c_24_apply, val_main_c_25_apply]
  rfl

/-- The reference's label column of layer 2, read at an edge. -/
theorem lab_v139_read (a21 : WVec 100000) (e : Fin 100000) :
    val_main_v139 (F := Ideal) a21 (ix2 e (0 : Fin 1)) = a21 (ix1 e) := by
  have h : idx_main_v139 (ix2 e (0 : Fin 1)) = ix1 e := lab_idx1_eq _ _ rfl
  rw [val_main_v139_apply, h]

/-- The reference's zero table of layer 2. -/
theorem lab_v138_read (i : (⟨2, ![64, 128]⟩ : Shape).Idx) : val_main_v138 (F := Ideal) i = Z := by
  rw [val_main_v138_apply, val_main_cst_26_apply]
  rfl

/-- Layer 2: the pile of the hidden paper rows is the reference's scatter stage. -/
theorem lab_pile2 (x0 : Mat 100000 128) (x1 : Mat 64 64) (x2 : Mat 128 128) (x3 : Vec1 128) (x7 : Mat 64 128) (x8 : Mat 128 128) (x9 : Vec1 128) (a18 : WVec 1600000) (a19 : WVec 1600000) (a20 : WVec 100000) (a21 : WVec 100000) (a22 : WVec 100000) (a23 : WVec 100000) :
    gPile (t := 64) (kICol a21) (kGathP (val_main_v74 (F := Ideal) x0 x1 x2 x3 x7 x8 x9 a18 a19 a22 a23) a20)
      = val_main_v140 (F := Ideal) x0 x1 x2 x3 x7 x8 x9 a18 a19 a20 a21 a22 a23 := by
  unfold val_main_v140 val_main_v137
  generalize val_main_v74 (F := Ideal) x0 x1 x2 x3 x7 x8 x9 a18 a19 a22 a23 = XP
  exact lab_pile_eq XP a20 a21 _ lab_v138_read _ (lab_v139_read a21) _ (lab_v136_read a20)

/-- Layer 2: the kernel program's label output is the reference's, over the same hidden features. -/
theorem lab2 (x0 : Mat 100000 128) (x1 : Mat 64 64) (x2 : Mat 128 128) (x3 : Vec1 128) (x4 : Mat 128 128) (x5 : Mat 64 128) (x6 : Vec1 128) (x7 : Mat 64 128) (x8 : Mat 128 128) (x9 : Vec1 128) (x12 : Mat 128 64) (x13 : Mat 128 64) (x14 : Vec1 64) (a18 : WVec 1600000) (a19 : WVec 1600000) (a20 : WVec 100000) (a21 : WVec 100000) (a22 : WVec 100000) (a23 : WVec 100000) :
    kLab2 (gPile (t := 64) (kICol a21) (kGathP (val_main_v74 (F := Ideal) x0 x1 x2 x3 x7 x8 x9 a18 a19 a22 a23) a20)) x12 (val_main_v75 (F := Ideal) x0 x1 x4 x5 x6 a20 a21) x13 x14
      = val_main_v146 (F := Ideal) x0 x1 x2 x3 x4 x5 x6 x7 x8 x9 x12 x13 x14 a18 a19 a20 a21 a22 a23 := by
  rw [lab_pile2]
  funext i
  obtain ⟨c, q, rfl⟩ : ∃ (c : Fin 64) (q : Fin 64), i = ix2 c q := ⟨i 0, i 1, eq_ix2 i⟩
  rw [kLab2_apply, val_main_v146_apply, val_main_v143_apply, val_main_v141_apply, val_main_v142_apply,
    val_main_v145_apply, val_main_v144_apply]
  generalize val_main_v140 (F := Ideal) x0 x1 x2 x3 x7 x8 x9 a18 a19 a20 a21 a22 a23 = agg
  generalize val_main_v75 (F := Ideal) x0 x1 x4 x5 x6 a20 a21 = XL
  have hl141 : ∀ k : Fin 128, lidx_main_v141 (ix2 c q) k = ix2 c k := fun k => lab_idx2_eq _ _ _ rfl rfl
  have hr141 : ∀ k : Fin 128, ridx_main_v141 (ix2 c q) k = ix2 k q := fun k => lab_idx2_eq _ _ _ rfl rfl
  have hl142 : ∀ k : Fin 128, lidx_main_v142 (ix2 c q) k = ix2 c k := fun k => lab_idx2_eq _ _ _ rfl rfl
  have hr142 : ∀ k : Fin 128, ridx_main_v142 (ix2 c q) k = ix2 k q := fun k => lab_idx2_eq _ _ _ rfl rfl
  have hb : idx_main_v144 (idx_main_v145 (ix2 c q)) = ix1 q := lab_idx1_eq _ _ rfl
  simp only [hl141, hr141, hl142, hr142, hb]
  rfl

end Cert.Bridge

end
-- ==== Proof.BrPap1.lean ====
/-
  The paper side of layer 1 agrees: with the degree scale folded into the node features before the neighbour sum
  the normalised neighbour term regroups, because the scale is a nonnegative real; and a one-hot product picks the
  label row a word in range names, which is the row the host's gather reads.
-/
import proofs.«428892_j6622839570445_2_alg».proof.Proof.KRead
import proofs.«428892_j6622839570445_2_alg».proof.Proof.GnnMath
import proofs.«428892_j6622839570445_2_alg».proof.Proof.GnnTypes
import proofs.«428892_j6622839570445_2_alg».proof.Proof.Gen.ReferenceIdeal.Read
import proofs.«428892_j6622839570445_2_alg».proof.Proof.LibScatterGather2
import proofs.«428892_j6622839570445_2_alg».proof.Proof.LibCells
import proofs.«428892_j6622839570445_2_alg».proof.Proof.LibPlainDot
import proofs.«428892_j6622839570445_2_alg».proof.Proof.LibColumn
import proofs.«428892_j6622839570445_2_alg».proof.Proof.LibIdealReal

noncomputable section

namespace Cert.Bridge

open Cert.Gnn Cert.KernelIdeal.Val Cert.ReferenceIdeal.Read Idealize.ShloMosaic Idealize.ShloMosaic.ValueIdx
open scoped BigOperators

namespace Pap1

/-- A gather of scalars from a table of `N` entries by an `M × 1` column of words: entry `e` of the result is the
    table at the word of row `e`, read signed and clamped into the table. -/
theorem gather1_apply_clamp {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e (0 : Fin 1))).toInt.toNat (N - 1), by omega⟩) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 1))).toInt.toNat (N - 1)
      rw [GatherDims.batchCoord_eq_zero _ _ _ List.not_mem_nil,
        GatherDims.offCoord_eq_zero _ _ _ (by decide : (0 : Fin 1) ∉ (List.finRange 1).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl

/-- The reference's degree scale at paper `p`: the inverse square root of the in-degree plus one. -/
theorem ref_dis (a19 : WVec 1600000) (p : Fin 100000) :
    val_main_v7 (F := Ideal) a19 (ix1 p)
      = Ideal.rsqrt ((Z + ∑ e ∈ Finset.univ.filter (fun e : Fin 1600000 => (a19 (ix1 e)).toInt = (p.val : ℤ)), ONE) + ONE) := by
  have h3 : ∀ e : Fin 1600000, val_main_v3 (F := Ideal) a19 (ix2 e (0 : Fin 1)) = a19 (ix1 e) := fun e => by
    rw [val_main_v3_apply]
    exact congrArg a19 (funext fun a => Fin.ext (by match a with | ⟨0, _⟩ => rfl))
  have h1 : ∀ e : Fin 1600000, val_main_v1 (F := Ideal) (ix1 e) = ONE := fun e => by
    rw [val_main_v1_apply, val_main_cst_apply]; rfl
  rw [val_main_v7_apply, val_main_v6_apply, val_main_v5_apply, val_main_cst_1_apply]
  unfold val_main_v4
  rw [Cert.LibCells.scatterAdd1_apply _ rfl rfl rfl rfl, val_main_v2_apply, val_main_cst_0_apply]
  simp only [h3, h1, Ideal.ofBits_def, Ideal.addf_def, Ideal.hostUnary_rsqrt_def]

/-- The row of the paper table that citation edge `e` reads: its source word, wrapped and clamped. -/
abbrev srcRow (a18 : WVec 1600000) (e : Fin 1600000) : Fin 100000 :=
  rowOf 100000 (by decide) (wrapW 100000 (a18 (ix1 e)))

/-- The reference's product of the paper features with the first weight, entry by entry. -/
theorem ref_v0 (x0 : Mat 100000 128) (x2 : Mat 128 128) (p : Fin 100000) (q : Fin 128) :
    val_main_v0 (F := Ideal) x0 x2 (ix2 p q) = ∑ k : Fin 128, x0 (ix2 p k) * x2 (ix2 k q) := by
  rw [val_main_v0_apply]
  refine Finset.sum_congr rfl fun k _ => ?_
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- The reference's column of citation sources is the column of wrapped words (first copy). -/
theorem ref_idx14 (a18 : WVec 1600000) (e : Fin 1600000) :
    val_main_v14 (F := Ideal) a18 (ix2 e (0 : Fin 1)) = wrapW 100000 (a18 (ix1 e)) := by
  rw [val_main_v14_apply, val_main_v13_apply, val_main_v10_apply, val_main_v12_apply, val_main_v9_apply,
    val_main_v11_apply, val_main_c_apply, val_main_c_2_apply,
    show idx_main_v14 (ix2 e (0 : Fin 1)) = ix1 e from funext fun a => Fin.ext (by match a with | ⟨0, _⟩ => rfl)]
  rfl

/-- The reference's column of citation sources is the column of wrapped words (second copy). -/
theorem ref_idx21 (a18 : WVec 1600000) (e : Fin 1600000) :
    val_main_v21 (F := Ideal) a18 (ix2 e (0 : Fin 1)) = wrapW 100000 (a18 (ix1 e)) := by
  rw [val_main_v21_apply, val_main_v20_apply, val_main_v17_apply, val_main_v19_apply, val_main_v16_apply,
    val_main_v18_apply, val_main_c_3_apply, val_main_c_4_apply,
    show idx_main_v21 (ix2 e (0 : Fin 1)) = ix1 e from funext fun a => Fin.ext (by match a with | ⟨0, _⟩ => rfl)]
  rfl

/-- The reference's gathered update rows: row `e` is the row of the product its source word names. -/
theorem ref_v15 (x0 : Mat 100000 128) (x2 : Mat 128 128) (a18 : WVec 1600000) (e : Fin 1600000) (q : Fin 128) :
    val_main_v15 (F := Ideal) x0 x2 a18 (ix2 e q) = val_main_v0 (F := Ideal) x0 x2 (ix2 (srcRow a18 e) q) := by
  unfold val_main_v15
  generalize val_main_v0 (F := Ideal) x0 x2 = y
  rw [Cert.LibScatterGather2.gather_apply_clamp _ rfl rfl rfl rfl rfl _ _ e q (by decide)]
  refine congrArg (fun r => y (ix2 r q)) (Fin.ext ?_)
  show min (val_main_v14 (F := Ideal) a18 (ix2 e (0 : Fin 1))).toInt.toNat (100000 - 1) = _
  rw [ref_idx14]
  rfl

/-- The reference's gathered degree scales: entry `e` is the scale of the row its source word names. -/
theorem ref_v22 (a18 a19 : WVec 1600000) (e : Fin 1600000) :
    val_main_v22 (F := Ideal) a18 a19 (ix1 e) = val_main_v7 (F := Ideal) a19 (ix1 (srcRow a18 e)) := by
  unfold val_main_v22
  generalize val_main_v7 (F := Ideal) a19 = d
  rw [gather1_apply_clamp _ rfl rfl rfl rfl rfl _ _ e (by decide)]
  refine congrArg (fun r => d (ix1 r)) (Fin.ext ?_)
  show min (val_main_v21 (F := Ideal) a18 (ix2 e (0 : Fin 1))).toInt.toNat (100000 - 1) = _
  rw [ref_idx21]
  rfl

/-- The reference's scaled update rows: the gathered row times the gathered scale. -/
theorem ref_v25 (x0 : Mat 100000 128) (x2 : Mat 128 128) (a18 a19 : WVec 1600000) (e : Fin 1600000) (q : Fin 128) :
    val_main_v25 (F := Ideal) x0 x2 a18 a19 (ix2 e q)
      = val_main_v0 (F := Ideal) x0 x2 (ix2 (srcRow a18 e) q) * val_main_v7 (F := Ideal) a19 (ix1 (srcRow a18 e)) := by
  rw [val_main_v25_apply, val_main_v24_apply, val_main_v23_apply, ref_v15,
    show idx_main_v23 (idx_main_v24 (ix2 e q)) = ix1 e from funext fun a => Fin.ext (by match a with | ⟨0, _⟩ => rfl),
    ref_v22, Ideal.mulf_def]

/-- The reference's neighbour sum: over the edges whose destination is `p`, the scaled rows their sources name. -/
theorem ref_v28 (x0 : Mat 100000 128) (x2 : Mat 128 128) (a18 a19 : WVec 1600000) (p : Fin 100000) (q : Fin 128) :
    val_main_v28 (F := Ideal) x0 x2 a18 a19 (ix2 p q)
      = Z + ∑ e ∈ Finset.univ.filter (fun e : Fin 1600000 => (a19 (ix1 e)).toInt = (p.val : ℤ)),
          val_main_v0 (F := Ideal) x0 x2 (ix2 (srcRow a18 e) q) * val_main_v7 (F := Ideal) a19 (ix1 (srcRow a18 e)) := by
  have h27 : ∀ e : Fin 1600000, val_main_v27 (F := Ideal) a19 (ix2 e (0 : Fin 1)) = a19 (ix1 e) := fun e => by
    rw [val_main_v27_apply]
    exact congrArg a19 (funext fun a => Fin.ext (by match a with | ⟨0, _⟩ => rfl))
  unfold val_main_v28
  rw [Cert.LibScatterGather2.scatterAdd_apply _ rfl rfl rfl rfl, val_main_v26_apply, val_main_cst_5_apply]
  simp only [h27, ref_v25, Ideal.ofBits_def]

/-- The reference's citation term: the scale times the neighbour sum, plus the squared scale times the own row,
    plus the bias. -/
theorem ref_v38 (x0 : Mat 100000 128) (x2 : Mat 128 128) (x3 : Vec1 128) (a18 a19 : WVec 1600000) (p : Fin 100000) (q : Fin 128) :
    val_main_v38 (F := Ideal) x0 x2 x3 a18 a19 (ix2 p q)
      = (val_main_v7 (F := Ideal) a19 (ix1 p) * val_main_v28 (F := Ideal) x0 x2 a18 a19 (ix2 p q)
          + (val_main_v7 (F := Ideal) a19 (ix1 p) * val_main_v7 (F := Ideal) a19 (ix1 p)) * val_main_v0 (F := Ideal) x0 x2 (ix2 p q))
        + x3 (ix1 q) := by
  rw [val_main_v38_apply, val_main_v35_apply, val_main_v30_apply, val_main_v34_apply, val_main_v29_apply, val_main_v8_apply,
    val_main_v33_apply, val_main_v32_apply, val_main_v31_apply, val_main_v37_apply, val_main_v36_apply,
    show idx_main_v8 (idx_main_v29 (ix2 p q)) = ix1 p from funext fun a => Fin.ext (by match a with | ⟨0, _⟩ => rfl),
    show idx_main_v32 (idx_main_v33 (ix2 p q)) = ix1 p from funext fun a => Fin.ext (by match a with | ⟨0, _⟩ => rfl),
    show idx_main_v36 (idx_main_v37 (ix2 p q)) = ix1 q from funext fun a => Fin.ext (by match a with | ⟨0, _⟩ => rfl)]
  simp only [Ideal.addf_def, Ideal.mulf_def]

/-- The reference's column of reverse-edge sources is the column of words wrapped for a table of 64 rows. -/
theorem ref_idx44 (a22 : WVec 100000) (e : Fin 100000) :
    val_main_v44 (F := Ideal) a22 (ix2 e (0 : Fin 1)) = wrapW 64 (a22 (ix1 e)) := by
  rw [val_main_v44_apply, val_main_v43_apply, val_main_v40_apply, val_main_v42_apply, val_main_v39_apply,
    val_main_v41_apply, val_main_c_6_apply, val_main_c_7_apply,
    show idx_main_v44 (ix2 e (0 : Fin 1)) = ix1 e from funext fun a => Fin.ext (by match a with | ⟨0, _⟩ => rfl)]
  rfl

/-- The reference's label rows: row `e` is the label row its reverse source word names. -/
theorem ref_v45 (x1 : Mat 64 64) (a22 : WVec 100000) (e : Fin 100000) (k : Fin 64) :
    val_main_v45 (F := Ideal) x1 a22 (ix2 e k) = x1 (ix2 (rowOf 64 (by decide) (wrapW 64 (a22 (ix1 e)))) k) := by
  unfold val_main_v45
  rw [Cert.LibScatterGather2.gather_apply_clamp _ rfl rfl rfl rfl rfl _ _ e k (by decide)]
  refine congrArg (fun r => x1 (ix2 r k)) (Fin.ext ?_)
  show min (val_main_v44 (F := Ideal) a22 (ix2 e (0 : Fin 1))).toInt.toNat (64 - 1) = _
  rw [ref_idx44]
  rfl

/-- The reference's reverse sum: over the reverse edges whose destination is `p`, the label rows their sources name. -/
theorem ref_v48 (x1 : Mat 64 64) (a22 a23 : WVec 100000) (p : Fin 100000) (k : Fin 64) :
    val_main_v48 (F := Ideal) x1 a22 a23 (ix2 p k)
      = Z + ∑ e ∈ Finset.univ.filter (fun e : Fin 100000 => (a23 (ix1 e)).toInt = (p.val : ℤ)),
          x1 (ix2 (rowOf 64 (by decide) (wrapW 64 (a22 (ix1 e)))) k) := by
  have h47 : ∀ e : Fin 100000, val_main_v47 (F := Ideal) a23 (ix2 e (0 : Fin 1)) = a23 (ix1 e) := fun e => by
    rw [val_main_v47_apply]
    exact congrArg a23 (funext fun a => Fin.ext (by match a with | ⟨0, _⟩ => rfl))
  unfold val_main_v48
  rw [Cert.LibScatterGather2.scatterAdd_apply _ rfl rfl rfl rfl, val_main_v46_apply, val_main_cst_8_apply]
  simp only [h47, ref_v45, Ideal.ofBits_def]

/-- The reference's reverse term: the reverse sum times its weight, the paper features times theirs, and the bias. -/
theorem ref_v54 (x0 : Mat 100000 128) (x1 : Mat 64 64) (x7 : Mat 64 128) (x8 : Mat 128 128) (x9 : Vec1 128)
    (a22 a23 : WVec 100000) (p : Fin 100000) (q : Fin 128) :
    val_main_v54 (F := Ideal) x0 x1 x7 x8 x9 a22 a23 (ix2 p q)
      = ((∑ k : Fin 64, val_main_v48 (F := Ideal) x1 a22 a23 (ix2 p k) * x7 (ix2 k q))
          + ∑ k : Fin 128, x0 (ix2 p k) * x8 (ix2 k q)) + x9 (ix1 q) := by
  rw [val_main_v54_apply, val_main_v51_apply, val_main_v49_apply, val_main_v50_apply, val_main_v53_apply, val_main_v52_apply,
    show idx_main_v52 (idx_main_v53 (ix2 p q)) = ix1 q from funext fun a => Fin.ext (by match a with | ⟨0, _⟩ => rfl)]
  simp only [Ideal.addf_def]
  refine congrArg₂ (· + ·) (congrArg₂ (· + ·) ?_ ?_) rfl
  · refine Finset.sum_congr rfl fun k _ => ?_
    exact congrArg₂ (· * ·)
      (congrArg (val_main_v48 (F := Ideal) x1 a22 a23) (funext fun a => Fin.ext (by match a with | ⟨0, _⟩ => rfl | ⟨1, _⟩ => rfl)))
      (congrArg x7 (funext fun a => Fin.ext (by match a with | ⟨0, _⟩ => rfl | ⟨1, _⟩ => rfl)))
  · refine Finset.sum_congr rfl fun k _ => ?_
    exact congrArg₂ (· * ·)
      (congrArg x0 (funext fun a => Fin.ext (by match a with | ⟨0, _⟩ => rfl | ⟨1, _⟩ => rfl)))
      (congrArg x8 (funext fun a => Fin.ext (by match a with | ⟨0, _⟩ => rfl | ⟨1, _⟩ => rfl)))

/-- The reference's hidden paper features: the two terms summed, halved, and rectified. -/
theorem ref_v74 (x0 : Mat 100000 128) (x1 : Mat 64 64) (x2 : Mat 128 128) (x3 : Vec1 128) (x7 : Mat 64 128) (x8 : Mat 128 128)
    (x9 : Vec1 128) (a18 a19 : WVec 1600000) (a22 a23 : WVec 100000) (p : Fin 100000) (q : Fin 128) :
    val_main_v74 (F := Ideal) x0 x1 x2 x3 x7 x8 x9 a18 a19 a22 a23 (ix2 p q)
      = max ((val_main_v38 (F := Ideal) x0 x2 x3 a18 a19 (ix2 p q)
          + val_main_v54 (F := Ideal) x0 x1 x7 x8 x9 a22 a23 (ix2 p q)) * HALF) Z := by
  rw [val_main_v74_apply, val_main_v73_apply, val_main_v71_apply, val_main_v72_apply, val_main_cst_12_apply,
    val_main_call0_v0_apply, val_main_call0_cst_apply]
  simp only [Ideal.addf_def, Ideal.mulf_def, Ideal.maximumf_def, Ideal.ofBits_def]

/-- A one-hot combination of the label rows by a word in range is the label row the host's gather reads. -/
theorem lab_row (x1 : Mat 64 64) (w : BitVec 32) (h0 : 0 ≤ w.toInt) (h1 : w.toInt < 64) (k : Fin 64) :
    (∑ c : Fin 64, onehot w c.val * x1 (ix2 c k)) = x1 (ix2 (rowOf 64 (by decide) (wrapW 64 w)) k) := by
  have hrow := rowOf_wrapW_of_range 64 (by decide) (by norm_num) w h0 (by exact_mod_cast h1)
  have hw : w.toNat < 64 := hrow ▸ (rowOf 64 (by decide) (wrapW 64 w)).isLt
  exact (onehot_sum_pick (t := 64) (by norm_num) w (fun c => x1 (ix2 c k)) hw).trans
    (congrArg (fun r => x1 (ix2 r k)) (Fin.ext hrow.symm))

end Pap1

open Pap1 in
/-- Layer 1: the kernel program's hidden paper features are the reference's, when every reverse-edge source word
    names a label row. -/
theorem pap1 (x0 : Mat 100000 128) (x1 : Mat 64 64) (x2 : Mat 128 128) (x3 : Vec1 128) (x7 : Mat 64 128) (x8 : Mat 128 128) (x9 : Vec1 128) (a18 : WVec 1600000) (a19 : WVec 1600000) (a22 : WVec 100000) (a23 : WVec 100000)
    (hR : ∀ e : Fin 100000, 0 ≤ (a22 (ix1 e)).toInt ∧ (a22 (ix1 e)).toInt < 64) :
    gMixFull (kAgg128 (gLin x0 x2 (kCol (kDis a19))) a18 a19) (gLin x0 x2 (kCol (kDis a19))) (kCol (kDis a19)) (kRow128 x3)
        (kSeg64 a23 (gPick (kICol a22) x1)) x0 x7 x8 (kRow128 x9)
      = val_main_v74 (F := Ideal) x0 x1 x2 x3 x7 x8 x9 a18 a19 a22 a23 := by
  funext i
  obtain ⟨p, q, rfl⟩ : ∃ (p : Fin 100000) (q : Fin 128), i = ix2 p q := ⟨i 0, i 1, eq_ix2 i⟩
  -- the two programs' degree scales are the same nonnegative real
  have hD : ∀ u : Fin 100000, val_main_v7 (F := Ideal) a19 (ix1 u) = kDis a19 (ix1 u) := fun u => by
    rw [ref_dis, kDis_apply]
  have hnn : ∃ r : ℝ, 0 ≤ r ∧ kDis a19 (ix1 p) = (r : EReal) := by
    rw [kDis_apply]; exact dis_nn _
  have hlab : ∀ (e : Fin 100000) (k : Fin 64),
      (∑ c : Fin 64, onehot (a22 (ix1 e)) c.val * x1 (ix2 c k)) = x1 (ix2 (rowOf 64 (by decide) (wrapW 64 (a22 (ix1 e)))) k) :=
    fun e k => lab_row x1 _ (hR e).1 (hR e).2 k
  -- the reference side, stage by stage
  rw [ref_v74, ref_v38, ref_v54, ref_v28]
  simp only [ref_v48, ref_v0, hD]
  -- the kernel program's side
  rw [gMixFull_apply, kCol_apply, kAgg128_apply, gLin_apply, kCol_apply, kRow128_apply, kRow128_apply]
  simp only [gLin_apply, kCol_apply, kSeg64_apply, gPick_apply, kICol_apply, hlab]
  rw [mix_cites hnn]

end Cert.Bridge

end
-- ==== Proof.BrPap2.lean ====
/-
  The paper side of layer 2 agrees: the neighbour term regroups as in layer 1; and transforming the label table
  before the edges pick their rows gives the same as transforming the sums of the picked rows, because all the
  numbers involved are reals (a sum over edges then commutes with the product by the weight).
-/
import proofs.«428892_j6622839570445_2_alg».proof.Proof.KRead
import proofs.«428892_j6622839570445_2_alg».proof.Proof.GnnMath
import proofs.«428892_j6622839570445_2_alg».proof.Proof.GnnTypes
import proofs.«428892_j6622839570445_2_alg».proof.Proof.Gen.ReferenceIdeal.Read
import proofs.«428892_j6622839570445_2_alg».proof.Proof.LibScatterGather2
import proofs.«428892_j6622839570445_2_alg».proof.Proof.LibCells
import proofs.«428892_j6622839570445_2_alg».proof.Proof.LibPlainDot
import proofs.«428892_j6622839570445_2_alg».proof.Proof.LibColumn
import proofs.«428892_j6622839570445_2_alg».proof.Proof.LibIdealReal

noncomputable section

namespace Cert.Bridge

open Cert.Gnn Cert.KernelIdeal.Val Cert.ReferenceIdeal.Read Idealize.ShloMosaic Idealize.ShloMosaic.ValueIdx
open scoped BigOperators

namespace Pap2

theorem isR_v64 (x0 : Mat 100000 128) (a20 a21 : WVec 100000) (h0 : ∀ i, IsR (x0 i)) (i : (⟨2, ![64, 128]⟩ : Shape).Idx) :
    IsR (val_main_v64 (F := Ideal) x0 a20 a21 i) := by
  obtain ⟨u, c, rfl⟩ : ∃ (u : Fin 64) (c : Fin 128), i = ix2 u c := ⟨i 0, i 1, eq_ix2 i⟩
  unfold val_main_v64
  rw [Cert.LibScatterGather2.scatterAdd_apply _ rfl rfl rfl rfl]
  refine IsR.add ?_ (IsR.sum _ _ fun e _ => ?_)
  · rw [val_main_v62_apply]; exact isR_Z
  · unfold val_main_v61
    rw [Cert.LibScatterGather2.gather_apply_clamp _ rfl rfl rfl rfl rfl _ _ _ _ (by decide)]
    exact h0 _

/-- The gather of scalars from a table of `N` entries by an `M × 1` column of words: the entry at the word read signed
    and clamped into the table. -/
theorem gather1_apply_clamp {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e (0 : Fin 1))).toInt.toNat (N - 1), by omega⟩) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 1))).toInt.toNat (N - 1)
      rw [GatherDims.batchCoord_eq_zero _ _ _ List.not_mem_nil,
        GatherDims.offCoord_eq_zero _ _ _ (by decide : (0 : Fin 1) ∉ (List.finRange 1).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl

theorem v83_eq (a19 : WVec 1600000) (u : Fin 100000) :
    val_main_v83 (F := Ideal) a19 (ix1 u) = kDis a19 (ix1 u) := by
  rw [kDis_apply, val_main_v83_apply, val_main_v82_apply]
  unfold val_main_v80
  rw [Cert.LibCells.scatterAdd1_apply _ rfl rfl rfl rfl]
  have e79 : ∀ e : Fin 1600000, val_main_v79 (F := Ideal) a19 (ix2 e (0 : Fin 1)) = a19 (ix1 e) := fun e => by
    rw [val_main_v79_apply]; exact congrArg a19 (funext fun a => Fin.ext (by match a with | ⟨0, _⟩ => rfl))
  simp only [e79, val_main_v78_apply, val_main_v77_apply, val_main_v81_apply, val_main_cst_13_apply,
    val_main_cst_14_apply, val_main_cst_15_apply, Ideal.hostUnary_rsqrt_def, Ideal.addf_def, Ideal.ofBits_def]

theorem isR_v75 (x0 : Mat 100000 128) (x1 : Mat 64 64) (x4 : Mat 128 128) (x5 : Mat 64 128) (x6 : Vec1 128) (a20 a21 : WVec 100000)
    (h0 : ∀ i, IsR (x0 i)) (h1 : ∀ i, IsR (x1 i)) (h4 : ∀ i, IsR (x4 i)) (h5 : ∀ i, IsR (x5 i)) (h6 : ∀ i, IsR (x6 i))
    (i : (⟨2, ![64, 128]⟩ : Shape).Idx) :
    IsR (val_main_v75 (F := Ideal) x0 x1 x4 x5 x6 a20 a21 i) := by
  rw [val_main_v75_apply, val_main_v70_apply, val_main_v67_apply, val_main_v65_apply, val_main_v66_apply,
    val_main_v69_apply, val_main_v68_apply, val_main_call1_v0_apply, val_main_call1_cst_apply]
  exact IsR.max (IsR.add (IsR.add (IsR.sum _ _ fun k _ => IsR.mul (isR_v64 x0 a20 a21 h0 _) (h4 _))
    (IsR.sum _ _ fun k _ => IsR.mul (h1 _) (h5 _))) (h6 _)) isR_Z

theorem v76_at (x0 : Mat 100000 128) (x1 : Mat 64 64) (x2 : Mat 128 128) (x3 : Vec1 128) (x7 : Mat 64 128) (x8 : Mat 128 128) (x9 : Vec1 128) (x10 : Mat 128 64) (a18 a19 : WVec 1600000) (a22 a23 : WVec 100000) (p : Fin 100000) (q : Fin 64) :
    val_main_v76 (F := Ideal) x0 x1 x2 x3 x7 x8 x9 x10 a18 a19 a22 a23 (ix2 p q)
      = ∑ k : Fin 128, val_main_v74 (F := Ideal) x0 x1 x2 x3 x7 x8 x9 a18 a19 a22 a23 (ix2 p k) * x10 (ix2 k q) := by
  rw [val_main_v76_apply]
  refine Finset.sum_congr rfl fun k _ => ?_
  have el : lidx_main_v76 (ix2 p q) k = ix2 p k := funext fun a => Fin.ext (by match a with | ⟨0, _⟩ => rfl | ⟨1, _⟩ => rfl)
  have er : ridx_main_v76 (ix2 p q) k = ix2 k q := funext fun a => Fin.ext (by match a with | ⟨0, _⟩ => rfl | ⟨1, _⟩ => rfl)
  rw [el, er]

theorem v90_at (a18 : WVec 1600000) (e : Fin 1600000) :
    val_main_v90 (F := Ideal) a18 (ix2 e (0 : Fin 1)) = wrapW 100000 (a18 (ix1 e)) := by
  have ei : idx_main_v90 (ix2 e (0 : Fin 1)) = ix1 e := funext fun a => Fin.ext (by match a with | ⟨0, _⟩ => rfl)
  rw [val_main_v90_apply, ei, val_main_v89_apply, val_main_v86_apply, val_main_v88_apply, val_main_v85_apply,
    val_main_v87_apply, val_main_c_16_apply, val_main_c_17_apply]
  rfl

theorem v97_at (a18 : WVec 1600000) (e : Fin 1600000) :
    val_main_v97 (F := Ideal) a18 (ix2 e (0 : Fin 1)) = wrapW 100000 (a18 (ix1 e)) := by
  have ei : idx_main_v97 (ix2 e (0 : Fin 1)) = ix1 e := funext fun a => Fin.ext (by match a with | ⟨0, _⟩ => rfl)
  rw [val_main_v97_apply, ei, val_main_v96_apply, val_main_v93_apply, val_main_v95_apply, val_main_v92_apply,
    val_main_v94_apply, val_main_c_18_apply, val_main_c_19_apply]
  rfl

theorem v120_at (a22 : WVec 100000) (e : Fin 100000) :
    val_main_v120 (F := Ideal) a22 (ix2 e (0 : Fin 1)) = wrapW 64 (a22 (ix1 e)) := by
  have ei : idx_main_v120 (ix2 e (0 : Fin 1)) = ix1 e := funext fun a => Fin.ext (by match a with | ⟨0, _⟩ => rfl)
  rw [val_main_v120_apply, ei, val_main_v119_apply, val_main_v116_apply, val_main_v118_apply, val_main_v115_apply,
    val_main_v117_apply, val_main_c_21_apply, val_main_c_22_apply]
  rfl

theorem v103_at (a19 : WVec 1600000) (e : Fin 1600000) :
    val_main_v103 (F := Ideal) a19 (ix2 e (0 : Fin 1)) = a19 (ix1 e) := by
  rw [val_main_v103_apply]; exact congrArg a19 (funext fun a => Fin.ext (by match a with | ⟨0, _⟩ => rfl))

theorem v123_at (a23 : WVec 100000) (e : Fin 100000) :
    val_main_v123 (F := Ideal) a23 (ix2 e (0 : Fin 1)) = a23 (ix1 e) := by
  rw [val_main_v123_apply]; exact congrArg a23 (funext fun a => Fin.ext (by match a with | ⟨0, _⟩ => rfl))

theorem v98_at (a18 a19 : WVec 1600000) (e : Fin 1600000) :
    val_main_v98 (F := Ideal) a18 a19 (ix1 e) = kDis a19 (ix1 (rowOf 100000 (by decide) (wrapW 100000 (a18 (ix1 e))))) := by
  unfold val_main_v98
  rw [gather1_apply_clamp _ rfl rfl rfl rfl rfl _ _ _ (by decide), v83_eq]
  refine congrArg (fun r => kDis a19 (ix1 r)) (Fin.ext ?_)
  show min (val_main_v97 (F := Ideal) a18 (ix2 e (0 : Fin 1))).toInt.toNat (100000 - 1)
    = min (wrapW 100000 (a18 (ix1 e))).toInt.toNat (100000 - 1)
  rw [v97_at]

theorem v100_at (a18 a19 : WVec 1600000) (e : Fin 1600000) (q : Fin 64) :
    val_main_v100 (F := Ideal) a18 a19 (ix2 e q) = val_main_v98 (F := Ideal) a18 a19 (ix1 e) := by
  rw [val_main_v100_apply, val_main_v99_apply]
  exact congrArg (val_main_v98 (F := Ideal) a18 a19) (funext fun a => Fin.ext (by match a with | ⟨0, _⟩ => rfl))

theorem v91_at (x0 : Mat 100000 128) (x1 : Mat 64 64) (x2 : Mat 128 128) (x3 : Vec1 128) (x7 : Mat 64 128) (x8 : Mat 128 128) (x9 : Vec1 128) (x10 : Mat 128 64) (a18 a19 : WVec 1600000) (a22 a23 : WVec 100000) (e : Fin 1600000) (q : Fin 64) :
    val_main_v91 (F := Ideal) x0 x1 x2 x3 x7 x8 x9 x10 a18 a19 a22 a23 (ix2 e q)
      = val_main_v76 (F := Ideal) x0 x1 x2 x3 x7 x8 x9 x10 a18 a19 a22 a23 (ix2 (rowOf 100000 (by decide) (wrapW 100000 (a18 (ix1 e)))) q) := by
  unfold val_main_v91
  generalize val_main_v76 (F := Ideal) x0 x1 x2 x3 x7 x8 x9 x10 a18 a19 a22 a23 = y
  rw [Cert.LibScatterGather2.gather_apply_clamp _ rfl rfl rfl rfl rfl _ _ _ _ (by decide)]
  refine congrArg (fun r => y (ix2 r q)) (Fin.ext ?_)
  show min (val_main_v90 (F := Ideal) a18 (ix2 e (0 : Fin 1))).toInt.toNat (100000 - 1)
    = min (wrapW 100000 (a18 (ix1 e))).toInt.toNat (100000 - 1)
  rw [v90_at]

theorem v104_at (x0 : Mat 100000 128) (x1 : Mat 64 64) (x2 : Mat 128 128) (x3 : Vec1 128) (x7 : Mat 64 128) (x8 : Mat 128 128) (x9 : Vec1 128) (x10 : Mat 128 64) (a18 a19 : WVec 1600000) (a22 a23 : WVec 100000) (p : Fin 100000) (q : Fin 64) :
    val_main_v104 (F := Ideal) x0 x1 x2 x3 x7 x8 x9 x10 a18 a19 a22 a23 (ix2 p q)
      = Z + ∑ e ∈ Finset.univ.filter (fun e : Fin 1600000 => (a19 (ix1 e)).toInt = (p.val : ℤ)),
          (∑ k : Fin 128, val_main_v74 (F := Ideal) x0 x1 x2 x3 x7 x8 x9 a18 a19 a22 a23 (ix2 (rowOf 100000 (by decide) (wrapW 100000 (a18 (ix1 e)))) k) * x10 (ix2 k q))
            * kDis a19 (ix1 (rowOf 100000 (by decide) (wrapW 100000 (a18 (ix1 e))))) := by
  unfold val_main_v104
  rw [Cert.LibScatterGather2.scatterAdd_apply _ rfl rfl rfl rfl]
  have hf : (Finset.univ.filter fun e : Fin 1600000 => (val_main_v103 (F := Ideal) a19 (ix2 e (0 : Fin 1))).toInt = (p.val : ℤ))
      = Finset.univ.filter (fun e : Fin 1600000 => (a19 (ix1 e)).toInt = (p.val : ℤ)) :=
    Finset.filter_congr (fun e _ => by rw [v103_at])
  rw [hf]
  refine congrArg₂ (· + ·) ?_ (Finset.sum_congr rfl fun e _ => ?_)
  · rw [val_main_v102_apply, val_main_cst_20_apply, Ideal.ofBits_def]
  · rw [val_main_v101_apply, v91_at, v100_at, v98_at, v76_at, Ideal.mulf_def]

theorem v105_at (a19 : WVec 1600000) (p : Fin 100000) (q : Fin 64) :
    val_main_v105 (F := Ideal) a19 (ix2 p q) = kDis a19 (ix1 p) := by
  rw [val_main_v105_apply, val_main_v84_apply, ← v83_eq]
  exact congrArg (val_main_v83 (F := Ideal) a19) (funext fun a => Fin.ext (by match a with | ⟨0, _⟩ => rfl))

theorem v109_at (a19 : WVec 1600000) (p : Fin 100000) (q : Fin 64) :
    val_main_v109 (F := Ideal) a19 (ix2 p q) = kDis a19 (ix1 p) * kDis a19 (ix1 p) := by
  have ei : idx_main_v108 (idx_main_v109 (ix2 p q)) = ix1 p := funext fun a => Fin.ext (by match a with | ⟨0, _⟩ => rfl)
  rw [val_main_v109_apply, val_main_v108_apply, ei, val_main_v107_apply, v83_eq, Ideal.mulf_def]

theorem v113_at (x11 : Vec1 64) (p : Fin 100000) (q : Fin 64) :
    val_main_v113 (F := Ideal) x11 (ix2 p q) = x11 (ix1 q) := by
  rw [val_main_v113_apply, val_main_v112_apply]
  exact congrArg x11 (funext fun a => Fin.ext (by match a with | ⟨0, _⟩ => rfl))

theorem v129_at (x17 : Vec1 64) (p : Fin 100000) (q : Fin 64) :
    val_main_v129 (F := Ideal) x17 (ix2 p q) = x17 (ix1 q) := by
  rw [val_main_v129_apply, val_main_v128_apply]
  exact congrArg x17 (funext fun a => Fin.ext (by match a with | ⟨0, _⟩ => rfl))

theorem v121_at (x0 : Mat 100000 128) (x1 : Mat 64 64) (x4 : Mat 128 128) (x5 : Mat 64 128) (x6 : Vec1 128) (a20 a21 a22 : WVec 100000) (e : Fin 100000) (k : Fin 128) :
    val_main_v121 (F := Ideal) x0 x1 x4 x5 x6 a20 a21 a22 (ix2 e k)
      = val_main_v75 (F := Ideal) x0 x1 x4 x5 x6 a20 a21 (ix2 (rowOf 64 (by decide) (wrapW 64 (a22 (ix1 e)))) k) := by
  unfold val_main_v121
  generalize val_main_v75 (F := Ideal) x0 x1 x4 x5 x6 a20 a21 = y
  rw [Cert.LibScatterGather2.gather_apply_clamp _ rfl rfl rfl rfl rfl _ _ _ _ (by decide)]
  refine congrArg (fun r => y (ix2 r k)) (Fin.ext ?_)
  show min (val_main_v120 (F := Ideal) a22 (ix2 e (0 : Fin 1))).toInt.toNat (64 - 1)
    = min (wrapW 64 (a22 (ix1 e))).toInt.toNat (64 - 1)
  rw [v120_at]

theorem v124_at (x0 : Mat 100000 128) (x1 : Mat 64 64) (x4 : Mat 128 128) (x5 : Mat 64 128) (x6 : Vec1 128) (a20 a21 a22 a23 : WVec 100000) (p : Fin 100000) (k : Fin 128) :
    val_main_v124 (F := Ideal) x0 x1 x4 x5 x6 a20 a21 a22 a23 (ix2 p k)
      = Z + ∑ e ∈ Finset.univ.filter (fun e : Fin 100000 => (a23 (ix1 e)).toInt = (p.val : ℤ)),
          val_main_v75 (F := Ideal) x0 x1 x4 x5 x6 a20 a21 (ix2 (rowOf 64 (by decide) (wrapW 64 (a22 (ix1 e)))) k) := by
  unfold val_main_v124
  rw [Cert.LibScatterGather2.scatterAdd_apply _ rfl rfl rfl rfl]
  have hf : (Finset.univ.filter fun e : Fin 100000 => (val_main_v123 (F := Ideal) a23 (ix2 e (0 : Fin 1))).toInt = (p.val : ℤ))
      = Finset.univ.filter (fun e : Fin 100000 => (a23 (ix1 e)).toInt = (p.val : ℤ)) :=
    Finset.filter_congr (fun e _ => by rw [v123_at])
  rw [hf]
  refine congrArg₂ (· + ·) ?_ (Finset.sum_congr rfl fun e _ => ?_)
  · rw [val_main_v122_apply, val_main_cst_23_apply, Ideal.ofBits_def]
  · rw [v121_at]

theorem v125_at (x0 : Mat 100000 128) (x1 : Mat 64 64) (x4 : Mat 128 128) (x5 : Mat 64 128) (x6 : Vec1 128) (x15 : Mat 128 64) (a20 a21 a22 a23 : WVec 100000) (p : Fin 100000) (q : Fin 64) :
    val_main_v125 (F := Ideal) x0 x1 x4 x5 x6 x15 a20 a21 a22 a23 (ix2 p q)
      = ∑ k : Fin 128, (Z + ∑ e ∈ Finset.univ.filter (fun e : Fin 100000 => (a23 (ix1 e)).toInt = (p.val : ℤ)),
          val_main_v75 (F := Ideal) x0 x1 x4 x5 x6 a20 a21 (ix2 (rowOf 64 (by decide) (wrapW 64 (a22 (ix1 e)))) k)) * x15 (ix2 k q) := by
  rw [val_main_v125_apply]
  refine Finset.sum_congr rfl fun k _ => ?_
  have el : lidx_main_v125 (ix2 p q) k = ix2 p k := funext fun a => Fin.ext (by match a with | ⟨0, _⟩ => rfl | ⟨1, _⟩ => rfl)
  have er : ridx_main_v125 (ix2 p q) k = ix2 k q := funext fun a => Fin.ext (by match a with | ⟨0, _⟩ => rfl | ⟨1, _⟩ => rfl)
  rw [el, er, v124_at]

theorem v126_at (x0 : Mat 100000 128) (x1 : Mat 64 64) (x2 : Mat 128 128) (x3 : Vec1 128) (x7 : Mat 64 128) (x8 : Mat 128 128) (x9 : Vec1 128) (x16 : Mat 128 64) (a18 a19 : WVec 1600000) (a22 a23 : WVec 100000) (p : Fin 100000) (q : Fin 64) :
    val_main_v126 (F := Ideal) x0 x1 x2 x3 x7 x8 x9 x16 a18 a19 a22 a23 (ix2 p q)
      = ∑ k : Fin 128, val_main_v74 (F := Ideal) x0 x1 x2 x3 x7 x8 x9 a18 a19 a22 a23 (ix2 p k) * x16 (ix2 k q) := by
  rw [val_main_v126_apply]
  refine Finset.sum_congr rfl fun k _ => ?_
  have el : lidx_main_v126 (ix2 p q) k = ix2 p k := funext fun a => Fin.ext (by match a with | ⟨0, _⟩ => rfl | ⟨1, _⟩ => rfl)
  have er : ridx_main_v126 (ix2 p q) k = ix2 k q := funext fun a => Fin.ext (by match a with | ⟨0, _⟩ => rfl | ⟨1, _⟩ => rfl)
  rw [el, er]

theorem v148_at (i : (⟨2, ![100000, 64]⟩ : Shape).Idx) : val_main_v148 (F := Ideal) i = HALF := by
  rw [val_main_v148_apply, val_main_cst_27_apply, Ideal.ofBits_def]

/-- The cites side of the reference's layer 2 at an entry. -/
theorem v114_at (x0 : Mat 100000 128) (x1 : Mat 64 64) (x2 : Mat 128 128) (x3 : Vec1 128) (x7 : Mat 64 128) (x8 : Mat 128 128) (x9 : Vec1 128) (x10 : Mat 128 64) (x11 : Vec1 64) (a18 a19 : WVec 1600000) (a22 a23 : WVec 100000) (p : Fin 100000) (q : Fin 64) :
    val_main_v114 (F := Ideal) x0 x1 x2 x3 x7 x8 x9 x10 x11 a18 a19 a22 a23 (ix2 p q)
      = (kDis a19 (ix1 p) * (Z + ∑ e ∈ Finset.univ.filter (fun e : Fin 1600000 => (a19 (ix1 e)).toInt = (p.val : ℤ)),
            (∑ k : Fin 128, val_main_v74 (F := Ideal) x0 x1 x2 x3 x7 x8 x9 a18 a19 a22 a23 (ix2 (rowOf 100000 (by decide) (wrapW 100000 (a18 (ix1 e)))) k) * x10 (ix2 k q))
              * kDis a19 (ix1 (rowOf 100000 (by decide) (wrapW 100000 (a18 (ix1 e))))))
          + (kDis a19 (ix1 p) * kDis a19 (ix1 p)) * (∑ k : Fin 128, val_main_v74 (F := Ideal) x0 x1 x2 x3 x7 x8 x9 a18 a19 a22 a23 (ix2 p k) * x10 (ix2 k q)))
        + x11 (ix1 q) := by
  rw [val_main_v114_apply, Ideal.addf_def, val_main_v111_apply, Ideal.addf_def, val_main_v106_apply, Ideal.mulf_def,
    val_main_v110_apply, Ideal.mulf_def, v105_at, v109_at, v113_at, v104_at, v76_at]

/-- The relation side of the reference's layer 2 at an entry. -/
theorem v130_at (x0 : Mat 100000 128) (x1 : Mat 64 64) (x2 : Mat 128 128) (x3 : Vec1 128) (x4 : Mat 128 128) (x5 : Mat 64 128) (x6 : Vec1 128) (x7 : Mat 64 128) (x8 : Mat 128 128) (x9 : Vec1 128) (x15 : Mat 128 64) (x16 : Mat 128 64) (x17 : Vec1 64) (a18 a19 : WVec 1600000) (a20 a21 a22 a23 : WVec 100000) (p : Fin 100000) (q : Fin 64) :
    val_main_v130 (F := Ideal) x0 x1 x2 x3 x4 x5 x6 x7 x8 x9 x15 x16 x17 a18 a19 a20 a21 a22 a23 (ix2 p q)
      = ((∑ k : Fin 128, (Z + ∑ e ∈ Finset.univ.filter (fun e : Fin 100000 => (a23 (ix1 e)).toInt = (p.val : ℤ)),
            val_main_v75 (F := Ideal) x0 x1 x4 x5 x6 a20 a21 (ix2 (rowOf 64 (by decide) (wrapW 64 (a22 (ix1 e)))) k)) * x15 (ix2 k q))
          + ∑ k : Fin 128, val_main_v74 (F := Ideal) x0 x1 x2 x3 x7 x8 x9 a18 a19 a22 a23 (ix2 p k) * x16 (ix2 k q))
        + x17 (ix1 q) := by
  rw [val_main_v130_apply, Ideal.addf_def, val_main_v127_apply, Ideal.addf_def, v129_at, v125_at, v126_at]

/-- The degree scale is a nonnegative real. -/
theorem kDis_nn (a19 : WVec 1600000) (u : Fin 100000) : ∃ r : ℝ, 0 ≤ r ∧ kDis a19 (ix1 u) = (r : EReal) := by
  rw [kDis_apply]; exact dis_nn _

/-- The cites side of the kernel program's layer 2 at an entry, regrouped. -/
theorem cites_term (XP : Mat 100000 128) (x10 : Mat 128 64) (x11 : Vec1 64) (a18 a19 : WVec 1600000) (p : Fin 100000) (q : Fin 64) :
    kCol (kDis a19) (ix2 p (0 : Fin 1)) * (kAgg64 (gLin XP x10 (kCol (kDis a19))) a18 a19 (ix2 p q) + gLin XP x10 (kCol (kDis a19)) (ix2 p q))
        + kRow64 x11 (ix2 (0 : Fin 1) q)
      = (kDis a19 (ix1 p) * (Z + ∑ e ∈ Finset.univ.filter (fun e : Fin 1600000 => (a19 (ix1 e)).toInt = (p.val : ℤ)),
            (∑ k : Fin 128, XP (ix2 (rowOf 100000 (by decide) (wrapW 100000 (a18 (ix1 e)))) k) * x10 (ix2 k q))
              * kDis a19 (ix1 (rowOf 100000 (by decide) (wrapW 100000 (a18 (ix1 e))))))
          + (kDis a19 (ix1 p) * kDis a19 (ix1 p)) * (∑ k : Fin 128, XP (ix2 p k) * x10 (ix2 k q)))
        + x11 (ix1 q) := by
  have hin : ∀ e : Fin 1600000, gLin XP x10 (kCol (kDis a19)) (ix2 (rowOf 100000 (by decide) (wrapW 100000 (a18 (ix1 e)))) q)
      = (∑ k : Fin 128, XP (ix2 (rowOf 100000 (by decide) (wrapW 100000 (a18 (ix1 e)))) k) * x10 (ix2 k q))
          * kDis a19 (ix1 (rowOf 100000 (by decide) (wrapW 100000 (a18 (ix1 e))))) := fun e => by
    rw [gLin_apply, kCol_apply]
  rw [kAgg64_apply, Finset.sum_congr rfl (fun e _ => hin e), gLin_apply, kCol_apply, kRow64_apply]
  exact mix_cites (kDis_nn a19 p) _ _ _

/-- The relation term of the kernel program's layer 2 at an entry: the label table is transformed before the edges
    pick their rows; all the numbers being real, this is the transform of the sums of the picked rows. -/
theorem rev_term (XL : Mat 64 128) (x15 : Mat 128 64) (a22 a23 : WVec 100000)
    (hR : ∀ e : Fin 100000, 0 ≤ (a22 (ix1 e)).toInt ∧ (a22 (ix1 e)).toInt < 64)
    (hXL : ∀ i, IsR (XL i)) (h15 : ∀ i, IsR (x15 i)) (p : Fin 100000) (q : Fin 64) :
    kSeg64 a23 (gPick (kICol a22) (kDot2 XL x15)) (ix2 p q)
      = ∑ k : Fin 128, (Z + ∑ e ∈ Finset.univ.filter (fun e : Fin 100000 => (a23 (ix1 e)).toInt = (p.val : ℤ)),
          XL (ix2 (rowOf 64 (by decide) (wrapW 64 (a22 (ix1 e)))) k)) * x15 (ix2 k q) := by
  have hrow : ∀ e : Fin 100000, gPick (kICol a22) (kDot2 XL x15) (ix2 e q)
      = ∑ k : Fin 128, XL (ix2 (rowOf 64 (by decide) (wrapW 64 (a22 (ix1 e)))) k) * x15 (ix2 k q) := by
    intro e
    obtain ⟨h0, h1⟩ := hR e
    have hlt : (a22 (ix1 e)).toNat < 64 := by
      have h := BitVec.toInt_eq_toNat_cond (a22 (ix1 e))
      have hb := (a22 (ix1 e)).isLt
      split at h <;> omega
    have hr : rowOf 64 (by decide) (wrapW 64 (a22 (ix1 e))) = ⟨(a22 (ix1 e)).toNat, hlt⟩ :=
      Fin.ext (rowOf_wrapW_of_range 64 (by decide) (by decide) _ h0 (by exact_mod_cast h1))
    rw [gPick_apply, kICol_apply, onehot_sum_pick (by decide) (a22 (ix1 e)) (fun c => kDot2 XL x15 (ix2 c q)) hlt,
      kDot2_apply, hr]
  rw [kSeg64_apply, Finset.sum_congr rfl (fun e _ => hrow e), Z_eq_zero, zero_add,
    edge_sum_mul_swap _ (fun e k => XL (ix2 (rowOf 64 (by decide) (wrapW 64 (a22 (ix1 e)))) k)) (fun k => x15 (ix2 k q))
      (fun e _ k => hXL _) (fun k => h15 _)]
  exact Finset.sum_congr rfl fun k _ => by rw [zero_add]

end Pap2

open Pap2 in
/-- Layer 2: the kernel program's paper output is the reference's, when every reverse-edge source word names a label
    row and the inputs the label features are made of, and the relation weight, are real. -/
theorem pap2 (x0 : Mat 100000 128) (x1 : Mat 64 64) (x2 : Mat 128 128) (x3 : Vec1 128) (x4 : Mat 128 128) (x5 : Mat 64 128) (x6 : Vec1 128) (x7 : Mat 64 128) (x8 : Mat 128 128) (x9 : Vec1 128) (x10 : Mat 128 64) (x11 : Vec1 64) (x15 : Mat 128 64) (x16 : Mat 128 64) (x17 : Vec1 64) (a18 : WVec 1600000) (a19 : WVec 1600000) (a20 : WVec 100000) (a21 : WVec 100000) (a22 : WVec 100000) (a23 : WVec 100000)
    (hR : ∀ e : Fin 100000, 0 ≤ (a22 (ix1 e)).toInt ∧ (a22 (ix1 e)).toInt < 64)
    (h0 : ∀ i, IsR (x0 i)) (h1 : ∀ i, IsR (x1 i)) (h4 : ∀ i, IsR (x4 i)) (h5 : ∀ i, IsR (x5 i)) (h6 : ∀ i, IsR (x6 i))
    (h15 : ∀ i, IsR (x15 i)) :
    gMixPre (kAgg64 (gLin (val_main_v74 (F := Ideal) x0 x1 x2 x3 x7 x8 x9 a18 a19 a22 a23) x10 (kCol (kDis a19))) a18 a19) (gLin (val_main_v74 (F := Ideal) x0 x1 x2 x3 x7 x8 x9 a18 a19 a22 a23) x10 (kCol (kDis a19))) (kCol (kDis a19)) (kRow64 x11)
        (kSeg64 a23 (gPick (kICol a22) (kDot2 (val_main_v75 (F := Ideal) x0 x1 x4 x5 x6 a20 a21) x15))) (val_main_v74 (F := Ideal) x0 x1 x2 x3 x7 x8 x9 a18 a19 a22 a23) x16 (kRow64 x17)
      = val_main_v149 (F := Ideal) x0 x1 x2 x3 x4 x5 x6 x7 x8 x9 x10 x11 x15 x16 x17 a18 a19 a20 a21 a22 a23 := by
  have hXL := isR_v75 x0 x1 x4 x5 x6 a20 a21 h0 h1 h4 h5 h6
  funext i
  obtain ⟨p, q, rfl⟩ : ∃ (p : Fin 100000) (q : Fin 64), i = ix2 p q := ⟨i 0, i 1, eq_ix2 i⟩
  rw [gMixPre_apply, rev_term _ x15 a22 a23 hR hXL h15, cites_term, kRow64_apply, val_main_v149_apply, Ideal.mulf_def, val_main_v147_apply,
    Ideal.addf_def, v148_at, v114_at, v130_at]

end Cert.Bridge

end
-- ==== Proof.PreFacts.lean ====
/-
  What the precondition says, decoded: the conjunction of the eighteen finiteness tests and the range test on the
  reverse-edge source words is all ones exactly when each tested array holds reals only and each source word,
  read signed, lies in [0, 64).
-/
import proofs.«428892_j6622839570445_2_alg».proof.Pre_finite_inputs
import proofs.«428892_j6622839570445_2_alg».proof.Proof.Gen.Pre_finite_inputs
import proofs.«428892_j6622839570445_2_alg».proof.Proof.GnnMath
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Cert.Pre_finite_inputs Cert.Pre_finite_inputs.Facts Cert.Gnn Idealize.ShloMosaic Idealize.ShloMosaic.ValueIdx

/-- The scalar shape has one index. -/
instance subsingleton_scalar_idx : Subsingleton S_.Idx := ⟨fun a b => funext fun d => d.elim0⟩

/-- The f32 pattern with exponent field all ones and fraction zero denotes plus infinity. -/
theorem inf_pattern : Ideal.ofBits .f32 0x7F800000#32 = (⊤ : EReal) := by
  simp [Ideal.ofBits, Ideal.ieee]

/-- An extended real whose absolute value is below plus infinity is a real: at either infinity the absolute value
    is plus infinity. -/
theorem isR_of_abs_lt_top (x : EReal) (h : max x (-x) < (⊤ : EReal)) : IsR x := by
  induction x using EReal.rec with
  | bot => exact absurd h (by simp)
  | top => exact absurd h (by simp)
  | coe r => exact ⟨r, rfl⟩

/-- One finiteness test at one element: the comparison word of `|x| < +inf` being one says `x` is a real. -/
theorem isR_of_cmp (x : EReal) (h : Ideal.cmp .olt (max x (-x)) (Ideal.ofBits .f32 0x7F800000#32) = 1#1) : IsR x := by
  rw [inf_pattern] at h
  simp only [Ideal.cmp, StableHlo.Predicate.ofBool_eq_one_iff, decide_eq_true_eq] at h
  exact isR_of_abs_lt_top x h

/-- A conjunction of two scalar `i1` arrays is one at an index exactly when both are. -/
theorem andi_apply_eq_one {s : Shape} (A B : IVec s 1) (j : s.Idx) : andi A B j = 1#1 ↔ A j = 1#1 ∧ B j = 1#1 :=
  IntOp.andi_eq_one

/-- One finiteness test: an all-ones reduction by `and` of `|x| < +inf` over every axis of an array says every entry
    of the array is a real. -/
theorem allReal {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) :
    ∀ i, IsR (x i) := by
  intro i
  have hi := Host.reduce_andi_all _ _ hr hu ix0 e i
  have hi' : Ideal.cmp .olt (max (x i) (-(x i))) (Ideal.ofBits .f32 0x7F800000#32) = 1#1 := hi
  exact isR_of_cmp (x i) hi'

/-- The range test: an all-ones reduction by `and` of `0 ≤ a ∧ a < 64` (signed) over a word array says every word,
    read signed, is in [0, 64). -/
theorem allRange {s : Shape} (a : IVec s 32) (hb : S_.BroadcastsInDim s (![] : Fin 0 → Fin s.rank))
    {axes : List (Fin s.rank)} (hr : s.ReducesTo axes S_) (hu : 0 < S_.numel)
    (e : Host.reduce IntOp.andi
          (andi (cmpi .sge a (broadcastInDim s ![] hb (constantI S_ 32 0#32)))
                (cmpi .slt a (broadcastInDim s ![] hb (constantI S_ 32 64#32))))
          (constantI S_ 1 1#1) hr hu ix0 = 1#1) :
    ∀ i, 0 ≤ (a i).toInt ∧ (a i).toInt < 64 := by
  intro i
  have hi := Host.reduce_andi_all _ _ hr hu ix0 e i
  have hi' : IntOp.andi (IntOp.cmpi .sge (a i) 0#32) (IntOp.cmpi .slt (a i) 64#32) = 1#1 := hi
  obtain ⟨h1, h2⟩ := IntOp.andi_eq_one.1 hi'
  have h1' := IntOp.cmpi_sge.1 h1
  have h2' := IntOp.cmpi_slt.1 h2
  have z0 : (0#32 : BitVec 32).toInt = 0 := by decide
  have z64 : (64#32 : BitVec 32).toInt = 64 := by decide
  rw [z0] at h1'
  rw [z64] at h2'
  exact ⟨h1', h2'⟩

/-- Under the precondition the paper features, the label features, the two label weights and bias of layer 1 and the
    relation weight of layer 2 are real at every index, and every reverse-edge source word read signed is in [0, 64). -/
theorem decode (a0 : FVec Ideal S100000x128 .f32) (a1 : FVec Ideal S64x64 .f32) (a2 : FVec Ideal S128x128 .f32) (a3 : FVec Ideal S128 .f32)
    (a4 : FVec Ideal S128x128 .f32) (a5 : FVec Ideal S64x128 .f32) (a6 : FVec Ideal S128 .f32) (a7 : FVec Ideal S64x128 .f32)
    (a8 : FVec Ideal S128x128 .f32) (a9 : FVec Ideal S128 .f32) (a10 : FVec Ideal S128x64 .f32) (a11 : FVec Ideal S64 .f32)
    (a12 : FVec Ideal S128x64 .f32) (a13 : FVec Ideal S128x64 .f32) (a14 : FVec Ideal S64 .f32) (a15 : FVec Ideal S128x64 .f32)
    (a16 : FVec Ideal S128x64 .f32) (a17 : FVec Ideal S64 .f32) (a18 a19 : IVec S1600000 32) (a20 a21 a22 a23 : IVec S100000 32)
    (h : Cert.Pre_finite_inputs.fn (F := Ideal) a0 a1 a2 a3 a4 a5 a6 a7 a8 a9 a10 a11 a12 a13 a14 a15 a16 a17 a18 a19 a20 a21 a22 a23 = fun _ => 1#1) :
    (∀ i, IsR (a0 i)) ∧ (∀ i, IsR (a1 i)) ∧ (∀ i, IsR (a4 i)) ∧ (∀ i, IsR (a5 i)) ∧ (∀ i, IsR (a6 i)) ∧ (∀ i, IsR (a15 i))
      ∧ ∀ e : Fin 100000, 0 ≤ (a22 (ix1 e)).toInt ∧ (a22 (ix1 e)).toInt < 64 := by
  have h0 := congrFun h ix0
  simp only [fn, fn_part1, fn_part2, fn_part3, fn_part4, fn_part5] at h0
  obtain ⟨h0, hR⟩ := (andi_apply_eq_one _ _ _).1 h0
  obtain ⟨h0, h17⟩ := (andi_apply_eq_one _ _ _).1 h0
  obtain ⟨h0, h16⟩ := (andi_apply_eq_one _ _ _).1 h0
  obtain ⟨h0, h15⟩ := (andi_apply_eq_one _ _ _).1 h0
  obtain ⟨h0, h14⟩ := (andi_apply_eq_one _ _ _).1 h0
  obtain ⟨h0, h13⟩ := (andi_apply_eq_one _ _ _).1 h0
  obtain ⟨h0, h12⟩ := (andi_apply_eq_one _ _ _).1 h0
  obtain ⟨h0, h11⟩ := (andi_apply_eq_one _ _ _).1 h0
  obtain ⟨h0, h10⟩ := (andi_apply_eq_one _ _ _).1 h0
  obtain ⟨h0, h9⟩ := (andi_apply_eq_one _ _ _).1 h0
  obtain ⟨h0, h8⟩ := (andi_apply_eq_one _ _ _).1 h0
  obtain ⟨h0, h7⟩ := (andi_apply_eq_one _ _ _).1 h0
  obtain ⟨h0, h6⟩ := (andi_apply_eq_one _ _ _).1 h0
  obtain ⟨h0, h5⟩ := (andi_apply_eq_one _ _ _).1 h0
  obtain ⟨h0, h4⟩ := (andi_apply_eq_one _ _ _).1 h0
  obtain ⟨h0, h3⟩ := (andi_apply_eq_one _ _ _).1 h0
  obtain ⟨h0, h2⟩ := (andi_apply_eq_one _ _ _).1 h0
  obtain ⟨h0, h1⟩ := (andi_apply_eq_one _ _ _).1 h0
  exact ⟨allReal a0 _ _ _ h0, allReal a1 _ _ _ h1, allReal a4 _ _ _ h4, allReal a5 _ _ _ h5, allReal a6 _ _ _ h6,
    allReal a15 _ _ _ h15, fun e => allRange a22 _ _ _ hR (ix1 e)⟩

end Cert.PreFacts

end
-- ==== Proof.lean ====
/-
  The certificate of the two-layer graph network: the kernel program against its reference, over the extended reals.

  Mathematics. Each layer updates the paper features by two relations and the label features by one. The citation
  relation is a degree-normalised neighbour sum: with d = (in-degree + 1)^(-1/2) and y = x·W, the reference forms
  d·Σ_edges (y·d)(source) + d²·y + b, the kernel program scales the node features once, ys = y·d, sums them over the
  edges and forms d·(Σ_edges ys(source) + ys) + b; d is a nonnegative real, so the factor distributes over the sum on the
  extended reals and the two agree. The relations through the 64-row label table are computed in the kernel program by
  one-hot products: a word in [0, 64) picks its row (the reference's gather reads the same row; outside that range
  the two differ, which is why the claim is stated for reverse-edge source words in range), and piling rows by their
  label word is the reference's accumulating scatter, which drops the same out-of-range words. In layer 2 the kernel
  program multiplies the label table by the relation weight before the edges pick rows; summing picked rows commutes
  with that product because under the precondition every number involved is real.

  Structure. The three frames are generated (the reference's is its generated run with the results dropped);
  `preserves` is trivial (the ideal pass rewrote nothing). For `algebraic` the kernel program's run is taken with its two
  result arrays named at the last boundary's contents (KRun.lean), those contents satisfy the equations of the host
  stretches and of the kernel regions (KSsaH.lean, KSsaR.lean over Reg0–Reg7.lean and KTail.lean), composed in
  KOut.lean; the reference's run is generated and read stage by stage; BrLab.lean, BrPap1.lean and BrPap2.lean prove the
  composed terms equal, under the facts PreFacts.lean decodes from the precondition.
-/
import proofs.«428892_j6622839570445_2_alg».proof.Defs
import proofs.«428892_j6622839570445_2_alg».proof.Proof.Gen.Kernel
import proofs.«428892_j6622839570445_2_alg».proof.Proof.Gen.Kernel.Skeleton
import proofs.«428892_j6622839570445_2_alg».proof.Proof.Gen.Kernel.Launch
import proofs.«428892_j6622839570445_2_alg».proof.Proof.Gen.Kernel.Points
import proofs.«428892_j6622839570445_2_alg».proof.Proof.Gen.Kernel.Frame
import proofs.«428892_j6622839570445_2_alg».proof.Proof.Gen.KernelIdeal
import proofs.«428892_j6622839570445_2_alg».proof.Proof.Gen.KernelIdeal.Skeleton
import proofs.«428892_j6622839570445_2_alg».proof.Proof.Gen.KernelIdeal.Launch
import proofs.«428892_j6622839570445_2_alg».proof.Proof.Gen.KernelIdeal.Points
import proofs.«428892_j6622839570445_2_alg».proof.Proof.Gen.KernelIdeal.Frame
import proofs.«428892_j6622839570445_2_alg».proof.Proof.Gen.ReferenceIdeal
import proofs.«428892_j6622839570445_2_alg».proof.Proof.Gen.Pre_finite_inputs
import proofs.«428892_j6622839570445_2_alg».proof.Proof.Gen.ReferenceIdeal.Run
import proofs.«428892_j6622839570445_2_alg».proof.Proof.Gen.ReferenceIdeal.Read
import proofs.«428892_j6622839570445_2_alg».proof.Proof.KRun
import proofs.«428892_j6622839570445_2_alg».proof.Proof.KOut
import proofs.«428892_j6622839570445_2_alg».proof.Proof.BrLab
import proofs.«428892_j6622839570445_2_alg».proof.Proof.BrPap1
import proofs.«428892_j6622839570445_2_alg».proof.Proof.BrPap2
import proofs.«428892_j6622839570445_2_alg».proof.Proof.PreFacts
import Idealize.ShloMosaic.Adequacy
import Idealize.ShloMosaic.Init

noncomputable section

namespace Cert.Proof

open Idealize.ShloMosaic Idealize.SL.Sem Cert.KernelIdeal.Val Cert.Gnn

/-- The kernel program's paper result is the reference's, under the precondition, from memories agreeing on the arguments. -/
theorem outP_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (hpre : Cert.Pre_KernelIdeal m) :
    Wf m ρ c Cert.KernelIdeal.main_v69
      = Cert.ReferenceIdeal.Read.val_main_v149 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  obtain ⟨h0, h1, h4, h5, h6, h15, hR⟩ := Cert.PreFacts.decode _ _ _ _ _ _ _ _ _ _ _ _ _ _ _ _ _ _ _ _ _ _ _ _ (hpre c)
  rw [wf_v69]
  have hXP : kXP m c = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) :=
    Cert.Bridge.pap1 _ _ _ _ _ _ _ _ _ _ _ hR
  have hXL : kXL m c = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) :=
    Cert.Bridge.lab1 _ _ _ _ _ _ _
  unfold kOutP
  rw [hXP, hXL]
  exact Cert.Bridge.pap2 _ _ _ _ _ _ _ _ _ _ _ _ _ _ _ _ _ _ _ _ _ hR h0 h1 h4 h5 h6 h15

/-- The kernel program's label result is the reference's, under the precondition. -/
theorem outL_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (hpre : Cert.Pre_KernelIdeal m) :
    Wf m ρ c Cert.KernelIdeal.main_v84
      = Cert.ReferenceIdeal.Read.val_main_v146 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) := by
  obtain ⟨h0, h1, h4, h5, h6, h15, hR⟩ := Cert.PreFacts.decode _ _ _ _ _ _ _ _ _ _ _ _ _ _ _ _ _ _ _ _ _ _ _ _ (hpre c)
  rw [wf_v84]
  have hXP : kXP m c = Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) :=
    Cert.Bridge.pap1 _ _ _ _ _ _ _ _ _ _ _ hR
  have hXL : kXL m c = Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) :=
    Cert.Bridge.lab1 _ _ _ _ _ _ _
  unfold kOutL
  rw [hXP, hXL]
  exact Cert.Bridge.lab2 _ _ _ _ _ _ _ _ _ _ _ _ _ _ _ _ _ _ _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run, and end with equal results: the kernel program's are the last boundary's contents, which
    are the reference's composed terms of the same arguments. -/
theorem algebraic : Cert.algebraic_KernelIdeal_ReferenceIdeal := by
  intro m ρ m' ρ' hpre hagree
  refine ⟨fun c => Wf m ρ c Cert.KernelIdeal.main_v69, fun c => Wf m ρ c Cert.KernelIdeal.main_v84,
    Cert.KernelIdeal.GenV.run_named (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20, e21, e22, e23⟩ := hagree c
    rw [Cert.ReferenceIdeal.Read.val_main_v149_eq, e0, e1, e2, e3, e4, e5, e6, e7, e8, e9, e10, e11, e15, e16, e17, e18, e19, e20, e21, e22, e23]
    exact (outP_eq m ρ c hpre).symm
  · obtain ⟨e0, e1, e2, e3, e4, e5, e6, e7, e8, e9, e10, e11, e12, e13, e14, e15, e16, e17, e18, e19, e20, e21, e22, e23⟩ := hagree c
    rw [Cert.ReferenceIdeal.Read.val_main_v146_eq, e0, e1, e2, e3, e4, e5, e6, e7, e8, e9, e12, e13, e14, e18, e19, e20, e21, e22, e23]
    exact (outL_eq m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
